-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000 : S_.BroadcastsInDim S50000 (![] : Fin 0 → Fin S50000.rank)
  reducesTo_S50000_S_d0 : S50000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg10 : FVec F S2x128 .f32) (main_arg11 : FVec F S2x128 .f32) (main_v33 : IVec S_ 1) : IVec S_ 1 :=
  let main_v34 : FVec F S2x128 .f32 := Host.absf main_arg10
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg11
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  main_v43

def fn_part1 {F : FTy → Type} [FloatOps F] (main_arg7 : FVec F S2x128 .f32) (main_arg8 : FVec F S2x128x128 .f32) (main_arg9 : FVec F S2x128 .f32) (main_arg10 : FVec F S2x128 .f32) (main_arg11 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg7
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128x128 .f32 := Host.absf main_arg8
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg9
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S800000 32) (main_arg2 : IVec S800000 32) (main_arg3 : FVec F S800000 .f32) (main_arg4 : IVec S50000 32) (main_arg5 : FVec F S50000 .f32) (main_arg6 : FVec F S2x128x128 .f32) (main_arg7 : FVec F S2x128 .f32) (main_arg8 : FVec F S2x128x128 .f32) (main_arg9 : FVec F S2x128 .f32) (main_arg10 : FVec F S2x128 .f32) (main_arg11 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000 .f32 := Host.absf main_arg5
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S2x128x128 .f32 := Host.absf main_arg6
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S800000 : Shape := ⟨1, ![800000]⟩
abbrev S50000 : Shape := ⟨1, ![50000]⟩
abbrev S2x128x128 : Shape := ⟨3, ![2, 128, 128]⟩
abbrev S2x128 : Shape := ⟨2, ![2, 128]⟩
abbrev S50000x1 : Shape := ⟨2, ![50000, 1]⟩
abbrev S800000x1 : Shape := ⟨2, ![800000, 1]⟩
abbrev S_ : Shape := ⟨0, ![]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S512x128 : Shape := ⟨2, ![512, 128]⟩
abbrev S5000x1 : Shape := ⟨2, ![5000, 1]⟩
abbrev S5000x512 : Shape := ⟨2, ![5000, 512]⟩

abbrev nBuf : Space → Nat
  | .hbm => 103
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000, .i32⟩
  | .hbm, ⟨5, _⟩ => ⟨S50000, .f32⟩
  | .hbm, ⟨6, _⟩ => ⟨S2x128x128, .f32⟩
  | .hbm, ⟨7, _⟩ => ⟨S2x128, .f32⟩
  | .hbm, ⟨8, _⟩ => ⟨S2x128x128, .f32⟩
  | .hbm, ⟨9, _⟩ => ⟨S2x128, .f32⟩
  | .hbm, ⟨10, _⟩ => ⟨S2x128, .f32⟩
  | .hbm, ⟨11, _⟩ => ⟨S2x128, .f32⟩
  | .hbm, ⟨12, _⟩ => ⟨S50000x1, .f32⟩
  | .hbm, ⟨13, _⟩ => ⟨S50000x1, .i32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128x128, .f32⟩
  | .hbm, ⟨35, _⟩ => ⟨S128x128, .f32⟩
  | .hbm, ⟨36, _⟩ => ⟨S1x128, .f32⟩
  | .hbm, ⟨37, _⟩ => ⟨S128, .f32⟩
  | .hbm, ⟨38, _⟩ => ⟨S50000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S128, .f32⟩
  | .hbm, ⟨57, _⟩ => ⟨S50000x128, .f32⟩
  | .hbm, ⟨58, _⟩ => ⟨S800000x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S50000x128, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S128, .f32⟩
  | .hbm, ⟨99, _⟩ => ⟨S1x128, .f32⟩
  | .hbm, ⟨100, _⟩ => ⟨S128, .f32⟩
  | .hbm, ⟨101, _⟩ => ⟨S50000x128, .f32⟩
  | .hbm, ⟨102, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S5000x1, .i32⟩
  | .local _ .vmem, ⟨37, _⟩ => ⟨S5000x1, .i32⟩
  | .local _ .vmem, ⟨38, _⟩ => ⟨S512x128, .f32⟩
  | .local _ .vmem, ⟨39, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_10 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_scratch0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S512x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  bcast_S50000_S50000x1_0 : S50000.BroadcastsInDim S50000x1 (![0] : Fin 1 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x512_S5000x128_S512x128_0_0_1_1_n_n_wf : DotDims.WF S5000x512 S5000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .i32 = 32 ∨ (Rect.block (s := S50000x1) S5000x1.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x128.size a ≤ S512x128.size a
  hwx4_3 : ∀ i : grid4.Coords, EltTy.bits .f32 = 32 ∨ (Rect.block (s := S512x128) S512x128.size (cc4_transform_3 i) (hinb4_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v75) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v1) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76) S512x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S2x128x128 : Shape := ⟨3, ![2, 128, 128]⟩
abbrev S2x128 : Shape := ⟨2, ![2, 128]⟩
abbrev S800000x1 : Shape := ⟨2, ![800000, 1]⟩
abbrev S_ : Shape := ⟨0, ![]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1 : Shape := ⟨2, ![50000, 1]⟩
abbrev S512x128 : Shape := ⟨2, ![512, 128]⟩

abbrev nBuf : Space → Nat
  | .hbm => 163
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S50000, .i32⟩
  | 5 => ⟨S50000, .f32⟩
  | 6 => ⟨S2x128x128, .f32⟩
  | 7 => ⟨S2x128, .f32⟩
  | 8 => ⟨S2x128x128, .f32⟩
  | 9 => ⟨S2x128, .f32⟩
  | 10 => ⟨S2x128, .f32⟩
  | 11 => ⟨S2x128, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S1x128x128, .f32⟩
  | 29 => ⟨S128x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S50000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S800000x1, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S800000x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S1x128x128, .f32⟩
  | 101 => ⟨S128x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x128x128, .f32⟩
  | 112 => ⟨S128x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S128, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x1, .f32⟩
  | 29 => ⟨S50000x128, .f32⟩
  | 30 => ⟨S50000x128, .f32⟩
  | 31 => ⟨S_, .f32⟩
  | 32 => ⟨S512x128, .f32⟩
  | 33 => ⟨S50000x1, .i32⟩
  | 34 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_cst : Ref sig .tc := ⟨.hbm, 36, rfl⟩
abbrev main_call0_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩
abbrev main_v60 : Ref sig .tc := ⟨.hbm, 84, rfl⟩
abbrev main_c_6 : Ref sig .tc := ⟨.hbm, 85, rfl⟩
abbrev main_v61 : Ref sig .tc := ⟨.hbm, 86, rfl⟩
abbrev main_v62 : Ref sig .tc := ⟨.hbm, 87, rfl⟩
abbrev main_c_7 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call2_cst : Ref sig .tc := ⟨.hbm, 108, rfl⟩
abbrev main_call2_v0 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_9 : Ref sig .tc := ⟨.hbm, 119, rfl⟩
abbrev main_v90 : Ref sig .tc := ⟨.hbm, 120, rfl⟩
abbrev main_cst_10 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_11 : Ref sig .tc := ⟨.hbm, 128, rfl⟩
abbrev main_v97 : Ref sig .tc := ⟨.hbm, 129, rfl⟩
abbrev main_cst_12 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_13 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_call3_cst : Ref sig .tc := ⟨.hbm, 153, rfl⟩
abbrev main_call3_v0 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_14 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S2x128x128_S1x128x128_1_0_0 : S2x128x128.Slices ![1, 0, 0] S1x128x128
  slices_S2x128_S1x128_1_0 : S2x128.Slices ![1, 0] S1x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S512x128 : S_.BroadcastsInDim S512x128 (![] : Fin 0 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

class Facts : Prop extends Facts₀ where

variable [Facts]
-- ==== Proof.BitsFrameR0.lean ====
/-
  The first layer's perceptron call, one grid point at a time.  A point is handed rows 5000·t … 5000·t + 4999 of the
  message-passed array, the two 128 × 128 weight matrices and the two bias rows, each whole in its staging buffer; its
  body loads all five, computes, and stores the 5000 × 128 result whole into the output window's buffer.  So after the
  body the output buffer holds the body's arithmetic on the five input blocks and every input buffer holds what it held.
  Nothing is kept between points.
-/
import proofs.«408064_j47811575939605_1_alg».proof.Proof.Gen.Kernel.Launch
import proofs.«408064_j47811575939605_1_alg».proof.Proof.Gen.Kernel.Skeleton
import proofs.«408064_j47811575939605_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## Call 0: the windows' blocks -/

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: where it is not fetched
    its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: where it is not fetched
    its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0
abbrev rC0 : Rect S128 := Rect.unit (s := S128) ![0] S128.size inb_S128_S128_0

/-! ## What the body leaves in the output window's buffer -/

/-- The output buffer after the body: its one store, of the body's arithmetic on the five input blocks. -/
def out0_5 (x0 : Vec F S5000x128 .f32) (x1 : Vec F S128x128 .f32) (x2 : Vec F S128 .f32) (x3 : Vec F S128x128 .f32) (x4 : Vec F S128 .f32) : Vec F S5000x128 .f32 :=
  View.canon [⟨rA0, k0_pay1 (View.ld x0 rA0) (View.ld x1 rB0) (View.ld x2 rC0) (View.ld x3 rB0) (View.ld x4 rC0)⟩]

/-- The one store covers the buffer. -/
theorem cover0_5 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

/-! ## The body's triple -/

set_option maxHeartbeats 1000000 in
/-- The body on whole staging buffers, the inputs' at contents x0 … x4 and the output's at anything, runs to the
    continuation with the inputs' buffers as they were and the output's at `out0_5` of them. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The call's proof data -/

/-- The arrays as the call finds them; after the body at point t each input's buffer at its block and the output's at
    `out0_5` of the input blocks; between points only the buffers no window stages and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a grid point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; what rides between points passes
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsFrameR1.lean ====
/-
  The first layer's normalisation call, one grid point at a time.  A point is handed rows 5000·t … 5000·t + 4999 of the
  perceptron's output and four vectors of 128 (the column means, the column variances, the scale and the shift), each
  whole in its staging buffer; its body loads all five, computes entry by entry, and stores the 5000 × 128 result whole
  into the output window's buffer.  So after the body the output buffer holds the body's arithmetic on the five input
  blocks and every input buffer holds what it held.  Nothing is kept between points.
-/
import proofs.«408064_j47811575939605_1_alg».proof.Proof.Gen.Kernel.Launch
import proofs.«408064_j47811575939605_1_alg».proof.Proof.Gen.Kernel.Skeleton
import proofs.«408064_j47811575939605_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## Call 1: the windows' blocks -/

/-- Window w's block at grid point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched
    its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched
    its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched
    its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched
    its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rA1 : Rect S5000x128 := Rect.unit (s := S5000x128) ![0, 0] S5000x128.size inb_S5000x128_S5000x128_0_0
abbrev rB1 : Rect S128x128 := Rect.unit (s := S128x128) ![0, 0] S128x128.size inb_S128x128_S128x128_0_0
abbrev rC1 : Rect S128 := Rect.unit (s := S128) ![0] S128.size inb_S128_S128_0

/-! ## What the body leaves in the output window's buffer -/

/-- The output buffer after the body: its one store, of the body's arithmetic on the five input blocks. -/
def out1_5 (x0 : Vec F S5000x128 .f32) (x1 : Vec F S128 .f32) (x2 : Vec F S128 .f32) (x3 : Vec F S128 .f32) (x4 : Vec F S128 .f32) : Vec F S5000x128 .f32 :=
  View.canon [⟨rA1, k1_pay1 (View.ld x0 rA1) (View.ld x1 rC1) (View.ld x2 rC1) (View.ld x3 rC1) (View.ld x4 rC1)⟩]

/-- The one store covers the buffer. -/
theorem cover1_5 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

/-! ## The body's triple -/

set_option maxHeartbeats 1000000 in
/-- The body on whole staging buffers, the inputs' at contents x0 … x4 and the output's at anything, runs to the
    continuation with the inputs' buffers as they were and the output's at `out1_5` of them. -/
theorem sound_kernel1 (c : Dev nD) (E : Set ℕ) (i : grid1.Coords) (arg1 : Memref sig .tc .vmem S5000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128 .f32) (x2 : Vec F S128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The call's proof data -/

/-- The arrays as the call finds them; after the body at point t each input's buffer at its block and the output's at
    `out1_5` of the input blocks; between points only the buffers no window stages and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a grid point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; what rides between points passes
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsFrameR2.lean ====
/-
  The second layer's perceptron call, one grid point at a time.  A point is handed rows 5000·t … 5000·t + 4999 of the
  message-passed array, the two 128 × 128 weight matrices and the two bias rows, each whole in its staging buffer; its
  body loads all five, computes, and stores the 5000 × 128 result whole into the output window's buffer.  So after the
  body the output buffer holds the body's arithmetic on the five input blocks and every input buffer holds what it held.
  Nothing is kept between points.
-/
import proofs.«408064_j47811575939605_1_alg».proof.Proof.Gen.Kernel.Launch
import proofs.«408064_j47811575939605_1_alg».proof.Proof.Gen.Kernel.Skeleton
import proofs.«408064_j47811575939605_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## Call 2: the windows' blocks -/

/-- Window w's block at grid point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched
    its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched
    its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched
    its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched
    its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched
    its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rA2 : Rect S5000x128 := Rect.unit (s := S5000x128) ![0, 0] S5000x128.size inb_S5000x128_S5000x128_0_0
abbrev rB2 : Rect S128x128 := Rect.unit (s := S128x128) ![0, 0] S128x128.size inb_S128x128_S128x128_0_0
abbrev rC2 : Rect S128 := Rect.unit (s := S128) ![0] S128.size inb_S128_S128_0

/-! ## What the body leaves in the output window's buffer -/

/-- The output buffer after the body: its one store, of the body's arithmetic on the five input blocks. -/
def out2_5 (x0 : Vec F S5000x128 .f32) (x1 : Vec F S128x128 .f32) (x2 : Vec F S128 .f32) (x3 : Vec F S128x128 .f32) (x4 : Vec F S128 .f32) : Vec F S5000x128 .f32 :=
  View.canon [⟨rA2, k2_pay1 (View.ld x0 rA2) (View.ld x1 rB2) (View.ld x2 rC2) (View.ld x3 rB2) (View.ld x4 rC2)⟩]

/-- The one store covers the buffer. -/
theorem cover2_5 (p0 : Vec F S5000x128 .f32) (y : S5000x128.Idx) :
    ∃ pc ∈ ([⟨rA2, p0⟩] : List (View.Piece (Elt F) S5000x128 .f32)), y ∈ pc.1.set :=
  View.cover_of_tiled [⟨rA2, p0⟩] S5000x128.size (by rfl) y

/-! ## The body's triple -/

set_option maxHeartbeats 1000000 in
/-- The body on whole staging buffers, the inputs' at contents x0 … x4 and the output's at anything, runs to the
    continuation with the inputs' buffers as they were and the output's at `out2_5` of them. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The call's proof data -/

/-- The arrays as the call finds them; after the body at point t each input's buffer at its block and the output's at
    `out2_5` of the input blocks; between points only the buffers no window stages and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a grid point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the triple applies; what rides between points passes
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsFrameR3.lean ====
/-
  The second layer's normalisation call, one grid point at a time.  A point is handed rows 5000·t … 5000·t + 4999 of the
  perceptron's output and four vectors of 128 (the column means, the column variances, the scale and the shift), each
  whole in its staging buffer; its body loads all five, computes entry by entry, and stores the 5000 × 128 result whole
  into the output window's buffer.  So after the body the output buffer holds the body's arithmetic on the five input
  blocks and every input buffer holds what it held.  Nothing is kept between points.
-/
import proofs.«408064_j47811575939605_1_alg».proof.Proof.Gen.Kernel.Launch
import proofs.«408064_j47811575939605_1_alg».proof.Proof.Gen.Kernel.Skeleton
import proofs.«408064_j47811575939605_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## Call 3: the windows' blocks -/

/-- Window w's block at grid point t, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched
    its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: where it is not fetched
    its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: where it is not fetched
    its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not: where it is not fetched
    its block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not: where it is not fetched
    its block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev rA3 : Rect S5000x128 := Rect.unit (s := S5000x128) ![0, 0] S5000x128.size inb_S5000x128_S5000x128_0_0
abbrev rB3 : Rect S128x128 := Rect.unit (s := S128x128) ![0, 0] S128x128.size inb_S128x128_S128x128_0_0
abbrev rC3 : Rect S128 := Rect.unit (s := S128) ![0] S128.size inb_S128_S128_0

/-! ## What the body leaves in the output window's buffer -/

/-- The output buffer after the body: its one store, of the body's arithmetic on the five input blocks. -/
def out3_5 (x0 : Vec F S5000x128 .f32) (x1 : Vec F S128 .f32) (x2 : Vec F S128 .f32) (x3 : Vec F S128 .f32) (x4 : Vec F S128 .f32) : Vec F S5000x128 .f32 :=
  View.canon [⟨rA3, k3_pay1 (View.ld x0 rA3) (View.ld x1 rC3) (View.ld x2 rC3) (View.ld x3 rC3) (View.ld x4 rC3)⟩]

/-- The one store covers the buffer. -/
theorem cover3_5 (p0 : Vec F S5000x128 .f32) (y : S5000x128.Idx) :
    ∃ pc ∈ ([⟨rA3, p0⟩] : List (View.Piece (Elt F) S5000x128 .f32)), y ∈ pc.1.set :=
  View.cover_of_tiled [⟨rA3, p0⟩] S5000x128.size (by rfl) y

/-! ## The body's triple -/

set_option maxHeartbeats 1000000 in
/-- The body on whole staging buffers, the inputs' at contents x0 … x4 and the output's at anything, runs to the
    continuation with the inputs' buffers as they were and the output's at `out3_5` of them. -/
theorem sound_kernel3 (c : Dev nD) (E : Set ℕ) (i : grid3.Coords) (arg1 : Memref sig .tc .vmem S5000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128 .f32) (x2 : Vec F S128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The call's proof data -/

/-- The arrays as the call finds them; after the body at point t each input's buffer at its block and the output's at
    `out3_5` of the input blocks; between points only the buffers no window stages and the generator register, untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a grid point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the triple applies; what rides between points passes
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsFrameR4.lean ====
/-
  The pooling call, one grid point at a time.  A point is handed rows 5000·t … 5000·t + 4999 of the node array, of the
  weight column and of the graph-id column, each whole in its staging buffer, the 512 × 128 output window's buffer, and
  a 512 × 128 scratch buffer that no window stages and that keeps the running sums from one point to the next.  At the
  first point the body first fills the scratch with zeros; at every point it then adds the block's contribution to the
  scratch and copies the scratch, whole, into the output window's buffer (which is written back after the last point
  only).  So between points the scratch holds the sums over the blocks seen so far: that is the invariant, and what the
  output buffer holds after point t is the same array.
-/
import proofs.«408064_j47811575939605_1_alg».proof.Proof.Gen.Kernel.Launch
import proofs.«408064_j47811575939605_1_alg».proof.Proof.Gen.Kernel.Skeleton
import proofs.«408064_j47811575939605_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The windows' blocks -/

/-- Window w's block at grid point t, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev rA4 : Rect S5000x128 := Rect.unit (s := S5000x128) ![0, 0] S5000x128.size inb_S5000x128_S5000x128_0_0
abbrev rD4 : Rect S5000x1 := Rect.unit (s := S5000x1) ![0, 0] S5000x1.size inb_S5000x1_S5000x1_0_0
abbrev rO4 : Rect S512x128 := Rect.unit (s := S512x128) ![0, 0] S512x128.size inb_S512x128_S512x128_0_0
/-- The scratch buffer, and the view the body reads and writes it through. -/
abbrev scM4 : Memref sig .tc .vmem S512x128 .f32 := Memref.whole cc4_scratch0
abbrev VS4 : View sig .tc .vmem S512x128 .f32 := scM4.view

theorem hz2 : (![0, 0] : Fin 2 → Nat) = fun _ => 0 := by funext a; fin_cases a <;> rfl

/-! ## The first point or a later one -/

/-- The body's one branch: taken where the grid coordinate is 0. -/
abbrev cond4 (i : grid4.Coords) : Prop := (Scalar.cmpi .ne (Scalar.extui (Scalar.cmpi .eq (BitVec.ofNat 32 (i 0).val) 0#32)) 0#32) = 1#1
theorem hcond4 : ∀ t : Fin cfg4.N, cond4 (grid4.coords t) ↔ t.val = 0 :=
  (by decide +kernel : ∀ t : Fin grid4.N, cond4 (grid4.coords t) ↔ t.val = 0)

/-! ## What the body's stores leave in the scratch and in the output buffer -/

/-- The first point's stores into the scratch, last first: the block's step over the zeros just read back, then the zeros. -/
def piecesA4 (x0 : Vec F S5000x128 .f32) (x1 : Vec F S5000x1 .f32) (x2 : Vec F S5000x1 .i32) : List (View.Piece (Elt F) S512x128 .f32) :=
  [⟨rO4, k4_pay2 (View.ld x0 rA4) (View.ld x1 rD4) (View.ld x2 rD4) (VS4.readCov [⟨rO4, k4_pay1 (F := F)⟩] rO4.toLoadRect)⟩, ⟨rO4, k4_pay1 (F := F)⟩]
/-- A later point's one store into the scratch: the block's step over what the scratch held. -/
def piecesB4 (x0 : Vec F S5000x128 .f32) (x1 : Vec F S5000x1 .f32) (x2 : Vec F S5000x1 .i32) (s : Vec F S512x128 .f32) : List (View.Piece (Elt F) S512x128 .f32) :=
  [⟨rO4, k4_pay2 (View.ld x0 rA4) (View.ld x1 rD4) (View.ld x2 rD4) (View.ld s rO4)⟩]
def scA4 (x0 : Vec F S5000x128 .f32) (x1 : Vec F S5000x1 .f32) (x2 : Vec F S5000x1 .i32) : Vec F S512x128 .f32 := View.canon (piecesA4 x0 x1 x2)
def scB4 (x0 : Vec F S5000x128 .f32) (x1 : Vec F S5000x1 .f32) (x2 : Vec F S5000x1 .i32) (s : Vec F S512x128 .f32) : Vec F S512x128 .f32 := View.canon (piecesB4 x0 x1 x2 s)
/-- The output buffer: one store of the scratch read back. -/
def outA4 (x0 : Vec F S5000x128 .f32) (x1 : Vec F S5000x1 .f32) (x2 : Vec F S5000x1 .i32) : Vec F S512x128 .f32 :=
  View.canon [⟨rO4, VS4.readCov (piecesA4 x0 x1 x2) rO4.toLoadRect⟩]
def outB4 (x0 : Vec F S5000x128 .f32) (x1 : Vec F S5000x1 .f32) (x2 : Vec F S5000x1 .i32) (s : Vec F S512x128 .f32) : Vec F S512x128 .f32 :=
  View.canon [⟨rO4, VS4.readCov (piecesB4 x0 x1 x2 s) rO4.toLoadRect⟩]

/-- A list of stores whose first is of the whole buffer covers it. -/
theorem cover_head4 (p : Vec F S512x128 .f32) (L : List (View.Piece (Elt F) S512x128 .f32)) (y : S512x128.Idx) :
    ∃ pc ∈ ((⟨rO4, p⟩ : View.Piece (Elt F) S512x128 .f32) :: L), y ∈ pc.1.set :=
  ⟨_, List.mem_cons_self, View.mem_set_unit_zero hz2 inb_S512x128_S512x128_0_0 y⟩

theorem coverA4 (x0 : Vec F S5000x128 .f32) (x1 : Vec F S5000x1 .f32) (x2 : Vec F S5000x1 .i32) (y : S512x128.Idx) :
    ∃ pc ∈ piecesA4 x0 x1 x2, y ∈ pc.1.set := by unfold piecesA4; exact cover_head4 _ _ y
theorem coverB4 (x0 : Vec F S5000x128 .f32) (x1 : Vec F S5000x1 .f32) (x2 : Vec F S5000x1 .i32) (s : Vec F S512x128 .f32) (y : S512x128.Idx) :
    ∃ pc ∈ piecesB4 x0 x1 x2 s, y ∈ pc.1.set := by unfold piecesB4; exact cover_head4 _ _ y

/-- Read plainly: after the first point the scratch holds the block's step over zeros, -/
theorem scA4_eq (x0 : Vec F S5000x128 .f32) (x1 : Vec F S5000x1 .f32) (x2 : Vec F S5000x1 .i32) :
    scA4 x0 x1 x2 = k4_pay2 x0 x1 x2 (k4_pay1 (F := F)) := by
  unfold scA4 piecesA4
  rw [View.canon_cons_unit_zero hz2, View.readCov_unit_zero _ hz2, View.ld_unit_zero hz2, View.ld_unit_zero hz2, View.ld_unit_zero hz2]
/-- after a later point the block's step over what it held, -/
theorem scB4_eq (x0 : Vec F S5000x128 .f32) (x1 : Vec F S5000x1 .f32) (x2 : Vec F S5000x1 .i32) (s : Vec F S512x128 .f32) :
    scB4 x0 x1 x2 s = k4_pay2 x0 x1 x2 s := by
  unfold scB4 piecesB4
  rw [View.canon_unit_zero hz2, View.ld_unit_zero hz2, View.ld_unit_zero hz2, View.ld_unit_zero hz2, View.ld_unit_zero hz2]
/-- and the output buffer holds what the scratch holds. -/
theorem outA4_eq (x0 : Vec F S5000x128 .f32) (x1 : Vec F S5000x1 .f32) (x2 : Vec F S5000x1 .i32) : outA4 x0 x1 x2 = scA4 x0 x1 x2 := by
  unfold outA4 scA4
  rw [View.canon_unit_zero hz2, View.readCov_eq_canon_ld _ _ _ (coverA4 x0 x1 x2), View.ld_unit_zero hz2]
theorem outB4_eq (x0 : Vec F S5000x128 .f32) (x1 : Vec F S5000x1 .f32) (x2 : Vec F S5000x1 .i32) (s : Vec F S512x128 .f32) :
    outB4 x0 x1 x2 s = scB4 x0 x1 x2 s := by
  unfold outB4 scB4
  rw [View.canon_unit_zero hz2, View.readCov_eq_canon_ld _ _ _ (coverB4 x0 x1 x2 s), View.ld_unit_zero hz2]

/-! ## The body's triples, one per case -/

set_option maxHeartbeats 1000000 in
/-- At the first point: the inputs' buffers at x0, x1, x2, the output's and the scratch at anything; afterwards the
    inputs' as they were, the scratch and the output at the first block's sums. -/
theorem sound_kernel4_A (c : Dev nD) (E : Set ℕ) (i : grid4.Coords) (hc : cond4 i)
    (arg1 : Memref sig .tc .vmem S5000x128 .f32) (harg1 : arg1.IsWhole) (arg2 : Memref sig .tc .vmem S5000x1 .f32) (harg2 : arg2.IsWhole)
    (arg3 : Memref sig .tc .vmem S5000x1 .i32) (harg3 : arg3.IsWhole) (arg4 : Memref sig .tc .vmem S512x128 .f32) (harg4 : arg4.IsWhole)
    (x0 : Vec F S5000x128 .f32) (x1 : Vec F S5000x1 .f32) (x2 : Vec F S5000x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) scM4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outA4 x0 x1 x2) ∗ owns (c : Thread nD τ) scM4 fullShare (scA4 x0 x1 x2)) -∗ K ⟨⟩))
      ⊢ wp frame (wpE (defs₀ (F := F)) Variants.none c none) E (cc4__pool_kernel i arg1 harg1 arg2 harg2 arg3 harg3 arg4 harg4 scM4 (Memref.isWhole_whole _)) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (fun y => cover_head4 _ _ y)
  iexists _; isplitr
  swap; · iexact H4
  ipureintro
  exact View.read_writes_eq_canon _ _ _ (fun y => cover_head4 _ _ y)

set_option maxHeartbeats 1000000 in
/-- At a later point: the scratch at s; afterwards the scratch and the output at the block's step over s. -/
theorem sound_kernel4_B (c : Dev nD) (E : Set ℕ) (i : grid4.Coords) (hc : ¬cond4 i)
    (arg1 : Memref sig .tc .vmem S5000x128 .f32) (harg1 : arg1.IsWhole) (arg2 : Memref sig .tc .vmem S5000x1 .f32) (harg2 : arg2.IsWhole)
    (arg3 : Memref sig .tc .vmem S5000x1 .i32) (harg3 : arg3.IsWhole) (arg4 : Memref sig .tc .vmem S512x128 .f32) (harg4 : arg4.IsWhole)
    (x0 : Vec F S5000x128 .f32) (x1 : Vec F S5000x1 .f32) (x2 : Vec F S5000x1 .i32) (s : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) scM4 fullShare s
        ∗ (iprop(owns (c : Thread nD τ) arg1 fullShare x0 ∗ owns (c : Thread nD τ) arg2 fullShare x1 ∗ owns (c : Thread nD τ) arg3 fullShare x2
            ∗ owns (c : Thread nD τ) arg4 fullShare (outB4 x0 x1 x2 s) ∗ owns (c : Thread nD τ) scM4 fullShare (scB4 x0 x1 x2 s)) -∗ K ⟨⟩))
      ⊢ wp frame (wpE (defs₀ (F := F)) Variants.none c none) E (cc4__pool_kernel i arg1 harg1 arg2 harg2 arg3 harg3 arg4 harg4 scM4 (Memref.isWhole_whole _)) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (fun y => cover_head4 _ _ y)
  iexists _; isplitr
  swap; · iexact H4
  ipureintro
  exact View.read_writes_eq_canon _ _ _ (fun y => cover_head4 _ _ y)

/-! ## What the output buffer and the scratch hold after each point -/

/-- After point n: (the output buffer, the scratch) — the first point's case on its blocks, a later point's on its blocks
    over what the point before left in the scratch. -/
def accAt4 (c : Dev nD) : (n : ℕ) → n < cfg4.N → Vec F S512x128 .f32 × Vec F S512x128 .f32
  | 0, hn => (outA4 (iblk4 V c 0 ⟨0, hn⟩) (iblk4 V c 1 ⟨0, hn⟩) (iblk4 V c 2 ⟨0, hn⟩),
      scA4 (iblk4 V c 0 ⟨0, hn⟩) (iblk4 V c 1 ⟨0, hn⟩) (iblk4 V c 2 ⟨0, hn⟩))
  | n + 1, hn => (outB4 (iblk4 V c 0 ⟨n + 1, hn⟩) (iblk4 V c 1 ⟨n + 1, hn⟩) (iblk4 V c 2 ⟨n + 1, hn⟩) (accAt4 c n (Nat.lt_of_succ_lt hn)).2,
      scB4 (iblk4 V c 0 ⟨n + 1, hn⟩) (iblk4 V c 1 ⟨n + 1, hn⟩) (iblk4 V c 2 ⟨n + 1, hn⟩) (accAt4 c n (Nat.lt_of_succ_lt hn)).2)

/-- The other scoped buffers of the core (every one but the scratch), unopened. -/
abbrev rest4 (c : Dev nD) : sProp 𝕄 :=
  Pipeline.scopedRestBut (Ix := Unit) (Name := ℕ) (U := UR sig nD τ) (Lvl := ℕ) (Val := Elt F) spec4 c [cc4_scratch0]

/-- What rides between points: before the first, every scoped buffer no window stages at anything; afterwards the scratch
    at the sums so far, the other such buffers at anything; the generator register at some state throughout. -/
def Phi4 (c : Dev nD) : (n : ℕ) → n ≤ cfg4.N → sProp 𝕄
  | 0, _ => Pipeline.ΦA spec4 c
  | n + 1, hn => iprop(owns (c : Thread nD τ) scM4 fullShare (accAt4 V c n hn).2 ∗ rest4 c ∗ (∃ r, prngReg c r))

/-- Owning the scratch memref whole is owning its buffer. -/
theorem owns_sc4 (c : Dev nD) (d : Vec F S512x128 .f32) :
    (owns (c : Thread nD τ) scM4 fullShare d : sProp 𝕄) = (((c : Thread nD τ).loc cc4_scratch0) ↦{fullShare} d) :=
  owns_whole _ _ _ _

/-- Before the first point the scratch is there, at some contents. -/
theorem PhiA4_open (c : Dev nD) :
    (Pipeline.ΦA spec4 c : sProp 𝕄) ⊢ iprop((∃ d, owns (c : Thread nD τ) scM4 fullShare d) ∗ rest4 c ∗ (∃ r, prngReg c r)) := by
  unfold Pipeline.ΦA; rw [scopedRest4_split]
  simp only [owns_sc4]
  iintro ⟨⟨⟨%f, Hf⟩, Hr⟩, Hp⟩
  isplitl [Hf]
  · iexists f; iexact Hf
  isplitl [Hr]; · iexact Hr
  iexact Hp
/-- And with the scratch at any contents the whole is what rode in. -/
theorem PhiA4_close (c : Dev nD) (d : Vec F S512x128 .f32) :
    iprop(owns (c : Thread nD τ) scM4 fullShare d ∗ rest4 c ∗ (∃ r, prngReg c r)) ⊢ (Pipeline.ΦA spec4 c : sProp 𝕄) := by
  unfold Pipeline.ΦA; rw [scopedRest4_split, owns_sc4]
  iintro ⟨Hf, Hr, Hp⟩
  isplitr [Hp]
  · isplitl [Hf]
    · iexists d; iexact Hf
    iexact Hr
  iexact Hp

/-! ## The call's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (accAt4 V c t.val t.isLt).1
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (accAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem Phi4_first (c : Dev nD) : (dat4 V c).Φ 0 = Pipeline.ΦA spec4 c := rfl

/-! ## The body obligation at a grid point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 2000000 in
/-- The body at any point: at the first the scratch is handed over at anything and taken back at the first block's
    sums; at a later one it is handed over at the sums so far and taken back one block further. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    after4_0, after4_1, after4_2, after4_3]
  obtain ⟨n, hn⟩ := t
  cases n with
  | zero =>
    rw [show (dat4 V c).Φ (Fin.castSucc ⟨0, hn⟩) = Pipeline.ΦA spec4 c from rfl,
      show (dat4 V c).Φ (Fin.succ ⟨0, hn⟩) = iprop(owns (c : Thread nD τ) scM4 fullShare (accAt4 V c 0 hn).2 ∗ rest4 c ∗ (∃ r, prngReg c r)) from rfl]
    iintro ⟨HΦ, Ho, ⟨%d0, H0⟩, ⟨%d1, H1⟩, ⟨%d2, H2⟩, ⟨%d3, H3⟩⟩
    ihave HΦ' := (PhiA4_open (F := F) c) $$ HΦ
    icases HΦ' with ⟨Hs, Hr, Hp⟩
    iapply (sound_kernel4_A c Set.univ (grid4.coords ⟨0, hn⟩) ((hcond4 ⟨0, hn⟩).mpr rfl) _ _ _ _ _ _ _ _
      (iblk4 V c 0 ⟨0, hn⟩) (iblk4 V c 1 ⟨0, hn⟩) (iblk4 V c 2 ⟨0, hn⟩) _)
    isplitl [H0]; · iexact H0
    isplitl [H1]; · iexact H1
    isplitl [H2]; · iexact H2
    isplitl [H3]; · iexists _; iexact H3
    isplitl [Hs]; · iexact Hs
    iintro ⟨H0, H1, H2, H3, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    iexact H3
  | succ n =>
    rw [show (dat4 V c).Φ (Fin.castSucc ⟨n + 1, hn⟩) = iprop(owns (c : Thread nD τ) scM4 fullShare (accAt4 V c n (Nat.lt_of_succ_lt hn)).2 ∗ rest4 c ∗ (∃ r, prngReg c r)) from rfl,
      show (dat4 V c).Φ (Fin.succ ⟨n + 1, hn⟩) = iprop(owns (c : Thread nD τ) scM4 fullShare (accAt4 V c (n + 1) hn).2 ∗ rest4 c ∗ (∃ r, prngReg c r)) from rfl]
    iintro ⟨⟨Hs, Hr, Hp⟩, Ho, ⟨%d0, H0⟩, ⟨%d1, H1⟩, ⟨%d2, H2⟩, ⟨%d3, H3⟩⟩
    iapply (sound_kernel4_B c Set.univ (grid4.coords ⟨n + 1, hn⟩) (fun h => absurd ((hcond4 ⟨n + 1, hn⟩).mp h) (Nat.succ_ne_zero n)) _ _ _ _ _ _ _ _
      (iblk4 V c 0 ⟨n + 1, hn⟩) (iblk4 V c 1 ⟨n + 1, hn⟩) (iblk4 V c 2 ⟨n + 1, hn⟩) (accAt4 V c n (Nat.lt_of_succ_lt hn)).2 _)
    isplitl [H0]; · iexact H0
    isplitl [H1]; · iexact H1
    isplitl [H2]; · iexact H2
    isplitl [H3]; · iexists _; iexact H3
    isplitl [Hs]; · iexact Hs
    iintro ⟨H0, H1, H2, H3, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    iexact H3

/-- The body obligation at every point. -/
theorem body_obligation4 (c : Dev nD) : BodyObligation (dat4 (F := F) V c) (defs₀ (F := F)) Variants.none () Set.univ := fun t => by
  rw [bigSep_W4, bigSep_W4]
  exact sound_body4 V c t

/-- After the last point what rides between points gives back every scoped buffer no window stages, at some contents. -/
theorem Phi4_last (c : Dev nD) : (dat4 V c).Φ (Fin.last cfg4.N) ⊢ (Pipeline.ΦA spec4 c : sProp 𝕄) := by
  rw [show (dat4 V c).Φ (Fin.last cfg4.N) = iprop(owns (c : Thread nD τ) scM4 fullShare (accAt4 V c 9 (by decide)).2 ∗ rest4 c ∗ (∃ r, prngReg c r)) from rfl]
  exact PhiA4_close c _

end Cert.Kernel.Hand

end
-- ==== Proof.BitsRunAll.lean ====
/-
  The whole program.  Between two items of @main (a stretch of host operations, or a call) every unscoped buffer of the
  core holds known contents: the launch memory, then what each host stretch computes from what it finds, then, after a
  call, the call's result array at what its write-backs leave and every other buffer as the call found it.  Each call
  is entered from that state and left at the next; the five calls and the four stretches chain from the launch to the
  return; so every weakly fair execution ends, without a fault, with every unscoped buffer at the last of these
  contents.  The argument arrays are written by nothing on the way, so they end as launched.
-/
import proofs.«408064_j47811575939605_1_alg».proof.Proof.BitsFrameR0
import proofs.«408064_j47811575939605_1_alg».proof.Proof.BitsFrameR1
import proofs.«408064_j47811575939605_1_alg».proof.Proof.BitsFrameR2
import proofs.«408064_j47811575939605_1_alg».proof.Proof.BitsFrameR3
import proofs.«408064_j47811575939605_1_alg».proof.Proof.BitsFrameR4
import proofs.«408064_j47811575939605_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 : Dev nD → Valuation τ sig (Elt F) := fun c b => (s₀ m ρ).mem ((c : Dev nD), b)
/-- After the first host stretch: what call 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- When call 0 is left: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what call 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When call 1 is left: its windows' arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: what call 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- When call 2 is left: its windows' arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch: what call 3 is entered with. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- When call 3 is left: its windows' arrays at what the write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- When call 4 is left: its windows' arrays at what the write-backs leave, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-! ## The arguments end as launched: no host operation and no call writes one -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data of the five calls, and what rides beside the buffers -/

abbrev adm : (p : Fin 5) → (pcfgs (F := F) p).Adm := fun p => (cfgs p).toPCfg_adm
/-- Each call's proof data at the contents it is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- Call 0 over the thread state: entered with every unscoped buffer at `W1`, left with them at `W2`.  Its windows' arrays
    are split out of the unscoped buffers and put back at what the write-backs leave; the generator register goes into
    what rides between points and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W3`, left with them at `W4`.  Its windows' arrays
    are split out of the unscoped buffers and put back at what the write-backs leave; the generator register goes into
    what rides between points and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `W5`, left with them at `W6`.  Its windows' arrays
    are split out of the unscoped buffers and put back at what the write-backs leave; the generator register goes into
    what rides between points and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered with every unscoped buffer at `W7`, left with them at `W8`.  Its windows' arrays
    are split out of the unscoped buffers and put back at what the write-backs leave; the generator register goes into
    what rides between points and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered with every unscoped buffer at `W8`, left with them at `W9`.  Its windows' arrays
    are split out of the unscoped buffers and put back at what the write-backs leave; the generator register goes into
    what rides between points and comes back, and so does the scratch; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (Phi4_last (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ) ]

/-- @main is the run of its segments. -/
theorem main_run (c : Dev nD) : main (F := F) c = Pipeline.Seg.run (segs m ρ) := by
  rw [main_chain c, Pipeline.Seg.run_eq_chain]
  rfl

set_option backward.isDefEq.respectTransparency.types false in
/-- Every weakly fair execution of @main from the memory m with zero counters terminates, nothing faulting, and at the
    end every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c)⟩)
    (run_all m ρ)

end Cert.Kernel.Hand

end
-- ==== Proof.FrameR0.lean ====
/-
  The first layer's perceptron call, one grid point at a time.  A point is handed rows 5000·t … 5000·t + 4999 of the
  message-passed array, the two 128 × 128 weight matrices and the two bias rows, each whole in its staging buffer; its
  body loads all five, computes, and stores the 5000 × 128 result whole into the output window's buffer.  So after the
  body the output buffer holds the body's arithmetic on the five input blocks and every input buffer holds what it held.
  Nothing is kept between points.
-/
import proofs.«408064_j47811575939605_1_alg».proof.Proof.Gen.KernelIdeal.Launch
import proofs.«408064_j47811575939605_1_alg».proof.Proof.Gen.KernelIdeal.Skeleton
import proofs.«408064_j47811575939605_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## Call 0: the windows' blocks -/

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: where it is not fetched
    its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: where it is not fetched
    its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0
abbrev rC0 : Rect S128 := Rect.unit (s := S128) ![0] S128.size inb_S128_S128_0

/-! ## What the body leaves in the output window's buffer -/

/-- The output buffer after the body: its one store, of the body's arithmetic on the five input blocks. -/
def out0_5 (x0 : Vec F S5000x128 .f32) (x1 : Vec F S128x128 .f32) (x2 : Vec F S128 .f32) (x3 : Vec F S128x128 .f32) (x4 : Vec F S128 .f32) : Vec F S5000x128 .f32 :=
  View.canon [⟨rA0, k0_pay1 (View.ld x0 rA0) (View.ld x1 rB0) (View.ld x2 rC0) (View.ld x3 rB0) (View.ld x4 rC0)⟩]

/-- The one store covers the buffer. -/
theorem cover0_5 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

/-! ## The body's triple -/

set_option maxHeartbeats 1000000 in
/-- The body on whole staging buffers, the inputs' at contents x0 … x4 and the output's at anything, runs to the
    continuation with the inputs' buffers as they were and the output's at `out0_5` of them. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The call's proof data -/

/-- The arrays as the call finds them; after the body at point t each input's buffer at its block and the output's at
    `out0_5` of the input blocks; between points only the buffers no window stages and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a grid point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; what rides between points passes
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameR1.lean ====
/-
  The first layer's normalisation call, one grid point at a time.  A point is handed rows 5000·t … 5000·t + 4999 of the
  perceptron's output and four vectors of 128 (the column means, the column variances, the scale and the shift), each
  whole in its staging buffer; its body loads all five, computes entry by entry, and stores the 5000 × 128 result whole
  into the output window's buffer.  So after the body the output buffer holds the body's arithmetic on the five input
  blocks and every input buffer holds what it held.  Nothing is kept between points.
-/
import proofs.«408064_j47811575939605_1_alg».proof.Proof.Gen.KernelIdeal.Launch
import proofs.«408064_j47811575939605_1_alg».proof.Proof.Gen.KernelIdeal.Skeleton
import proofs.«408064_j47811575939605_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## Call 1: the windows' blocks -/

/-- Window w's block at grid point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched
    its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched
    its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched
    its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched
    its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rA1 : Rect S5000x128 := Rect.unit (s := S5000x128) ![0, 0] S5000x128.size inb_S5000x128_S5000x128_0_0
abbrev rB1 : Rect S128x128 := Rect.unit (s := S128x128) ![0, 0] S128x128.size inb_S128x128_S128x128_0_0
abbrev rC1 : Rect S128 := Rect.unit (s := S128) ![0] S128.size inb_S128_S128_0

/-! ## What the body leaves in the output window's buffer -/

/-- The output buffer after the body: its one store, of the body's arithmetic on the five input blocks. -/
def out1_5 (x0 : Vec F S5000x128 .f32) (x1 : Vec F S128 .f32) (x2 : Vec F S128 .f32) (x3 : Vec F S128 .f32) (x4 : Vec F S128 .f32) : Vec F S5000x128 .f32 :=
  View.canon [⟨rA1, k1_pay1 (View.ld x0 rA1) (View.ld x1 rC1) (View.ld x2 rC1) (View.ld x3 rC1) (View.ld x4 rC1)⟩]

/-- The one store covers the buffer. -/
theorem cover1_5 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

/-! ## The body's triple -/

set_option maxHeartbeats 1000000 in
/-- The body on whole staging buffers, the inputs' at contents x0 … x4 and the output's at anything, runs to the
    continuation with the inputs' buffers as they were and the output's at `out1_5` of them. -/
theorem sound_kernel1 (c : Dev nD) (E : Set ℕ) (i : grid1.Coords) (arg1 : Memref sig .tc .vmem S5000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128 .f32) (x2 : Vec F S128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The call's proof data -/

/-- The arrays as the call finds them; after the body at point t each input's buffer at its block and the output's at
    `out1_5` of the input blocks; between points only the buffers no window stages and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a grid point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; what rides between points passes
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameR2.lean ====
/-
  The second layer's perceptron call, one grid point at a time.  A point is handed rows 5000·t … 5000·t + 4999 of the
  message-passed array, the two 128 × 128 weight matrices and the two bias rows, each whole in its staging buffer; its
  body loads all five, computes, and stores the 5000 × 128 result whole into the output window's buffer.  So after the
  body the output buffer holds the body's arithmetic on the five input blocks and every input buffer holds what it held.
  Nothing is kept between points.
-/
import proofs.«408064_j47811575939605_1_alg».proof.Proof.Gen.KernelIdeal.Launch
import proofs.«408064_j47811575939605_1_alg».proof.Proof.Gen.KernelIdeal.Skeleton
import proofs.«408064_j47811575939605_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## Call 2: the windows' blocks -/

/-- Window w's block at grid point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched
    its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched
    its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched
    its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched
    its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched
    its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rA2 : Rect S5000x128 := Rect.unit (s := S5000x128) ![0, 0] S5000x128.size inb_S5000x128_S5000x128_0_0
abbrev rB2 : Rect S128x128 := Rect.unit (s := S128x128) ![0, 0] S128x128.size inb_S128x128_S128x128_0_0
abbrev rC2 : Rect S128 := Rect.unit (s := S128) ![0] S128.size inb_S128_S128_0

/-! ## What the body leaves in the output window's buffer -/

/-- The output buffer after the body: its one store, of the body's arithmetic on the five input blocks. -/
def out2_5 (x0 : Vec F S5000x128 .f32) (x1 : Vec F S128x128 .f32) (x2 : Vec F S128 .f32) (x3 : Vec F S128x128 .f32) (x4 : Vec F S128 .f32) : Vec F S5000x128 .f32 :=
  View.canon [⟨rA2, k2_pay1 (View.ld x0 rA2) (View.ld x1 rB2) (View.ld x2 rC2) (View.ld x3 rB2) (View.ld x4 rC2)⟩]

/-- The one store covers the buffer. -/
theorem cover2_5 (p0 : Vec F S5000x128 .f32) (y : S5000x128.Idx) :
    ∃ pc ∈ ([⟨rA2, p0⟩] : List (View.Piece (Elt F) S5000x128 .f32)), y ∈ pc.1.set :=
  View.cover_of_tiled [⟨rA2, p0⟩] S5000x128.size (by rfl) y

/-! ## The body's triple -/

set_option maxHeartbeats 1000000 in
/-- The body on whole staging buffers, the inputs' at contents x0 … x4 and the output's at anything, runs to the
    continuation with the inputs' buffers as they were and the output's at `out2_5` of them. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The call's proof data -/

/-- The arrays as the call finds them; after the body at point t each input's buffer at its block and the output's at
    `out2_5` of the input blocks; between points only the buffers no window stages and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a grid point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the triple applies; what rides between points passes
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameR3.lean ====
/-
  The second layer's normalisation call, one grid point at a time.  A point is handed rows 5000·t … 5000·t + 4999 of the
  perceptron's output and four vectors of 128 (the column means, the column variances, the scale and the shift), each
  whole in its staging buffer; its body loads all five, computes entry by entry, and stores the 5000 × 128 result whole
  into the output window's buffer.  So after the body the output buffer holds the body's arithmetic on the five input
  blocks and every input buffer holds what it held.  Nothing is kept between points.
-/
import proofs.«408064_j47811575939605_1_alg».proof.Proof.Gen.KernelIdeal.Launch
import proofs.«408064_j47811575939605_1_alg».proof.Proof.Gen.KernelIdeal.Skeleton
import proofs.«408064_j47811575939605_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## Call 3: the windows' blocks -/

/-- Window w's block at grid point t, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched
    its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: where it is not fetched
    its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: where it is not fetched
    its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not: where it is not fetched
    its block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not: where it is not fetched
    its block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev rA3 : Rect S5000x128 := Rect.unit (s := S5000x128) ![0, 0] S5000x128.size inb_S5000x128_S5000x128_0_0
abbrev rB3 : Rect S128x128 := Rect.unit (s := S128x128) ![0, 0] S128x128.size inb_S128x128_S128x128_0_0
abbrev rC3 : Rect S128 := Rect.unit (s := S128) ![0] S128.size inb_S128_S128_0

/-! ## What the body leaves in the output window's buffer -/

/-- The output buffer after the body: its one store, of the body's arithmetic on the five input blocks. -/
def out3_5 (x0 : Vec F S5000x128 .f32) (x1 : Vec F S128 .f32) (x2 : Vec F S128 .f32) (x3 : Vec F S128 .f32) (x4 : Vec F S128 .f32) : Vec F S5000x128 .f32 :=
  View.canon [⟨rA3, k3_pay1 (View.ld x0 rA3) (View.ld x1 rC3) (View.ld x2 rC3) (View.ld x3 rC3) (View.ld x4 rC3)⟩]

/-- The one store covers the buffer. -/
theorem cover3_5 (p0 : Vec F S5000x128 .f32) (y : S5000x128.Idx) :
    ∃ pc ∈ ([⟨rA3, p0⟩] : List (View.Piece (Elt F) S5000x128 .f32)), y ∈ pc.1.set :=
  View.cover_of_tiled [⟨rA3, p0⟩] S5000x128.size (by rfl) y

/-! ## The body's triple -/

set_option maxHeartbeats 1000000 in
/-- The body on whole staging buffers, the inputs' at contents x0 … x4 and the output's at anything, runs to the
    continuation with the inputs' buffers as they were and the output's at `out3_5` of them. -/
theorem sound_kernel3 (c : Dev nD) (E : Set ℕ) (i : grid3.Coords) (arg1 : Memref sig .tc .vmem S5000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S128 .f32) (x2 : Vec F S128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The call's proof data -/

/-- The arrays as the call finds them; after the body at point t each input's buffer at its block and the output's at
    `out3_5` of the input blocks; between points only the buffers no window stages and the generator register, untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a grid point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the triple applies; what rides between points passes
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.FrameR4.lean ====
/-
  The pooling call, one grid point at a time.  A point is handed rows 5000·t … 5000·t + 4999 of the node array, of the
  weight column and of the graph-id column, each whole in its staging buffer, the 512 × 128 output window's buffer, and
  a 512 × 128 scratch buffer that no window stages and that keeps the running sums from one point to the next.  At the
  first point the body first fills the scratch with zeros; at every point it then adds the block's contribution to the
  scratch and copies the scratch, whole, into the output window's buffer (which is written back after the last point
  only).  So between points the scratch holds the sums over the blocks seen so far: that is the invariant, and what the
  output buffer holds after point t is the same array.
-/
import proofs.«408064_j47811575939605_1_alg».proof.Proof.Gen.KernelIdeal.Launch
import proofs.«408064_j47811575939605_1_alg».proof.Proof.Gen.KernelIdeal.Skeleton
import proofs.«408064_j47811575939605_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The windows' blocks -/

/-- Window w's block at grid point t, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev rA4 : Rect S5000x128 := Rect.unit (s := S5000x128) ![0, 0] S5000x128.size inb_S5000x128_S5000x128_0_0
abbrev rD4 : Rect S5000x1 := Rect.unit (s := S5000x1) ![0, 0] S5000x1.size inb_S5000x1_S5000x1_0_0
abbrev rO4 : Rect S512x128 := Rect.unit (s := S512x128) ![0, 0] S512x128.size inb_S512x128_S512x128_0_0
/-- The scratch buffer, and the view the body reads and writes it through. -/
abbrev scM4 : Memref sig .tc .vmem S512x128 .f32 := Memref.whole cc4_scratch0
abbrev VS4 : View sig .tc .vmem S512x128 .f32 := scM4.view

theorem hz2 : (![0, 0] : Fin 2 → Nat) = fun _ => 0 := by funext a; fin_cases a <;> rfl

/-! ## The first point or a later one -/

/-- The body's one branch: taken where the grid coordinate is 0. -/
abbrev cond4 (i : grid4.Coords) : Prop := (Scalar.cmpi .ne (Scalar.extui (Scalar.cmpi .eq (BitVec.ofNat 32 (i 0).val) 0#32)) 0#32) = 1#1
theorem hcond4 : ∀ t : Fin cfg4.N, cond4 (grid4.coords t) ↔ t.val = 0 :=
  (by decide +kernel : ∀ t : Fin grid4.N, cond4 (grid4.coords t) ↔ t.val = 0)

/-! ## What the body's stores leave in the scratch and in the output buffer -/

/-- The first point's stores into the scratch, last first: the block's step over the zeros just read back, then the zeros. -/
def piecesA4 (x0 : Vec F S5000x128 .f32) (x1 : Vec F S5000x1 .f32) (x2 : Vec F S5000x1 .i32) : List (View.Piece (Elt F) S512x128 .f32) :=
  [⟨rO4, k4_pay2 (View.ld x0 rA4) (View.ld x1 rD4) (View.ld x2 rD4) (VS4.readCov [⟨rO4, k4_pay1 (F := F)⟩] rO4.toLoadRect)⟩, ⟨rO4, k4_pay1 (F := F)⟩]
/-- A later point's one store into the scratch: the block's step over what the scratch held. -/
def piecesB4 (x0 : Vec F S5000x128 .f32) (x1 : Vec F S5000x1 .f32) (x2 : Vec F S5000x1 .i32) (s : Vec F S512x128 .f32) : List (View.Piece (Elt F) S512x128 .f32) :=
  [⟨rO4, k4_pay2 (View.ld x0 rA4) (View.ld x1 rD4) (View.ld x2 rD4) (View.ld s rO4)⟩]
def scA4 (x0 : Vec F S5000x128 .f32) (x1 : Vec F S5000x1 .f32) (x2 : Vec F S5000x1 .i32) : Vec F S512x128 .f32 := View.canon (piecesA4 x0 x1 x2)
def scB4 (x0 : Vec F S5000x128 .f32) (x1 : Vec F S5000x1 .f32) (x2 : Vec F S5000x1 .i32) (s : Vec F S512x128 .f32) : Vec F S512x128 .f32 := View.canon (piecesB4 x0 x1 x2 s)
/-- The output buffer: one store of the scratch read back. -/
def outA4 (x0 : Vec F S5000x128 .f32) (x1 : Vec F S5000x1 .f32) (x2 : Vec F S5000x1 .i32) : Vec F S512x128 .f32 :=
  View.canon [⟨rO4, VS4.readCov (piecesA4 x0 x1 x2) rO4.toLoadRect⟩]
def outB4 (x0 : Vec F S5000x128 .f32) (x1 : Vec F S5000x1 .f32) (x2 : Vec F S5000x1 .i32) (s : Vec F S512x128 .f32) : Vec F S512x128 .f32 :=
  View.canon [⟨rO4, VS4.readCov (piecesB4 x0 x1 x2 s) rO4.toLoadRect⟩]

/-- A list of stores whose first is of the whole buffer covers it. -/
theorem cover_head4 (p : Vec F S512x128 .f32) (L : List (View.Piece (Elt F) S512x128 .f32)) (y : S512x128.Idx) :
    ∃ pc ∈ ((⟨rO4, p⟩ : View.Piece (Elt F) S512x128 .f32) :: L), y ∈ pc.1.set :=
  ⟨_, List.mem_cons_self, View.mem_set_unit_zero hz2 inb_S512x128_S512x128_0_0 y⟩

theorem coverA4 (x0 : Vec F S5000x128 .f32) (x1 : Vec F S5000x1 .f32) (x2 : Vec F S5000x1 .i32) (y : S512x128.Idx) :
    ∃ pc ∈ piecesA4 x0 x1 x2, y ∈ pc.1.set := by unfold piecesA4; exact cover_head4 _ _ y
theorem coverB4 (x0 : Vec F S5000x128 .f32) (x1 : Vec F S5000x1 .f32) (x2 : Vec F S5000x1 .i32) (s : Vec F S512x128 .f32) (y : S512x128.Idx) :
    ∃ pc ∈ piecesB4 x0 x1 x2 s, y ∈ pc.1.set := by unfold piecesB4; exact cover_head4 _ _ y

/-- Read plainly: after the first point the scratch holds the block's step over zeros, -/
theorem scA4_eq (x0 : Vec F S5000x128 .f32) (x1 : Vec F S5000x1 .f32) (x2 : Vec F S5000x1 .i32) :
    scA4 x0 x1 x2 = k4_pay2 x0 x1 x2 (k4_pay1 (F := F)) := by
  unfold scA4 piecesA4
  rw [View.canon_cons_unit_zero hz2, View.readCov_unit_zero _ hz2, View.ld_unit_zero hz2, View.ld_unit_zero hz2, View.ld_unit_zero hz2]
/-- after a later point the block's step over what it held, -/
theorem scB4_eq (x0 : Vec F S5000x128 .f32) (x1 : Vec F S5000x1 .f32) (x2 : Vec F S5000x1 .i32) (s : Vec F S512x128 .f32) :
    scB4 x0 x1 x2 s = k4_pay2 x0 x1 x2 s := by
  unfold scB4 piecesB4
  rw [View.canon_unit_zero hz2, View.ld_unit_zero hz2, View.ld_unit_zero hz2, View.ld_unit_zero hz2, View.ld_unit_zero hz2]
/-- and the output buffer holds what the scratch holds. -/
theorem outA4_eq (x0 : Vec F S5000x128 .f32) (x1 : Vec F S5000x1 .f32) (x2 : Vec F S5000x1 .i32) : outA4 x0 x1 x2 = scA4 x0 x1 x2 := by
  unfold outA4 scA4
  rw [View.canon_unit_zero hz2, View.readCov_eq_canon_ld _ _ _ (coverA4 x0 x1 x2), View.ld_unit_zero hz2]
theorem outB4_eq (x0 : Vec F S5000x128 .f32) (x1 : Vec F S5000x1 .f32) (x2 : Vec F S5000x1 .i32) (s : Vec F S512x128 .f32) :
    outB4 x0 x1 x2 s = scB4 x0 x1 x2 s := by
  unfold outB4 scB4
  rw [View.canon_unit_zero hz2, View.readCov_eq_canon_ld _ _ _ (coverB4 x0 x1 x2 s), View.ld_unit_zero hz2]

/-! ## The body's triples, one per case -/

set_option maxHeartbeats 1000000 in
/-- At the first point: the inputs' buffers at x0, x1, x2, the output's and the scratch at anything; afterwards the
    inputs' as they were, the scratch and the output at the first block's sums. -/
theorem sound_kernel4_A (c : Dev nD) (E : Set ℕ) (i : grid4.Coords) (hc : cond4 i)
    (arg1 : Memref sig .tc .vmem S5000x128 .f32) (harg1 : arg1.IsWhole) (arg2 : Memref sig .tc .vmem S5000x1 .f32) (harg2 : arg2.IsWhole)
    (arg3 : Memref sig .tc .vmem S5000x1 .i32) (harg3 : arg3.IsWhole) (arg4 : Memref sig .tc .vmem S512x128 .f32) (harg4 : arg4.IsWhole)
    (x0 : Vec F S5000x128 .f32) (x1 : Vec F S5000x1 .f32) (x2 : Vec F S5000x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) scM4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outA4 x0 x1 x2) ∗ owns (c : Thread nD τ) scM4 fullShare (scA4 x0 x1 x2)) -∗ K ⟨⟩))
      ⊢ wp frame (wpE (defs₀ (F := F)) Variants.none c none) E (cc4__pool_kernel i arg1 harg1 arg2 harg2 arg3 harg3 arg4 harg4 scM4 (Memref.isWhole_whole _)) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (fun y => cover_head4 _ _ y)
  iexists _; isplitr
  swap; · iexact H4
  ipureintro
  exact View.read_writes_eq_canon _ _ _ (fun y => cover_head4 _ _ y)

set_option maxHeartbeats 1000000 in
/-- At a later point: the scratch at s; afterwards the scratch and the output at the block's step over s. -/
theorem sound_kernel4_B (c : Dev nD) (E : Set ℕ) (i : grid4.Coords) (hc : ¬cond4 i)
    (arg1 : Memref sig .tc .vmem S5000x128 .f32) (harg1 : arg1.IsWhole) (arg2 : Memref sig .tc .vmem S5000x1 .f32) (harg2 : arg2.IsWhole)
    (arg3 : Memref sig .tc .vmem S5000x1 .i32) (harg3 : arg3.IsWhole) (arg4 : Memref sig .tc .vmem S512x128 .f32) (harg4 : arg4.IsWhole)
    (x0 : Vec F S5000x128 .f32) (x1 : Vec F S5000x1 .f32) (x2 : Vec F S5000x1 .i32) (s : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) scM4 fullShare s
        ∗ (iprop(owns (c : Thread nD τ) arg1 fullShare x0 ∗ owns (c : Thread nD τ) arg2 fullShare x1 ∗ owns (c : Thread nD τ) arg3 fullShare x2
            ∗ owns (c : Thread nD τ) arg4 fullShare (outB4 x0 x1 x2 s) ∗ owns (c : Thread nD τ) scM4 fullShare (scB4 x0 x1 x2 s)) -∗ K ⟨⟩))
      ⊢ wp frame (wpE (defs₀ (F := F)) Variants.none c none) E (cc4__pool_kernel i arg1 harg1 arg2 harg2 arg3 harg3 arg4 harg4 scM4 (Memref.isWhole_whole _)) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (fun y => cover_head4 _ _ y)
  iexists _; isplitr
  swap; · iexact H4
  ipureintro
  exact View.read_writes_eq_canon _ _ _ (fun y => cover_head4 _ _ y)

/-! ## What the output buffer and the scratch hold after each point -/

/-- After point n: (the output buffer, the scratch) — the first point's case on its blocks, a later point's on its blocks
    over what the point before left in the scratch. -/
def accAt4 (c : Dev nD) : (n : ℕ) → n < cfg4.N → Vec F S512x128 .f32 × Vec F S512x128 .f32
  | 0, hn => (outA4 (iblk4 V c 0 ⟨0, hn⟩) (iblk4 V c 1 ⟨0, hn⟩) (iblk4 V c 2 ⟨0, hn⟩),
      scA4 (iblk4 V c 0 ⟨0, hn⟩) (iblk4 V c 1 ⟨0, hn⟩) (iblk4 V c 2 ⟨0, hn⟩))
  | n + 1, hn => (outB4 (iblk4 V c 0 ⟨n + 1, hn⟩) (iblk4 V c 1 ⟨n + 1, hn⟩) (iblk4 V c 2 ⟨n + 1, hn⟩) (accAt4 c n (Nat.lt_of_succ_lt hn)).2,
      scB4 (iblk4 V c 0 ⟨n + 1, hn⟩) (iblk4 V c 1 ⟨n + 1, hn⟩) (iblk4 V c 2 ⟨n + 1, hn⟩) (accAt4 c n (Nat.lt_of_succ_lt hn)).2)

/-- The other scoped buffers of the core (every one but the scratch), unopened. -/
abbrev rest4 (c : Dev nD) : sProp 𝕄 :=
  Pipeline.scopedRestBut (Ix := Unit) (Name := ℕ) (U := UR sig nD τ) (Lvl := ℕ) (Val := Elt F) spec4 c [cc4_scratch0]

/-- What rides between points: before the first, every scoped buffer no window stages at anything; afterwards the scratch
    at the sums so far, the other such buffers at anything; the generator register at some state throughout. -/
def Phi4 (c : Dev nD) : (n : ℕ) → n ≤ cfg4.N → sProp 𝕄
  | 0, _ => Pipeline.ΦA spec4 c
  | n + 1, hn => iprop(owns (c : Thread nD τ) scM4 fullShare (accAt4 V c n hn).2 ∗ rest4 c ∗ (∃ r, prngReg c r))

/-- Owning the scratch memref whole is owning its buffer. -/
theorem owns_sc4 (c : Dev nD) (d : Vec F S512x128 .f32) :
    (owns (c : Thread nD τ) scM4 fullShare d : sProp 𝕄) = (((c : Thread nD τ).loc cc4_scratch0) ↦{fullShare} d) :=
  owns_whole _ _ _ _

/-- Before the first point the scratch is there, at some contents. -/
theorem PhiA4_open (c : Dev nD) :
    (Pipeline.ΦA spec4 c : sProp 𝕄) ⊢ iprop((∃ d, owns (c : Thread nD τ) scM4 fullShare d) ∗ rest4 c ∗ (∃ r, prngReg c r)) := by
  unfold Pipeline.ΦA; rw [scopedRest4_split]
  simp only [owns_sc4]
  iintro ⟨⟨⟨%f, Hf⟩, Hr⟩, Hp⟩
  isplitl [Hf]
  · iexists f; iexact Hf
  isplitl [Hr]; · iexact Hr
  iexact Hp
/-- And with the scratch at any contents the whole is what rode in. -/
theorem PhiA4_close (c : Dev nD) (d : Vec F S512x128 .f32) :
    iprop(owns (c : Thread nD τ) scM4 fullShare d ∗ rest4 c ∗ (∃ r, prngReg c r)) ⊢ (Pipeline.ΦA spec4 c : sProp 𝕄) := by
  unfold Pipeline.ΦA; rw [scopedRest4_split, owns_sc4]
  iintro ⟨Hf, Hr, Hp⟩
  isplitr [Hp]
  · isplitl [Hf]
    · iexists d; iexact Hf
    iexact Hr
  iexact Hp

/-! ## The call's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (accAt4 V c t.val t.isLt).1
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (accAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem Phi4_first (c : Dev nD) : (dat4 V c).Φ 0 = Pipeline.ΦA spec4 c := rfl

/-! ## The body obligation at a grid point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

set_option maxHeartbeats 2000000 in
/-- The body at any point: at the first the scratch is handed over at anything and taken back at the first block's
    sums; at a later one it is handed over at the sums so far and taken back one block further. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    after4_0, after4_1, after4_2, after4_3]
  obtain ⟨n, hn⟩ := t
  cases n with
  | zero =>
    rw [show (dat4 V c).Φ (Fin.castSucc ⟨0, hn⟩) = Pipeline.ΦA spec4 c from rfl,
      show (dat4 V c).Φ (Fin.succ ⟨0, hn⟩) = iprop(owns (c : Thread nD τ) scM4 fullShare (accAt4 V c 0 hn).2 ∗ rest4 c ∗ (∃ r, prngReg c r)) from rfl]
    iintro ⟨HΦ, Ho, ⟨%d0, H0⟩, ⟨%d1, H1⟩, ⟨%d2, H2⟩, ⟨%d3, H3⟩⟩
    ihave HΦ' := (PhiA4_open (F := F) c) $$ HΦ
    icases HΦ' with ⟨Hs, Hr, Hp⟩
    iapply (sound_kernel4_A c Set.univ (grid4.coords ⟨0, hn⟩) ((hcond4 ⟨0, hn⟩).mpr rfl) _ _ _ _ _ _ _ _
      (iblk4 V c 0 ⟨0, hn⟩) (iblk4 V c 1 ⟨0, hn⟩) (iblk4 V c 2 ⟨0, hn⟩) _)
    isplitl [H0]; · iexact H0
    isplitl [H1]; · iexact H1
    isplitl [H2]; · iexact H2
    isplitl [H3]; · iexists _; iexact H3
    isplitl [Hs]; · iexact Hs
    iintro ⟨H0, H1, H2, H3, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    iexact H3
  | succ n =>
    rw [show (dat4 V c).Φ (Fin.castSucc ⟨n + 1, hn⟩) = iprop(owns (c : Thread nD τ) scM4 fullShare (accAt4 V c n (Nat.lt_of_succ_lt hn)).2 ∗ rest4 c ∗ (∃ r, prngReg c r)) from rfl,
      show (dat4 V c).Φ (Fin.succ ⟨n + 1, hn⟩) = iprop(owns (c : Thread nD τ) scM4 fullShare (accAt4 V c (n + 1) hn).2 ∗ rest4 c ∗ (∃ r, prngReg c r)) from rfl]
    iintro ⟨⟨Hs, Hr, Hp⟩, Ho, ⟨%d0, H0⟩, ⟨%d1, H1⟩, ⟨%d2, H2⟩, ⟨%d3, H3⟩⟩
    iapply (sound_kernel4_B c Set.univ (grid4.coords ⟨n + 1, hn⟩) (fun h => absurd ((hcond4 ⟨n + 1, hn⟩).mp h) (Nat.succ_ne_zero n)) _ _ _ _ _ _ _ _
      (iblk4 V c 0 ⟨n + 1, hn⟩) (iblk4 V c 1 ⟨n + 1, hn⟩) (iblk4 V c 2 ⟨n + 1, hn⟩) (accAt4 V c n (Nat.lt_of_succ_lt hn)).2 _)
    isplitl [H0]; · iexact H0
    isplitl [H1]; · iexact H1
    isplitl [H2]; · iexact H2
    isplitl [H3]; · iexists _; iexact H3
    isplitl [Hs]; · iexact Hs
    iintro ⟨H0, H1, H2, H3, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    iexact H3

/-- The body obligation at every point. -/
theorem body_obligation4 (c : Dev nD) : BodyObligation (dat4 (F := F) V c) (defs₀ (F := F)) Variants.none () Set.univ := fun t => by
  rw [bigSep_W4, bigSep_W4]
  exact sound_body4 V c t

/-- After the last point what rides between points gives back every scoped buffer no window stages, at some contents. -/
theorem Phi4_last (c : Dev nD) : (dat4 V c).Φ (Fin.last cfg4.N) ⊢ (Pipeline.ΦA spec4 c : sProp 𝕄) := by
  rw [show (dat4 V c).Φ (Fin.last cfg4.N) = iprop(owns (c : Thread nD τ) scM4 fullShare (accAt4 V c 9 (by decide)).2 ∗ rest4 c ∗ (∃ r, prngReg c r)) from rfl]
  exact PhiA4_close c _

end Cert.KernelIdeal.Hand

end
-- ==== Proof.RunAll.lean ====
/-
  The whole program.  Between two items of @main (a stretch of host operations, or a call) every unscoped buffer of the
  core holds known contents: the launch memory, then what each host stretch computes from what it finds, then, after a
  call, the call's result array at what its write-backs leave and every other buffer as the call found it.  Each call
  is entered from that state and left at the next; the five calls and the four stretches chain from the launch to the
  return; so every weakly fair execution ends, without a fault, with every unscoped buffer at the last of these
  contents.  The argument arrays are written by nothing on the way, so they end as launched.
-/
import proofs.«408064_j47811575939605_1_alg».proof.Proof.FrameR0
import proofs.«408064_j47811575939605_1_alg».proof.Proof.FrameR1
import proofs.«408064_j47811575939605_1_alg».proof.Proof.FrameR2
import proofs.«408064_j47811575939605_1_alg».proof.Proof.FrameR3
import proofs.«408064_j47811575939605_1_alg».proof.Proof.FrameR4
import proofs.«408064_j47811575939605_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 : Dev nD → Valuation τ sig (Elt F) := fun c b => (s₀ m ρ).mem ((c : Dev nD), b)
/-- After the first host stretch: what call 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- When call 0 is left: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what call 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When call 1 is left: its windows' arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: what call 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- When call 2 is left: its windows' arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch: what call 3 is entered with. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- When call 3 is left: its windows' arrays at what the write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- When call 4 is left: its windows' arrays at what the write-backs leave, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-! ## The arguments end as launched: no host operation and no call writes one -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data of the five calls, and what rides beside the buffers -/

abbrev adm : (p : Fin 5) → (pcfgs (F := F) p).Adm := fun p => (cfgs p).toPCfg_adm
/-- Each call's proof data at the contents it is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- Call 0 over the thread state: entered with every unscoped buffer at `W1`, left with them at `W2`.  Its windows' arrays
    are split out of the unscoped buffers and put back at what the write-backs leave; the generator register goes into
    what rides between points and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W3`, left with them at `W4`.  Its windows' arrays
    are split out of the unscoped buffers and put back at what the write-backs leave; the generator register goes into
    what rides between points and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `W5`, left with them at `W6`.  Its windows' arrays
    are split out of the unscoped buffers and put back at what the write-backs leave; the generator register goes into
    what rides between points and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered with every unscoped buffer at `W7`, left with them at `W8`.  Its windows' arrays
    are split out of the unscoped buffers and put back at what the write-backs leave; the generator register goes into
    what rides between points and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered with every unscoped buffer at `W8`, left with them at `W9`.  Its windows' arrays
    are split out of the unscoped buffers and put back at what the write-backs leave; the generator register goes into
    what rides between points and comes back, and so does the scratch; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (Phi4_last (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ) ]

/-- @main is the run of its segments. -/
theorem main_run (c : Dev nD) : main (F := F) c = Pipeline.Seg.run (segs m ρ) := by
  rw [main_chain c, Pipeline.Seg.run_eq_chain]
  rfl

set_option backward.isDefEq.respectTransparency.types false in
/-- Every weakly fair execution of @main from the memory m with zero counters terminates, nothing faulting, and at the
    end every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c)⟩)
    (run_all m ρ)

end Cert.KernelIdeal.Hand

end
-- ==== Proof.Iface.lean ====
/-
  The two programs compute one function, region by region.  This module names the pieces.

  * `rows t X`: rows 5000·t … 5000·t + 4999 of an array X of 50000 rows (what a grid point of a node-tiled call is handed).
  * In `Cert.Bridge.R`, over the reference's vocabulary: the message pass `msg` (gather the source rows, scale by the
    edge weight, add into the destination rows), the two-layer perceptron `mlp`, the column mean and variance
    `colMean` / `colVar`, the normalisation followed by the positive part `bnRelu`, the weight and bias slices of a
    layer, and the weighted pooling of the node rows by graph id `pool` — each exactly the term of host operations the
    reference applies.
  * In `Cert.Bridge.K`, over the kernel's vocabulary: the pooled sums after the first n + 1 row blocks, `poolAcc`.
-/
import proofs.«408064_j47811575939605_1_alg».proof.Proof.Gen.KernelIdeal
import proofs.«408064_j47811575939605_1_alg».proof.Proof.Gen.KernelIdeal.Skeleton
import proofs.«408064_j47811575939605_1_alg».proof.Proof.Gen.ReferenceIdeal
import Idealize.ShloMosaic.Lib.ValueIdx
import Idealize.ShloMosaic.PureOps.Ideal

noncomputable section

namespace Cert.Bridge

open Idealize.ShloMosaic Idealize.ShloMosaic.ValueIdx

/-- Rows 5000·t … 5000·t + 4999 of an array of 50000 rows. -/
def rows {n : Nat} {e : EltTy} (t : Fin 10) (X : Vec Ideal ⟨2, ![50000, n]⟩ e) : Vec Ideal ⟨2, ![5000, n]⟩ e :=
  fun y => X (ix2 (⟨5000 * t.val + (y 0 : Fin 5000).val, by
    have h1 : (y 0).val < 5000 := (y 0).isLt; have h2 := t.isLt; omega⟩ : Fin 50000) (y 1 : Fin n))

end Cert.Bridge

namespace Cert.Bridge.R

open Cert.ReferenceIdeal Cert.ReferenceIdeal.Gen Idealize.ShloMosaic Idealize.ShloMosaic.TcCoe Idealize.ShloMosaic.StableHlo

/-- The message pass: out[d] = ∑ over edges e with dst e = d of weight e · h[src e] (a negative source index counted
    from the end; an out-of-range destination dropped). -/
def msg (h : FVec Ideal S50000x128 .f32) (x1 x2 : IVec S800000 32)
    (x3 : FVec Ideal S800000 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x2)
    (mulf (broadcastInDim S800000x128 ![0, 1] bcast_S800000x1_S800000x128_0_1 (broadcastInDim S800000x1 ![0] bcast_S800000_S800000x1_0 x3))
      (Host.gather gather_S50000x128_S800000x1_S800000x128_1_0_n_n_0_1_1128 h
        (broadcastInDim S800000x1 ![0] bcast_S800000_S800000x1_0
          (select (cmpi .slt x1 (broadcastInDim S800000 ![] bcast_S_S800000 (constantI S_ 32 0#32)))
            (addi x1 (broadcastInDim S800000 ![] bcast_S_S800000 (constantI S_ 32 50000#32))) x1))))

/-- A bias row laid over all 50000 rows. -/
def biasRows (b : FVec Ideal S128 .f32) : FVec Ideal S50000x128 .f32 :=
  broadcastInDim S50000x128 ![0, 1] bcast_S1x128_S50000x128_0_1 (broadcastInDim S1x128 ![1] bcast_S128_S1x128_1 b)

/-- Zero at every entry of a 50000 × 128 array. -/
def zeroRows : FVec Ideal S50000x128 .f32 :=
  broadcastInDim S50000x128 ![] bcast_S_S50000x128 (constant S_ .f32 0x00000000#32)

/-- The perceptron: max(p · W₁ + b₁, 0) · W₂ + b₂, row by row. -/
def mlp (p : FVec Ideal S50000x128 .f32) (w1 : FVec Ideal S128x128 .f32)
    (b1 : FVec Ideal S128 .f32) (w2 : FVec Ideal S128x128 .f32)
    (b2 : FVec Ideal S128 .f32) : FVec Ideal S50000x128 .f32 :=
  addf (Host.dotGeneral dot_S50000x128_S128x128_S50000x128_1_0_0_1_n_n none
      (maximumf (addf (Host.dotGeneral dot_S50000x128_S128x128_S50000x128_1_0_0_1_n_n none p w1) (biasRows b1)) zeroRows) w2)
    (biasRows b2)

/-- The mean of each column: the column sum divided by 50000. -/
def colMean (z : FVec Ideal S50000x128 .f32) : FVec Ideal S128 .f32 :=
  Host.divf (Host.reduceAdd z (constant S_ .f32 0x00000000#32) reducesTo_S50000x128_S128_d0 h_S_)
    (broadcastInDim S128 ![] bcast_S_S128 (constant S_ .f32 0x47435000#32))

/-- The variance of each column about a given row of means. -/
def colVar (z : FVec Ideal S50000x128 .f32) (mu : FVec Ideal S128 .f32) :
    FVec Ideal S128 .f32 :=
  Host.divf (Host.reduceAdd (mulf (subf z (biasRows mu)) (subf z (biasRows mu))) (constant S_ .f32 0x00000000#32) reducesTo_S50000x128_S128_d0 h_S_)
    (broadcastInDim S128 ![] bcast_S_S128 (constant S_ .f32 0x47435000#32))

/-- The normalisation and the positive part: max(γ · (z − μ) · rsqrt(var + ε) + β, 0). -/
def bnRelu (z : FVec Ideal S50000x128 .f32) (mu var g b : FVec Ideal S128 .f32) :
    FVec Ideal S50000x128 .f32 :=
  maximumf (addf (mulf (mulf (biasRows g) (subf z (biasRows mu)))
      (biasRows (Host.rsqrt (addf var (broadcastInDim S128 ![] bcast_S_S128 (constant S_ .f32 0x3727C5AC#32))))))
    (biasRows b)) zeroRows

/-- Layer l's 128 × 128 weight matrix out of the stacked weights (l = 0, 1). -/
def mat0 (x : FVec Ideal S2x128x128 .f32) : FVec Ideal S128x128 .f32 :=
  shapeCast _ (extractStridedSlice S1x128x128 ![0, 0, 0] x slices_S2x128x128_S1x128x128_0_0_0) shapeCasts_S1x128x128_S128x128
def mat1 (x : FVec Ideal S2x128x128 .f32) : FVec Ideal S128x128 .f32 :=
  shapeCast _ (extractStridedSlice S1x128x128 ![1, 0, 0] x slices_S2x128x128_S1x128x128_1_0_0) shapeCasts_S1x128x128_S128x128
/-- Layer l's row of 128 out of a stacked pair of rows. -/
def row0 (x : FVec Ideal S2x128 .f32) : FVec Ideal S128 .f32 :=
  shapeCast _ (extractStridedSlice S1x128 ![0, 0] x slices_S2x128_S1x128_0_0) shapeCasts_S1x128_S128
def row1 (x : FVec Ideal S2x128 .f32) : FVec Ideal S128 .f32 :=
  shapeCast _ (extractStridedSlice S1x128 ![1, 0] x slices_S2x128_S1x128_1_0) shapeCasts_S1x128_S128

/-- A vector of 50000 as a column. -/
def colF (x : FVec Ideal S50000 .f32) : FVec Ideal S50000x1 .f32 :=
  broadcastInDim S50000x1 ![0] bcast_S50000_S50000x1_0 x
def colI (x : IVec S50000 32) : IVec S50000x1 32 :=
  broadcastInDim S50000x1 ![0] bcast_S50000_S50000x1_0 x

/-- The pooling: out[g] = ∑ over nodes i with id i = g of w i · h[i] (an id outside 0 … 511 dropped). -/
def pool (h : FVec Ideal S50000x128 .f32) (w : FVec Ideal S50000x1 .f32)
    (gid : IVec S50000x1 32) : FVec Ideal S512x128 .f32 :=
  Host.scatterAdd scatter_S512x128_S50000x1_S50000x128_1_0_0_1
    (broadcastInDim S512x128 ![] bcast_S_S512x128 (constant S_ .f32 0x00000000#32)) gid
    (mulf (broadcastInDim S50000x128 ![0, 1] bcast_S50000x1_S50000x128_0_1 w) h)

end Cert.Bridge.R

namespace Cert.Bridge.K

open Cert.KernelIdeal Cert.KernelIdeal.Gen Idealize.ShloMosaic Idealize.ShloMosaic.TcCoe

/-- The pooled sums after the row blocks 0 … n: block 0 added to the zero array, each later block to what came before. -/
def poolAcc (h : Vec Ideal S50000x128 .f32) (w : Vec Ideal S50000x1 .f32) (gid : Vec Ideal S50000x1 .i32) :
    (n : ℕ) → n < 10 → Vec Ideal S512x128 .f32
  | 0, hn => k4_pay2 (F := Ideal) (Cert.Bridge.rows ⟨0, hn⟩ h) (Cert.Bridge.rows ⟨0, hn⟩ w) (Cert.Bridge.rows ⟨0, hn⟩ gid) (k4_pay1 (F := Ideal))
  | n + 1, hn => k4_pay2 (F := Ideal) (Cert.Bridge.rows ⟨n + 1, hn⟩ h) (Cert.Bridge.rows ⟨n + 1, hn⟩ w) (Cert.Bridge.rows ⟨n + 1, hn⟩ gid)
      (poolAcc h w gid n (Nat.lt_of_succ_lt hn))

end Cert.Bridge.K

end
-- ==== Proof.KerStages.lean ====
/-
  The kernel program's host operations, stretch by stretch.  Between its five calls the program prepares, with host
  operations, what the next call reads: before the first call the message pass on the node features, layer 0's slices
  of the weights and the pooling's two columns; after the first perceptron the column means and variances of its
  output and layer 0's scale and shift; then the same for the second layer.  From whatever the buffers hold when a
  stretch starts, each buffer a call reads ends at the named function — the message pass, a weight or bias slice, a
  column, the column mean, the column variance — of what the stretch's own inputs held.
-/
import proofs.«408064_j47811575939605_1_alg».proof.Proof.Gen.KernelIdeal.Launch
import proofs.«408064_j47811575939605_1_alg».proof.Proof.Iface
import Idealize.ShloMosaic.Lib.StableHlo.Run

noncomputable section

namespace Cert.KernelIdeal.Hand

open Cert.KernelIdeal Cert.KernelIdeal.Gen Idealize.ShloMosaic Idealize.ShloMosaic.TcCoe Idealize.ShloMosaic.StableHlo

/-! ## Before the first call: the first message pass, layer 0's weights, the pooling's columns -/

/-- The first message pass, on the node features. -/
theorem s0_v14 (W : Valuation τ sig (Elt Ideal)) :
    StableHlo.after (hostOps0 (F := Ideal)) W (Proc.devRef .tc main_v14)
      = Cert.Bridge.R.msg (W (Proc.devRef .tc main_arg0)) (W (Proc.devRef .tc main_arg1)) (W (Proc.devRef .tc main_arg2)) (W (Proc.devRef .tc main_arg3)) := by
  show StableHlo.after hostOps0 W (Proc.devRef .tc main_v14) = _
  after_results_simp
  rfl

/-- Layer 0's first weight matrix. -/
theorem s0_v16 (W : Valuation τ sig (Elt Ideal)) :
    StableHlo.after (hostOps0 (F := Ideal)) W (Proc.devRef .tc main_v16)
      = Cert.Bridge.R.mat0 (W (Proc.devRef .tc main_arg6)) := by
  show StableHlo.after hostOps0 W (Proc.devRef .tc main_v16) = _
  after_results
  rfl

/-- Layer 0's first bias row. -/
theorem s0_v18 (W : Valuation τ sig (Elt Ideal)) :
    StableHlo.after (hostOps0 (F := Ideal)) W (Proc.devRef .tc main_v18)
      = Cert.Bridge.R.row0 (W (Proc.devRef .tc main_arg7)) := by
  show StableHlo.after hostOps0 W (Proc.devRef .tc main_v18) = _
  after_results
  rfl

/-- Layer 0's second weight matrix. -/
theorem s0_v20 (W : Valuation τ sig (Elt Ideal)) :
    StableHlo.after (hostOps0 (F := Ideal)) W (Proc.devRef .tc main_v20)
      = Cert.Bridge.R.mat0 (W (Proc.devRef .tc main_arg8)) := by
  show StableHlo.after hostOps0 W (Proc.devRef .tc main_v20) = _
  after_results
  rfl

/-- Layer 0's second bias row. -/
theorem s0_v22 (W : Valuation τ sig (Elt Ideal)) :
    StableHlo.after (hostOps0 (F := Ideal)) W (Proc.devRef .tc main_v22)
      = Cert.Bridge.R.row0 (W (Proc.devRef .tc main_arg9)) := by
  show StableHlo.after hostOps0 W (Proc.devRef .tc main_v22) = _
  after_results
  rfl

/-- The node weights as a column. -/
theorem s0_v0 (W : Valuation τ sig (Elt Ideal)) :
    StableHlo.after (hostOps0 (F := Ideal)) W (Proc.devRef .tc main_v0)
      = Cert.Bridge.R.colF (W (Proc.devRef .tc main_arg5)) := by
  show StableHlo.after hostOps0 W (Proc.devRef .tc main_v0) = _
  after_results
  rfl

/-- The graph ids as a column. -/
theorem s0_v1 (W : Valuation τ sig (Elt Ideal)) :
    StableHlo.after (hostOps0 (F := Ideal)) W (Proc.devRef .tc main_v1)
      = Cert.Bridge.R.colI (W (Proc.devRef .tc main_arg4)) := by
  show StableHlo.after hostOps0 W (Proc.devRef .tc main_v1) = _
  after_results
  rfl

/-! ## Between the first and the second call: the column statistics of the first perceptron's output, layer 0's scale and shift -/

/-- The column means. -/
theorem s1_v26 (W : Valuation τ sig (Elt Ideal)) :
    StableHlo.after (hostOps1 (F := Ideal)) W (Proc.devRef .tc main_v26)
      = Cert.Bridge.R.colMean (W (Proc.devRef .tc main_v23)) := by
  show StableHlo.after hostOps1 W (Proc.devRef .tc main_v26) = _
  after_results
  rfl

/-- The column variances about those means. -/
theorem s1_v33 (W : Valuation τ sig (Elt Ideal)) :
    StableHlo.after (hostOps1 (F := Ideal)) W (Proc.devRef .tc main_v33)
      = Cert.Bridge.R.colVar (W (Proc.devRef .tc main_v23)) (Cert.Bridge.R.colMean (W (Proc.devRef .tc main_v23))) := by
  show StableHlo.after hostOps1 W (Proc.devRef .tc main_v33) = _
  after_results
  rfl

/-- Layer 0's scale row. -/
theorem s1_v35 (W : Valuation τ sig (Elt Ideal)) :
    StableHlo.after (hostOps1 (F := Ideal)) W (Proc.devRef .tc main_v35)
      = Cert.Bridge.R.row0 (W (Proc.devRef .tc main_arg10)) := by
  show StableHlo.after hostOps1 W (Proc.devRef .tc main_v35) = _
  after_results
  rfl

/-- Layer 0's shift row. -/
theorem s1_v37 (W : Valuation τ sig (Elt Ideal)) :
    StableHlo.after (hostOps1 (F := Ideal)) W (Proc.devRef .tc main_v37)
      = Cert.Bridge.R.row0 (W (Proc.devRef .tc main_arg11)) := by
  show StableHlo.after hostOps1 W (Proc.devRef .tc main_v37) = _
  after_results
  rfl

/-! ## Between the second and the third call: the second message pass, layer 1's weights -/

/-- The second message pass, on the first layer's output. -/
theorem s2_v51 (W : Valuation τ sig (Elt Ideal)) :
    StableHlo.after (hostOps2 (F := Ideal)) W (Proc.devRef .tc main_v51)
      = Cert.Bridge.R.msg (W (Proc.devRef .tc main_v38)) (W (Proc.devRef .tc main_arg1)) (W (Proc.devRef .tc main_arg2)) (W (Proc.devRef .tc main_arg3)) := by
  show StableHlo.after hostOps2 W (Proc.devRef .tc main_v51) = _
  after_results_simp
  rfl

/-- Layer 1's first weight matrix. -/
theorem s2_v53 (W : Valuation τ sig (Elt Ideal)) :
    StableHlo.after (hostOps2 (F := Ideal)) W (Proc.devRef .tc main_v53)
      = Cert.Bridge.R.mat1 (W (Proc.devRef .tc main_arg6)) := by
  show StableHlo.after hostOps2 W (Proc.devRef .tc main_v53) = _
  after_results
  rfl

/-- Layer 1's first bias row. -/
theorem s2_v55 (W : Valuation τ sig (Elt Ideal)) :
    StableHlo.after (hostOps2 (F := Ideal)) W (Proc.devRef .tc main_v55)
      = Cert.Bridge.R.row1 (W (Proc.devRef .tc main_arg7)) := by
  show StableHlo.after hostOps2 W (Proc.devRef .tc main_v55) = _
  after_results
  rfl

/-- Layer 1's second weight matrix. -/
theorem s2_v57 (W : Valuation τ sig (Elt Ideal)) :
    StableHlo.after (hostOps2 (F := Ideal)) W (Proc.devRef .tc main_v57)
      = Cert.Bridge.R.mat1 (W (Proc.devRef .tc main_arg8)) := by
  show StableHlo.after hostOps2 W (Proc.devRef .tc main_v57) = _
  after_results
  rfl

/-- Layer 1's second bias row. -/
theorem s2_v59 (W : Valuation τ sig (Elt Ideal)) :
    StableHlo.after (hostOps2 (F := Ideal)) W (Proc.devRef .tc main_v59)
      = Cert.Bridge.R.row1 (W (Proc.devRef .tc main_arg9)) := by
  show StableHlo.after hostOps2 W (Proc.devRef .tc main_v59) = _
  after_results
  rfl

/-! ## Between the third and the fourth call: the column statistics of the second perceptron's output, layer 1's scale and shift -/

/-- The column means. -/
theorem s3_v63 (W : Valuation τ sig (Elt Ideal)) :
    StableHlo.after (hostOps3 (F := Ideal)) W (Proc.devRef .tc main_v63)
      = Cert.Bridge.R.colMean (W (Proc.devRef .tc main_v60)) := by
  show StableHlo.after hostOps3 W (Proc.devRef .tc main_v63) = _
  after_results
  rfl

/-- The column variances about those means. -/
theorem s3_v70 (W : Valuation τ sig (Elt Ideal)) :
    StableHlo.after (hostOps3 (F := Ideal)) W (Proc.devRef .tc main_v70)
      = Cert.Bridge.R.colVar (W (Proc.devRef .tc main_v60)) (Cert.Bridge.R.colMean (W (Proc.devRef .tc main_v60))) := by
  show StableHlo.after hostOps3 W (Proc.devRef .tc main_v70) = _
  after_results
  rfl

/-- Layer 1's scale row. -/
theorem s3_v72 (W : Valuation τ sig (Elt Ideal)) :
    StableHlo.after (hostOps3 (F := Ideal)) W (Proc.devRef .tc main_v72)
      = Cert.Bridge.R.row1 (W (Proc.devRef .tc main_arg10)) := by
  show StableHlo.after hostOps3 W (Proc.devRef .tc main_v72) = _
  after_results
  rfl

/-- Layer 1's shift row. -/
theorem s3_v74 (W : Valuation τ sig (Elt Ideal)) :
    StableHlo.after (hostOps3 (F := Ideal)) W (Proc.devRef .tc main_v74)
      = Cert.Bridge.R.row1 (W (Proc.devRef .tc main_arg11)) := by
  show StableHlo.after hostOps3 W (Proc.devRef .tc main_v74) = _
  after_results
  rfl

end Cert.KernelIdeal.Hand

end
-- ==== Proof.BridgeMlp.lean ====
/-
  The perceptron, block by block: on rows 5000·t … 5000·t + 4999 the kernel's body — two products with the 128 × 128
  weights accumulated into zero, a bias row added after each, the positive part between them — gives those rows of
  max(p · W₁ + b₁, 0) · W₂ + b₂.  A row of the result depends on the same row of p only, and at the ideal values a
  change of float format is the identity and a product accumulated into zero is the plain sum over the contracted
  coordinate, which is also what the host's product is.
-/
import proofs.«408064_j47811575939605_1_alg».proof.Proof.Iface
import Idealize.ShloMosaic.PureOps.Ideal.Laws
import Idealize.ShloMosaic.Lib.Pipeline.Value
import Idealize.ShloMosaic.Lib.ValueLayout

noncomputable section

namespace Cert.Bridge

open Idealize.ShloMosaic Idealize.ShloMosaic.ValueIdx

/-! ## The block product: a 5000 × 128 block times a 128 × 128 matrix, accumulated into zero -/

section KernelSide
open Cert.KernelIdeal Cert.KernelIdeal.Gen

/-- The left operand's row is the output's row. -/
theorem blockDot_lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left operand's column is the contracted coordinate. -/
theorem blockDot_lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row is the contracted coordinate. -/
theorem blockDot_rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's column is the output's column. -/
theorem blockDot_rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The entry (r, q) of the block product accumulated into zero is ∑ c, A(r, c) · B(c, q). -/
theorem blockMatmul_apply {φ₁ φ₂ : FTy} (A : FVec Ideal S5000x128 φ₁) (B : FVec Ideal S128x128 φ₂) (r : Fin 5000) (q : Fin 128) :
    matmul (F := Ideal) dot_S5000x128_S128x128_S5000x128_1_0_0_1_n_n none A B (constant S5000x128 .f32 0x00000000#32) (ix2 r q)
      = ∑ c : Fin 128, A (ix2 r c) * B (ix2 c q) := by
  show FloatOps.matmul _ none A B _ (ix2 r q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have el : dot_S5000x128_S128x128_S5000x128_1_0_0_1_n_n.lhsIdx (ix2 r q)
      ((contrEquiv1 dot_S5000x128_S128x128_S5000x128_1_0_0_1_n_n 128 rfl rfl).symm c) = ix2 r c :=
    funext fun a => Fin.ext (by
      match a with
      | ⟨0, _⟩ => exact blockDot_lhs_0 _ _
      | ⟨1, _⟩ => exact (blockDot_lhs_1 _ _).trans hc)
  have er : dot_S5000x128_S128x128_S5000x128_1_0_0_1_n_n.rhsIdx (ix2 r q)
      ((contrEquiv1 dot_S5000x128_S128x128_S5000x128_1_0_0_1_n_n 128 rfl rfl).symm c) = ix2 c q :=
    funext fun a => Fin.ext (by
      match a with
      | ⟨0, _⟩ => exact (blockDot_rhs_0 _ _).trans hc
      | ⟨1, _⟩ => exact blockDot_rhs_1 _ _)
  rw [el, er]

/-- A row of 128, cast to the same shape, then to one row of a 1 × 128 array, then laid over 5000 rows, reads b(q) at (r, q). -/
theorem blockBias_apply {α : Type} (b : S128.Idx → α) (h0 : S128.ShapeCasts S128) (h1 : S128.ShapeCasts S1x128)
    (h2 : S1x128.Broadcasts S5000x128) (r : Fin 5000) (q : Fin 128) :
    broadcastTo S5000x128 (shapeCast S1x128 (shapeCast S128 b h0) h1) h2 (ix2 r q) = b (ix1 q) := by
  rw [broadcastTo_1b_ab_apply, shapeCast_a_1a_apply, shapeCast_self]

end KernelSide

/-! ## The host's product: 50000 × 128 times 128 × 128 -/

section ReferenceSide
open Cert.ReferenceIdeal Cert.ReferenceIdeal.Gen

/-- The left operand's row is the output's row. -/
theorem hostDot_lhs_0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
/-- The left operand's column is the contracted coordinate. -/
theorem hostDot_lhs_1 (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c
/-- The right operand's row is the contracted coordinate. -/
theorem hostDot_rhs_0 (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c
/-- The right operand's column is the output's column. -/
theorem hostDot_rhs_1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The entry (r, q) of the host's product is ∑ c, A(r, c) · B(c, q). -/
theorem hostDot_apply {φ₁ φ₂ : FTy} (A : FVec Ideal S50000x128 φ₁) (B : FVec Ideal S128x128 φ₂) (r : Fin 50000) (q : Fin 128) :
    Host.dotGeneral (F := Ideal) dot_S50000x128_S128x128_S50000x128_1_0_0_1_n_n none A B (ix2 r q)
      = ∑ c : Fin 128, A (ix2 r c) * B (ix2 c q) := by
  simp only [Host.dotGeneral]
  rw [Ideal.dotGeneral_apply,
    ← Equiv.sum_comp (contrEquiv1 dot_S50000x128_S128x128_S50000x128_1_0_0_1_n_n 128 rfl rfl).symm]
  refine Finset.sum_congr rfl fun c _ => ?_
  have hc := contrEquiv1_symm_val dot_S50000x128_S128x128_S50000x128_1_0_0_1_n_n 128 rfl rfl c
  have el : dot_S50000x128_S128x128_S50000x128_1_0_0_1_n_n.lhsIdx (ix2 r q)
      ((contrEquiv1 dot_S50000x128_S128x128_S50000x128_1_0_0_1_n_n 128 rfl rfl).symm c) = ix2 r c :=
    funext fun a => Fin.ext (by
      match a with
      | ⟨0, _⟩ => exact hostDot_lhs_0 _ _
      | ⟨1, _⟩ => exact (hostDot_lhs_1 _ _).trans hc)
  have er : dot_S50000x128_S128x128_S50000x128_1_0_0_1_n_n.rhsIdx (ix2 r q)
      ((contrEquiv1 dot_S50000x128_S128x128_S50000x128_1_0_0_1_n_n 128 rfl rfl).symm c) = ix2 c q :=
    funext fun a => Fin.ext (by
      match a with
      | ⟨0, _⟩ => exact (hostDot_rhs_0 _ _).trans hc
      | ⟨1, _⟩ => exact hostDot_rhs_1 _ _)
  rw [el, er]

/-- A bias row laid over all rows reads b(q) at (r, q). -/
theorem biasRows_apply (b : FVec Ideal S128 .f32) (r : Fin 50000) (q : Fin 128) :
    R.biasRows b (ix2 r q) = b (ix1 q) := by
  unfold R.biasRows
  rw [broadcastInDim_apply _ _ _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ _ _ (ix2 (0 : Fin 1) q) (ix1 q) (fun a => match a with
      | ⟨0, _⟩ => by show q.val = if (128 : Nat) = 1 then 0 else q.val; rw [if_neg (by decide)])]

/-- The zero array reads the zero word's value everywhere. -/
theorem zeroRows_apply (i : S50000x128.Idx) : R.zeroRows i = Ideal.ofBits .f32 0x00000000#32 := by
  unfold R.zeroRows
  rw [broadcastInDim_apply _ _ _ i ix0 (fun a => a.elim0)]
  rfl

end ReferenceSide

/-! ## The perceptron at an entry -/

/-- The entry (r, q) of max(X · W₁ + b₁, 0) · W₂ + b₂: a sum over the hidden coordinate k of the positive part of the
    first layer's entry (r, k) — itself a sum over the input coordinate j — times W₂(k, q), plus b₂(q). -/
def mlpAt {n : Nat} (X : (⟨2, ![n, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin n) (q : Fin 128) : EReal :=
  (∑ k : Fin 128, max ((∑ j : Fin 128, X (ix2 r j) * w1 (ix2 j k)) + b1 (ix1 k)) (Ideal.ofBits .f32 0x00000000#32)
      * w2 (ix2 k q)) + b2 (ix1 q)

/-- The kernel's body on a block, at the entry (r, q). -/
theorem k0_pay1_apply (X : FVec Ideal ⟨2, ![5000, 128]⟩ .f32) (w1 : FVec Ideal ⟨2, ![128, 128]⟩ .f32)
    (b1 : FVec Ideal ⟨1, ![128]⟩ .f32) (w2 : FVec Ideal ⟨2, ![128, 128]⟩ .f32) (b2 : FVec Ideal ⟨1, ![128]⟩ .f32)
    (r : Fin 5000) (q : Fin 128) :
    Cert.KernelIdeal.Gen.k0_pay1 (F := Ideal) X w1 b1 w2 b2 (ix2 r q) = mlpAt X w1 b1 w2 b2 r q := by
  unfold Cert.KernelIdeal.Gen.k0_pay1 mlpAt
  rw [addf_apply, blockMatmul_apply, blockBias_apply]
  refine congrArg (· + b2 (ix1 q)) (Finset.sum_congr rfl fun k _ => ?_)
  rw [truncf_apply, maximumf_apply, addf_apply, blockMatmul_apply, blockBias_apply, broadcast_apply]
  simp only [truncf_apply, shapeCast_self]
  rfl

/-- The reference's perceptron at the entry (r, q). -/
theorem mlp_apply (p : FVec Ideal ⟨2, ![50000, 128]⟩ .f32) (w1 : FVec Ideal ⟨2, ![128, 128]⟩ .f32)
    (b1 : FVec Ideal ⟨1, ![128]⟩ .f32) (w2 : FVec Ideal ⟨2, ![128, 128]⟩ .f32) (b2 : FVec Ideal ⟨1, ![128]⟩ .f32)
    (r : Fin 50000) (q : Fin 128) :
    R.mlp p w1 b1 w2 b2 (ix2 r q) = mlpAt p w1 b1 w2 b2 r q := by
  unfold R.mlp mlpAt
  rw [addf_apply, hostDot_apply, biasRows_apply]
  refine congrArg (· + b2 (ix1 q)) (Finset.sum_congr rfl fun k _ => ?_)
  rw [maximumf_apply, addf_apply, hostDot_apply, biasRows_apply, zeroRows_apply]

/-- Rows 5000·t … of the perceptron of p are the first layer's kernel body on rows 5000·t … of p. -/
theorem mlp_block (t : Fin 10) (p : FVec Ideal ⟨2, ![50000, 128]⟩ .f32) (w1 : FVec Ideal ⟨2, ![128, 128]⟩ .f32)
    (b1 : FVec Ideal ⟨1, ![128]⟩ .f32) (w2 : FVec Ideal ⟨2, ![128, 128]⟩ .f32) (b2 : FVec Ideal ⟨1, ![128]⟩ .f32) :
    Cert.KernelIdeal.Gen.k0_pay1 (F := Ideal) (rows (e := .f32) t p) w1 b1 w2 b2 = rows (e := .f32) t (R.mlp p w1 b1 w2 b2) := by
  funext y
  obtain ⟨r, q, rfl⟩ : ∃ (r : Fin 5000) (q : Fin 128), y = ix2 r q := ⟨y 0, y 1, eq_ix2 y⟩
  rw [k0_pay1_apply]
  show _ = R.mlp p w1 b1 w2 b2 (ix2 (⟨5000 * t.val + r.val, _⟩ : Fin 50000) q)
  rw [mlp_apply]
  rfl

/-- The same for the second layer's call: its body is the same text. -/
theorem mlp_block' (t : Fin 10) (p : FVec Ideal ⟨2, ![50000, 128]⟩ .f32) (w1 : FVec Ideal ⟨2, ![128, 128]⟩ .f32)
    (b1 : FVec Ideal ⟨1, ![128]⟩ .f32) (w2 : FVec Ideal ⟨2, ![128, 128]⟩ .f32) (b2 : FVec Ideal ⟨1, ![128]⟩ .f32) :
    Cert.KernelIdeal.Gen.k2_pay1 (F := Ideal) (rows (e := .f32) t p) w1 b1 w2 b2 = rows (e := .f32) t (R.mlp p w1 b1 w2 b2) :=
  mlp_block t p w1 b1 w2 b2

end Cert.Bridge

end
-- ==== Proof.BridgeBn.lean ====
/-
  The normalisation, block by block: on rows 5000·t … the kernel's body gives those rows of
  max(γ · (z − μ) · rsqrt(var + ε) + β, 0).  Every operation is entry by entry; the kernel forms rsqrt(var + ε) on a row
  and lays it over the block, the reference on the vector and lays it over the array: the same number at an entry.
-/
import proofs.«408064_j47811575939605_1_alg».proof.Proof.Iface
import Idealize.ShloMosaic.PureOps.Ideal.Laws
import Idealize.ShloMosaic.Lib.Pipeline.Value
import Idealize.ShloMosaic.Lib.ValueLayout

noncomputable section

namespace Cert.Bridge

open Idealize.ShloMosaic Idealize.ShloMosaic.ValueIdx

/-! ## Rows of a block -/

/-- Row r of block t is row 5000·t + r of the array. -/
theorem rows_apply {n : Nat} {e : EltTy} (t : Fin 10) (X : Vec Ideal ⟨2, ![50000, n]⟩ e) (r : Fin 5000) (q : Fin n) :
    rows t X (ix2 r q) = X (ix2 (⟨5000 * t.val + r.val, by have := r.isLt; have := t.isLt; omega⟩ : Fin 50000) q) := rfl

/-! ## The kernel's side: a vector of 128 as one row, laid over the 5000 rows of a block -/

/-- A vector of 128, viewed as the one row of a 1 × 128 array and laid over the block, reads at (r, q) the vector at q. -/
theorem rowOver_apply (v : FVec Ideal ⟨1, ![128]⟩ .f32) (h1 : (⟨1, ![128]⟩ : Shape).ShapeCasts ⟨2, ![1, 128]⟩)
    (h2 : (⟨2, ![1, 128]⟩ : Shape).Broadcasts ⟨2, ![5000, 128]⟩) (r : Fin 5000) (q : Fin 128) :
    broadcastTo ⟨2, ![5000, 128]⟩ (shapeCast ⟨2, ![1, 128]⟩ v h1) h2 (ix2 r q) = v (ix1 q) := by
  rw [broadcastTo_1b_ab_apply, shapeCast_a_1a_apply]

/-- The reciprocal root of (variance + ε), formed on the row and laid over the block, reads at (r, q) the
    reciprocal root of the variance at q plus ε. -/
theorem rsqrtRowOver_apply (v : FVec Ideal ⟨1, ![128]⟩ .f32) (eps : EReal) (h1 : (⟨1, ![128]⟩ : Shape).ShapeCasts ⟨2, ![1, 128]⟩)
    (h2 : (⟨2, ![1, 128]⟩ : Shape).Broadcasts ⟨2, ![5000, 128]⟩) (r : Fin 5000) (q : Fin 128) :
    broadcastTo ⟨2, ![5000, 128]⟩
      (rsqrt (F := Ideal) (φ := .f32) (addf (shapeCast ⟨2, ![1, 128]⟩ v h1) (broadcast ⟨2, ![1, 128]⟩ eps))) h2 (ix2 r q)
      = Ideal.rsqrt (v (ix1 q) + eps) := by
  rw [broadcastTo_1b_ab_apply]
  show Ideal.rsqrt (shapeCast ⟨2, ![1, 128]⟩ v h1 (ix2 (0 : Fin 1) q) + eps) = _
  rw [shapeCast_a_1a_apply]

/-- The kernel's body at an entry: max(γ · (x − μ) · rsqrt(var + ε) + β, 0) with the four vectors read at the column. -/
theorem k1_pay1_apply (x : Vec Ideal ⟨2, ![5000, 128]⟩ .f32) (mu var g b : FVec Ideal ⟨1, ![128]⟩ .f32)
    (r : Fin 5000) (q : Fin 128) :
    Cert.KernelIdeal.Gen.k1_pay1 (F := Ideal) x mu var g b (ix2 r q)
      = max (g (ix1 q) * (x (ix2 r q) - mu (ix1 q)) * Ideal.rsqrt (var (ix1 q) + Ideal.ofBits .f32 0x3727C5AC#32) + b (ix1 q))
          (Ideal.ofBits .f32 0x00000000#32) := by
  unfold Cert.KernelIdeal.Gen.k1_pay1
  simp only [maximumf_apply, addf_apply, mulf_apply, subf_apply, broadcast_apply, shapeCast_self, rowOver_apply,
    rsqrtRowOver_apply]
  rfl

/-! ## The reference's side: a vector of 128 laid over the 50000 rows -/

/-- A vector of 128 laid over all rows reads, at (r, q), the vector at q. -/
theorem biasRows_at (v : FVec Ideal ⟨1, ![128]⟩ .f32) (r : Fin 50000) (q : Fin 128) :
    R.biasRows v (ix2 r q) = v (ix1 q) := by
  unfold R.biasRows
  refine (broadcastInDim_apply _ _ _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ _ v (ix2 (0 : Fin 1) q) (ix1 q) (fun a => match a with
    | ⟨0, _⟩ => by show q.val = if (128 : Nat) = 1 then 0 else q.val; rw [if_neg (by decide)])

/-- A scalar constant laid over a vector of 128 reads the constant. -/
theorem scalarOver128_apply (w : BitVec 32)
    (h : (⟨0, ![]⟩ : Shape).BroadcastsInDim ⟨1, ![128]⟩ (![] : Fin 0 → Fin (⟨1, ![128]⟩ : Shape).rank))
    (i : (⟨1, ![128]⟩ : Shape).Idx) :
    broadcastInDim ⟨1, ![128]⟩ ![] h (constant (F := Ideal) ⟨0, ![]⟩ .f32 w) i = Ideal.ofBits .f32 w :=
  broadcastInDim_apply _ h _ i ix0 (fun a => a.elim0)

/-- The zero array reads zero. -/
theorem zeroRows_at (i : (⟨2, ![50000, 128]⟩ : Shape).Idx) : R.zeroRows i = Ideal.ofBits .f32 0x00000000#32 := by
  unfold R.zeroRows
  exact broadcastInDim_apply _ _ _ i ix0 (fun a => a.elim0)

/-- The reference's normalisation at an entry. -/
theorem bnRelu_apply (z : FVec Ideal ⟨2, ![50000, 128]⟩ .f32) (mu var g b : FVec Ideal ⟨1, ![128]⟩ .f32)
    (r : Fin 50000) (q : Fin 128) :
    R.bnRelu z mu var g b (ix2 r q)
      = max (g (ix1 q) * (z (ix2 r q) - mu (ix1 q)) * Ideal.rsqrt (var (ix1 q) + Ideal.ofBits .f32 0x3727C5AC#32) + b (ix1 q))
          (Ideal.ofBits .f32 0x00000000#32) := by
  unfold R.bnRelu
  rw [maximumf_apply, addf_apply, mulf_apply, mulf_apply, subf_apply, biasRows_at, biasRows_at, biasRows_at,
    biasRows_at, zeroRows_at]
  simp only [Host.rsqrt, addf_apply, Ideal.hostUnary_rsqrt_def]
  rw [scalarOver128_apply]

/-! ## The block -/

/-- Rows 5000·t … of the normalised array are the kernel body on rows 5000·t … of z. -/
theorem bn_block (t : Fin 10) (z : FVec Ideal ⟨2, ![50000, 128]⟩ .f32) (mu var g b : FVec Ideal ⟨1, ![128]⟩ .f32) :
    Cert.KernelIdeal.Gen.k1_pay1 (F := Ideal) (rows (e := .f32) t z) mu var g b = rows (e := .f32) t (R.bnRelu z mu var g b) := by
  funext y
  obtain ⟨r, q, rfl⟩ : ∃ (r : Fin 5000) (q : Fin 128), y = ix2 r q := ⟨y 0, y 1, eq_ix2 y⟩
  rw [k1_pay1_apply, rows_apply, rows_apply, bnRelu_apply]

/-- The second layer's call has the same body. -/
theorem k3_pay1_eq_k1_pay1 : @Cert.KernelIdeal.Gen.k3_pay1 Ideal _ = @Cert.KernelIdeal.Gen.k1_pay1 Ideal _ := rfl

/-- The same for the second layer's call: its body is the same text. -/
theorem bn_block' (t : Fin 10) (z : FVec Ideal ⟨2, ![50000, 128]⟩ .f32) (mu var g b : FVec Ideal ⟨1, ![128]⟩ .f32) :
    Cert.KernelIdeal.Gen.k3_pay1 (F := Ideal) (rows (e := .f32) t z) mu var g b = rows (e := .f32) t (R.bnRelu z mu var g b) :=
  bn_block t z mu var g b

end Cert.Bridge

end
-- ==== Proof.ValFinal.lean ====
/-
  What the four node-tiled calls leave in their result arrays, whole.  Each call writes back, after every grid point, the
  block of 5000 rows that point computed; the ten blocks tile the 50000 rows; and a block is the matching rows of one
  function of the call's operand arrays (the perceptron, or the normalisation followed by the positive part).  So the
  result array ends holding that function of the operand arrays as the call found them.
-/
import proofs.«408064_j47811575939605_1_alg».proof.Proof.FrameR0
import proofs.«408064_j47811575939605_1_alg».proof.Proof.FrameR1
import proofs.«408064_j47811575939605_1_alg».proof.Proof.FrameR2
import proofs.«408064_j47811575939605_1_alg».proof.Proof.FrameR3
import proofs.«408064_j47811575939605_1_alg».proof.Proof.BridgeMlp
import proofs.«408064_j47811575939605_1_alg».proof.Proof.BridgeBn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

-- the buffers' contents when a call is entered, at the ideal values
variable (V : (c : Dev nD) → (b : Ref sig .tc) → Buf (Elt Ideal) ((c : Thread nD τ).loc b))

/-! ## Loads and stores through a whole buffer -/

/-- Two zero offsets are the zero function. -/
theorem zeros2 : (![0, 0] : Fin 2 → Nat) = fun _ => 0 := funext fun a => by fin_cases a <;> rfl
/-- One zero offset is the zero function. -/
theorem zeros1 : (![0] : Fin 1 → Nat) = fun _ => 0 := funext fun a => by fin_cases a; rfl

/-! ## The first perceptron call -/

/-- The output buffer after the body is the body's arithmetic on the five input buffers: every load and the one store
    go through a whole buffer. -/
theorem out0_5_eq (x0 : Vec Ideal S5000x128 .f32) (x1 : Vec Ideal S128x128 .f32) (x2 : Vec Ideal S128 .f32)
    (x3 : Vec Ideal S128x128 .f32) (x4 : Vec Ideal S128 .f32) :
    out0_5 (F := Ideal) x0 x1 x2 x3 x4 = k0_pay1 (F := Ideal) x0 x1 x2 x3 x4 := by
  unfold out0_5
  rw [View.canon_unit_zero zeros2]
  simp only [View.ld_unit_zero (S := S5000x128) zeros2, View.ld_unit_zero (S := S128x128) zeros2,
    View.ld_unit_zero (S := S128) zeros1]

/-- The printed block indices over the grid: the row-block windows (operand 0 and the result) sit at block (t, 0), the
    four whole-array windows at block 0 on every axis. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Operand 0's block at point t is rows 5000·t … of its array. -/
theorem iblk0_0_eq (c : Dev nD) (t : Fin cfg0.N) :
    iblk0 (F := Ideal) V c 0 t = Cert.Bridge.rows (e := .f32) ⟨t.val, t.isLt⟩ (V c main_v14) := by
  obtain ⟨e0, e1, -⟩ := blockIndex0 t
  funext y
  show V c main_v14 (((cfg0.win 0).blk t).view.emb y) = V c main_v14 _
  refine congrArg (V c main_v14) (funext fun a => Fin.ext ?_)
  match a with
  | ⟨0, _⟩ =>
    show win0_0.index t (0 : Fin 2) * 5000 + 1 * (y 0).val = 5000 * t.val + (y 0).val
    rw [e0]; omega
  | ⟨1, _⟩ =>
    show win0_0.index t (1 : Fin 2) * 128 + 1 * (y 1).val = (y 1).val
    rw [e1]; omega

/-- Operand 1's block is its whole 128 × 128 array at every point. -/
theorem iblk0_1_eq (c : Dev nD) (t : Fin cfg0.N) :
    iblk0 (F := Ideal) V c 1 t = (V c main_v16 : Vec Ideal S128x128 .f32) := by
  obtain ⟨-, -, e0, e1, -⟩ := blockIndex0 t
  funext y
  show V c main_v16 (((cfg0.win 1).blk t).view.emb y) = V c main_v16 y
  refine congrArg (V c main_v16) (funext fun a => Fin.ext ?_)
  match a with
  | ⟨0, _⟩ =>
    show win0_1.index t (0 : Fin 2) * 128 + 1 * (y 0).val = (y 0).val
    rw [e0]; omega
  | ⟨1, _⟩ =>
    show win0_1.index t (1 : Fin 2) * 128 + 1 * (y 1).val = (y 1).val
    rw [e1]; omega

/-- Operand 2's block is its whole row of 128 at every point. -/
theorem iblk0_2_eq (c : Dev nD) (t : Fin cfg0.N) :
    iblk0 (F := Ideal) V c 2 t = (V c main_v18 : Vec Ideal S128 .f32) := by
  obtain ⟨-, -, -, -, e0, -⟩ := blockIndex0 t
  funext y
  show V c main_v18 (((cfg0.win 2).blk t).view.emb y) = V c main_v18 y
  refine congrArg (V c main_v18) (funext fun a => Fin.ext ?_)
  match a with
  | ⟨0, _⟩ =>
    show win0_2.index t (0 : Fin 1) * 128 + 1 * (y 0).val = (y 0).val
    rw [e0]; omega

/-- Operand 3's block is its whole 128 × 128 array at every point. -/
theorem iblk0_3_eq (c : Dev nD) (t : Fin cfg0.N) :
    iblk0 (F := Ideal) V c 3 t = (V c main_v20 : Vec Ideal S128x128 .f32) := by
  obtain ⟨-, -, -, -, -, e0, e1, -⟩ := blockIndex0 t
  funext y
  show V c main_v20 (((cfg0.win 3).blk t).view.emb y) = V c main_v20 y
  refine congrArg (V c main_v20) (funext fun a => Fin.ext ?_)
  match a with
  | ⟨0, _⟩ =>
    show win0_3.index t (0 : Fin 2) * 128 + 1 * (y 0).val = (y 0).val
    rw [e0]; omega
  | ⟨1, _⟩ =>
    show win0_3.index t (1 : Fin 2) * 128 + 1 * (y 1).val = (y 1).val
    rw [e1]; omega

/-- Operand 4's block is its whole row of 128 at every point. -/
theorem iblk0_4_eq (c : Dev nD) (t : Fin cfg0.N) :
    iblk0 (F := Ideal) V c 4 t = (V c main_v22 : Vec Ideal S128 .f32) := by
  obtain ⟨-, -, -, -, -, -, -, e0, -⟩ := blockIndex0 t
  funext y
  show V c main_v22 (((cfg0.win 4).blk t).view.emb y) = V c main_v22 y
  refine congrArg (V c main_v22) (funext fun a => Fin.ext ?_)
  match a with
  | ⟨0, _⟩ =>
    show win0_4.index t (0 : Fin 1) * 128 + 1 * (y 0).val = (y 0).val
    rw [e0]; omega

/-- Rows 5000·t … of a 50000 × 128 array are what the result window's block at point t reads of it. -/
theorem cut_rows0 (t : Fin cfg0.N) (G : Vec Ideal ⟨2, ![50000, 128]⟩ .f32) :
    (cfg0.win 5).cut (grid0.coords t) (Cert.Bridge.rows (e := .f32) ⟨t.val, t.isLt⟩ G)
      = ((cfg0.win 5).blk t).view.read (Elt Ideal) G := by
  obtain ⟨-, -, -, -, -, -, -, -, e0, e1⟩ := blockIndex0 t
  funext j
  show Cert.Bridge.rows (e := .f32) ⟨t.val, t.isLt⟩ G ((cfg0.win 5).xinj _ j) = G (((cfg0.win 5).blk t).view.emb j)
  unfold Cert.Bridge.rows
  refine congrArg G (funext fun a => Fin.ext ?_)
  match a with
  | ⟨0, _⟩ =>
    show 5000 * t.val + (j 0).val = win0_5.index t (0 : Fin 2) * 5000 + 1 * (j 0).val
    rw [e0]; omega
  | ⟨1, _⟩ =>
    show (j 1).val = win0_5.index t (1 : Fin 2) * 128 + 1 * (j 1).val
    rw [e1]; omega

/-- What point t writes back is the perceptron of the operand arrays, read through the result window's block at t:
    the body's arithmetic on rows 5000·t … of operand 0 and the four whole small operands is those rows of the
    perceptron of the whole arrays. -/
theorem flushed0_eq (c : Dev nD) (t : Fin cfg0.N) :
    (dat0 (F := Ideal) V c).flushed 5 t
      = ((cfg0.win 5).blk t).view.read (Elt Ideal)
          (Cert.Bridge.R.mlp (V c main_v14) (V c main_v16) (V c main_v18) (V c main_v20) (V c main_v22)) := by
  show (cfg0.win 5).cut (grid0.coords t) ((dat0 (F := Ideal) V c).after 5 t) = _
  rw [after0_5, out0_5_eq, iblk0_0_eq, iblk0_1_eq, iblk0_2_eq, iblk0_3_eq, iblk0_4_eq, Cert.Bridge.mlp_block]
  exact cut_rows0 t _

/-- An index of the result array is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Row r of the result array lies in the block of point r / 5000, and every point writes its block back: the ten
    blocks of 5000 rows tile the 50000 rows. -/
theorem cover0 (i : S50000x128.Idx) : ∃ t : Fin cfg0.N, (cfg0.win 5).flush t = true ∧ i ∈ ((cfg0.win 5).blk t).view.set := by
  have hN : grid0.N = 10 := N_0
  have h0 : (i 0).val < 50000 := (i 0).isLt
  have h1 : (i 1).val < 128 := (i 1).isLt
  obtain ⟨t, ht⟩ : ∃ t : Fin cfg0.N, t.val = (i 0).val / 5000 :=
    ⟨⟨(i 0).val / 5000, show (i 0).val / 5000 < grid0.N by rw [hN]; omega⟩, rfl⟩
  obtain ⟨-, -, -, -, -, -, -, -, e0, e1⟩ := blockIndex0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- The first perceptron call's result array: every point writes back its 5000 rows of the perceptron of the five
    operand arrays, and the ten blocks tile the array, so the array ends holding that perceptron whole. -/
theorem final0 (c : Dev nD) : (dat0 (F := Ideal) V c).arrAt 5 cfg0.N
    = Cert.Bridge.R.mlp (V c main_v14) (V c main_v16) (V c main_v18) (V c main_v20) (V c main_v22) := by
  exact (dat0 (F := Ideal) V c).arrAt_eq_of_cover 5
    (Cert.Bridge.R.mlp (V c main_v14) (V c main_v16) (V c main_v18) (V c main_v20) (V c main_v22))
    (fun t _ => flushed0_eq V c t) cover0

/-! ## The first normalisation call -/

/-- The output buffer after the body is the body's arithmetic on the five input buffers: every load and the one store
    go through a whole buffer. -/
theorem out1_5_eq (x0 : Vec Ideal S5000x128 .f32) (x1 x2 x3 x4 : Vec Ideal S128 .f32) :
    out1_5 (F := Ideal) x0 x1 x2 x3 x4 = k1_pay1 (F := Ideal) x0 x1 x2 x3 x4 := by
  unfold out1_5
  rw [View.canon_unit_zero zeros2]
  simp only [View.ld_unit_zero (S := S5000x128) zeros2, View.ld_unit_zero (S := S128) zeros1]

/-- The printed block indices over the grid: the row-block windows (operand 0 and the result) sit at block (t, 0), the
    four whole-row windows at block 0. -/
theorem blockIndex1 : ∀ t : Fin cfg1.N,
    win1_0.index t (0 : Fin 2) = t.val ∧ win1_0.index t (1 : Fin 2) = 0
    ∧ win1_1.index t (0 : Fin 1) = 0
    ∧ win1_2.index t (0 : Fin 1) = 0
    ∧ win1_3.index t (0 : Fin 1) = 0
    ∧ win1_4.index t (0 : Fin 1) = 0
    ∧ win1_5.index t (0 : Fin 2) = t.val ∧ win1_5.index t (1 : Fin 2) = 0 :=
  (by decide +kernel : ∀ t : Fin grid1.N, _)

/-- Operand 0's block at point t is rows 5000·t … of its array. -/
theorem iblk1_0_eq (c : Dev nD) (t : Fin cfg1.N) :
    iblk1 (F := Ideal) V c 0 t = Cert.Bridge.rows (e := .f32) ⟨t.val, t.isLt⟩ (V c main_v23) := by
  obtain ⟨e0, e1, -⟩ := blockIndex1 t
  funext y
  show V c main_v23 (((cfg1.win 0).blk t).view.emb y) = V c main_v23 _
  refine congrArg (V c main_v23) (funext fun a => Fin.ext ?_)
  match a with
  | ⟨0, _⟩ =>
    show win1_0.index t (0 : Fin 2) * 5000 + 1 * (y 0).val = 5000 * t.val + (y 0).val
    rw [e0]; omega
  | ⟨1, _⟩ =>
    show win1_0.index t (1 : Fin 2) * 128 + 1 * (y 1).val = (y 1).val
    rw [e1]; omega

/-- Operand 1's block is its whole row of 128 at every point. -/
theorem iblk1_1_eq (c : Dev nD) (t : Fin cfg1.N) :
    iblk1 (F := Ideal) V c 1 t = (V c main_v26 : Vec Ideal S128 .f32) := by
  obtain ⟨-, -, e0, -⟩ := blockIndex1 t
  funext y
  show V c main_v26 (((cfg1.win 1).blk t).view.emb y) = V c main_v26 y
  refine congrArg (V c main_v26) (funext fun a => Fin.ext ?_)
  match a with
  | ⟨0, _⟩ =>
    show win1_1.index t (0 : Fin 1) * 128 + 1 * (y 0).val = (y 0).val
    rw [e0]; omega

/-- Operand 2's block is its whole row of 128 at every point. -/
theorem iblk1_2_eq (c : Dev nD) (t : Fin cfg1.N) :
    iblk1 (F := Ideal) V c 2 t = (V c main_v33 : Vec Ideal S128 .f32) := by
  obtain ⟨-, -, -, e0, -⟩ := blockIndex1 t
  funext y
  show V c main_v33 (((cfg1.win 2).blk t).view.emb y) = V c main_v33 y
  refine congrArg (V c main_v33) (funext fun a => Fin.ext ?_)
  match a with
  | ⟨0, _⟩ =>
    show win1_2.index t (0 : Fin 1) * 128 + 1 * (y 0).val = (y 0).val
    rw [e0]; omega

/-- Operand 3's block is its whole row of 128 at every point. -/
theorem iblk1_3_eq (c : Dev nD) (t : Fin cfg1.N) :
    iblk1 (F := Ideal) V c 3 t = (V c main_v35 : Vec Ideal S128 .f32) := by
  obtain ⟨-, -, -, -, e0, -⟩ := blockIndex1 t
  funext y
  show V c main_v35 (((cfg1.win 3).blk t).view.emb y) = V c main_v35 y
  refine congrArg (V c main_v35) (funext fun a => Fin.ext ?_)
  match a with
  | ⟨0, _⟩ =>
    show win1_3.index t (0 : Fin 1) * 128 + 1 * (y 0).val = (y 0).val
    rw [e0]; omega

/-- Operand 4's block is its whole row of 128 at every point. -/
theorem iblk1_4_eq (c : Dev nD) (t : Fin cfg1.N) :
    iblk1 (F := Ideal) V c 4 t = (V c main_v37 : Vec Ideal S128 .f32) := by
  obtain ⟨-, -, -, -, -, e0, -⟩ := blockIndex1 t
  funext y
  show V c main_v37 (((cfg1.win 4).blk t).view.emb y) = V c main_v37 y
  refine congrArg (V c main_v37) (funext fun a => Fin.ext ?_)
  match a with
  | ⟨0, _⟩ =>
    show win1_4.index t (0 : Fin 1) * 128 + 1 * (y 0).val = (y 0).val
    rw [e0]; omega

/-- Rows 5000·t … of a 50000 × 128 array are what the result window's block at point t reads of it. -/
theorem cut_rows1 (t : Fin cfg1.N) (G : Vec Ideal ⟨2, ![50000, 128]⟩ .f32) :
    (cfg1.win 5).cut (grid1.coords t) (Cert.Bridge.rows (e := .f32) ⟨t.val, t.isLt⟩ G)
      = ((cfg1.win 5).blk t).view.read (Elt Ideal) G := by
  obtain ⟨-, -, -, -, -, -, e0, e1⟩ := blockIndex1 t
  funext j
  show Cert.Bridge.rows (e := .f32) ⟨t.val, t.isLt⟩ G ((cfg1.win 5).xinj _ j) = G (((cfg1.win 5).blk t).view.emb j)
  unfold Cert.Bridge.rows
  refine congrArg G (funext fun a => Fin.ext ?_)
  match a with
  | ⟨0, _⟩ =>
    show 5000 * t.val + (j 0).val = win1_5.index t (0 : Fin 2) * 5000 + 1 * (j 0).val
    rw [e0]; omega
  | ⟨1, _⟩ =>
    show (j 1).val = win1_5.index t (1 : Fin 2) * 128 + 1 * (j 1).val
    rw [e1]; omega

/-- What point t writes back is the normalised, clamped array of the operand arrays, read through the result
    window's block at t: the body's arithmetic on rows 5000·t … of operand 0 and the four whole rows of 128 is those
    rows of the normalisation of the whole array. -/
theorem flushed1_eq (c : Dev nD) (t : Fin cfg1.N) :
    (dat1 (F := Ideal) V c).flushed 5 t
      = ((cfg1.win 5).blk t).view.read (Elt Ideal)
          (Cert.Bridge.R.bnRelu (V c main_v23) (V c main_v26) (V c main_v33) (V c main_v35) (V c main_v37)) := by
  show (cfg1.win 5).cut (grid1.coords t) ((dat1 (F := Ideal) V c).after 5 t) = _
  rw [after1_5, out1_5_eq, iblk1_0_eq, iblk1_1_eq, iblk1_2_eq, iblk1_3_eq, iblk1_4_eq, Cert.Bridge.bn_block]
  exact cut_rows1 t _

/-- An index of the result array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Row r of the result array lies in the block of point r / 5000, and every point writes its block back: the ten
    blocks of 5000 rows tile the 50000 rows. -/
theorem cover1 (i : S50000x128.Idx) : ∃ t : Fin cfg1.N, (cfg1.win 5).flush t = true ∧ i ∈ ((cfg1.win 5).blk t).view.set := by
  have hN : grid1.N = 10 := N_1
  have h0 : (i 0).val < 50000 := (i 0).isLt
  have h1 : (i 1).val < 128 := (i 1).isLt
  obtain ⟨t, ht⟩ : ∃ t : Fin cfg1.N, t.val = (i 0).val / 5000 :=
    ⟨⟨(i 0).val / 5000, show (i 0).val / 5000 < grid1.N by rw [hN]; omega⟩, rfl⟩
  obtain ⟨-, -, -, -, -, -, e0, e1⟩ := blockIndex1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- The first normalisation call's result array: every point writes back its 5000 rows of the normalised, clamped
    array, and the ten blocks tile the array, so the array ends holding that function of the five operand arrays whole. -/
theorem final1 (c : Dev nD) : (dat1 (F := Ideal) V c).arrAt 5 cfg1.N
    = Cert.Bridge.R.bnRelu (V c main_v23) (V c main_v26) (V c main_v33) (V c main_v35) (V c main_v37) := by
  exact (dat1 (F := Ideal) V c).arrAt_eq_of_cover 5
    (Cert.Bridge.R.bnRelu (V c main_v23) (V c main_v26) (V c main_v33) (V c main_v35) (V c main_v37))
    (fun t _ => flushed1_eq V c t) cover1

/-! ## The second perceptron call -/

/-- The output buffer after the body is the body's arithmetic on the five input buffers: every load and the one store
    go through a whole buffer. -/
theorem out2_5_eq (x0 : Vec Ideal S5000x128 .f32) (x1 : Vec Ideal S128x128 .f32) (x2 : Vec Ideal S128 .f32)
    (x3 : Vec Ideal S128x128 .f32) (x4 : Vec Ideal S128 .f32) :
    out2_5 (F := Ideal) x0 x1 x2 x3 x4 = k2_pay1 (F := Ideal) x0 x1 x2 x3 x4 := by
  unfold out2_5
  rw [View.canon_unit_zero zeros2]
  simp only [View.ld_unit_zero (S := S5000x128) zeros2, View.ld_unit_zero (S := S128x128) zeros2,
    View.ld_unit_zero (S := S128) zeros1]

/-- The printed block indices over the grid: the row-block windows (operand 0 and the result) sit at block (t, 0), the
    four whole-array windows at block 0 on every axis. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Operand 0's block at point t is rows 5000·t … of its array. -/
theorem iblk2_0_eq (c : Dev nD) (t : Fin cfg2.N) :
    iblk2 (F := Ideal) V c 0 t = Cert.Bridge.rows (e := .f32) ⟨t.val, t.isLt⟩ (V c main_v51) := by
  obtain ⟨e0, e1, -⟩ := blockIndex2 t
  funext y
  show V c main_v51 (((cfg2.win 0).blk t).view.emb y) = V c main_v51 _
  refine congrArg (V c main_v51) (funext fun a => Fin.ext ?_)
  match a with
  | ⟨0, _⟩ =>
    show win2_0.index t (0 : Fin 2) * 5000 + 1 * (y 0).val = 5000 * t.val + (y 0).val
    rw [e0]; omega
  | ⟨1, _⟩ =>
    show win2_0.index t (1 : Fin 2) * 128 + 1 * (y 1).val = (y 1).val
    rw [e1]; omega

/-- Operand 1's block is its whole 128 × 128 array at every point. -/
theorem iblk2_1_eq (c : Dev nD) (t : Fin cfg2.N) :
    iblk2 (F := Ideal) V c 1 t = (V c main_v53 : Vec Ideal S128x128 .f32) := by
  obtain ⟨-, -, e0, e1, -⟩ := blockIndex2 t
  funext y
  show V c main_v53 (((cfg2.win 1).blk t).view.emb y) = V c main_v53 y
  refine congrArg (V c main_v53) (funext fun a => Fin.ext ?_)
  match a with
  | ⟨0, _⟩ =>
    show win2_1.index t (0 : Fin 2) * 128 + 1 * (y 0).val = (y 0).val
    rw [e0]; omega
  | ⟨1, _⟩ =>
    show win2_1.index t (1 : Fin 2) * 128 + 1 * (y 1).val = (y 1).val
    rw [e1]; omega

/-- Operand 2's block is its whole row of 128 at every point. -/
theorem iblk2_2_eq (c : Dev nD) (t : Fin cfg2.N) :
    iblk2 (F := Ideal) V c 2 t = (V c main_v55 : Vec Ideal S128 .f32) := by
  obtain ⟨-, -, -, -, e0, -⟩ := blockIndex2 t
  funext y
  show V c main_v55 (((cfg2.win 2).blk t).view.emb y) = V c main_v55 y
  refine congrArg (V c main_v55) (funext fun a => Fin.ext ?_)
  match a with
  | ⟨0, _⟩ =>
    show win2_2.index t (0 : Fin 1) * 128 + 1 * (y 0).val = (y 0).val
    rw [e0]; omega

/-- Operand 3's block is its whole 128 × 128 array at every point. -/
theorem iblk2_3_eq (c : Dev nD) (t : Fin cfg2.N) :
    iblk2 (F := Ideal) V c 3 t = (V c main_v57 : Vec Ideal S128x128 .f32) := by
  obtain ⟨-, -, -, -, -, e0, e1, -⟩ := blockIndex2 t
  funext y
  show V c main_v57 (((cfg2.win 3).blk t).view.emb y) = V c main_v57 y
  refine congrArg (V c main_v57) (funext fun a => Fin.ext ?_)
  match a with
  | ⟨0, _⟩ =>
    show win2_3.index t (0 : Fin 2) * 128 + 1 * (y 0).val = (y 0).val
    rw [e0]; omega
  | ⟨1, _⟩ =>
    show win2_3.index t (1 : Fin 2) * 128 + 1 * (y 1).val = (y 1).val
    rw [e1]; omega

/-- Operand 4's block is its whole row of 128 at every point. -/
theorem iblk2_4_eq (c : Dev nD) (t : Fin cfg2.N) :
    iblk2 (F := Ideal) V c 4 t = (V c main_v59 : Vec Ideal S128 .f32) := by
  obtain ⟨-, -, -, -, -, -, -, e0, -⟩ := blockIndex2 t
  funext y
  show V c main_v59 (((cfg2.win 4).blk t).view.emb y) = V c main_v59 y
  refine congrArg (V c main_v59) (funext fun a => Fin.ext ?_)
  match a with
  | ⟨0, _⟩ =>
    show win2_4.index t (0 : Fin 1) * 128 + 1 * (y 0).val = (y 0).val
    rw [e0]; omega

/-- Rows 5000·t … of a 50000 × 128 array are what the result window's block at point t reads of it. -/
theorem cut_rows2 (t : Fin cfg2.N) (G : Vec Ideal ⟨2, ![50000, 128]⟩ .f32) :
    (cfg2.win 5).cut (grid2.coords t) (Cert.Bridge.rows (e := .f32) ⟨t.val, t.isLt⟩ G)
      = ((cfg2.win 5).blk t).view.read (Elt Ideal) G := by
  obtain ⟨-, -, -, -, -, -, -, -, e0, e1⟩ := blockIndex2 t
  funext j
  show Cert.Bridge.rows (e := .f32) ⟨t.val, t.isLt⟩ G ((cfg2.win 5).xinj _ j) = G (((cfg2.win 5).blk t).view.emb j)
  unfold Cert.Bridge.rows
  refine congrArg G (funext fun a => Fin.ext ?_)
  match a with
  | ⟨0, _⟩ =>
    show 5000 * t.val + (j 0).val = win2_5.index t (0 : Fin 2) * 5000 + 1 * (j 0).val
    rw [e0]; omega
  | ⟨1, _⟩ =>
    show (j 1).val = win2_5.index t (1 : Fin 2) * 128 + 1 * (j 1).val
    rw [e1]; omega

/-- What point t writes back is the perceptron of the operand arrays, read through the result window's block at t:
    the body's arithmetic on rows 5000·t … of operand 0 and the four whole small operands is those rows of the
    perceptron of the whole arrays. -/
theorem flushed2_eq (c : Dev nD) (t : Fin cfg2.N) :
    (dat2 (F := Ideal) V c).flushed 5 t
      = ((cfg2.win 5).blk t).view.read (Elt Ideal)
          (Cert.Bridge.R.mlp (V c main_v51) (V c main_v53) (V c main_v55) (V c main_v57) (V c main_v59)) := by
  show (cfg2.win 5).cut (grid2.coords t) ((dat2 (F := Ideal) V c).after 5 t) = _
  rw [after2_5, out2_5_eq, iblk2_0_eq, iblk2_1_eq, iblk2_2_eq, iblk2_3_eq, iblk2_4_eq, Cert.Bridge.mlp_block']
  exact cut_rows2 t _

/-- An index of the result array is in point t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v60).slice (win2_5.rect t)).set ↔ _
  rw [View.set_slice_whole, Rect.mem_set_unit]
  exact Iff.rfl

/-- Row r of the result array lies in the block of point r / 5000, and every point writes its block back: the ten
    blocks of 5000 rows tile the 50000 rows. -/
theorem cover2 (i : S50000x128.Idx) : ∃ t : Fin cfg2.N, (cfg2.win 5).flush t = true ∧ i ∈ ((cfg2.win 5).blk t).view.set := by
  have hN : grid2.N = 10 := N_2
  have h0 : (i 0).val < 50000 := (i 0).isLt
  have h1 : (i 1).val < 128 := (i 1).isLt
  obtain ⟨t, ht⟩ : ∃ t : Fin cfg2.N, t.val = (i 0).val / 5000 :=
    ⟨⟨(i 0).val / 5000, show (i 0).val / 5000 < grid2.N by rw [hN]; omega⟩, rfl⟩
  obtain ⟨-, -, -, -, -, -, -, -, e0, e1⟩ := blockIndex2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 128 ≤ (i 1).val ∧ (i 1).val < win2_5.index t (1 : Fin 2) * 128 + 128
    rw [e1]; omega

/-- The second perceptron call's result array: every point writes back its 5000 rows of the perceptron of the five
    operand arrays, and the ten blocks tile the array, so the array ends holding that perceptron whole. -/
theorem final2 (c : Dev nD) : (dat2 (F := Ideal) V c).arrAt 5 cfg2.N
    = Cert.Bridge.R.mlp (V c main_v51) (V c main_v53) (V c main_v55) (V c main_v57) (V c main_v59) := by
  exact (dat2 (F := Ideal) V c).arrAt_eq_of_cover 5
    (Cert.Bridge.R.mlp (V c main_v51) (V c main_v53) (V c main_v55) (V c main_v57) (V c main_v59))
    (fun t _ => flushed2_eq V c t) cover2

/-! ## The second normalisation call -/

/-- The output buffer after the body is the body's arithmetic on the five input buffers: every load and the one store
    go through a whole buffer. -/
theorem out3_5_eq (x0 : Vec Ideal S5000x128 .f32) (x1 x2 x3 x4 : Vec Ideal S128 .f32) :
    out3_5 (F := Ideal) x0 x1 x2 x3 x4 = k3_pay1 (F := Ideal) x0 x1 x2 x3 x4 := by
  unfold out3_5
  rw [View.canon_unit_zero zeros2]
  simp only [View.ld_unit_zero (S := S5000x128) zeros2, View.ld_unit_zero (S := S128) zeros1]

/-- The printed block indices over the grid: the row-block windows (operand 0 and the result) sit at block (t, 0), the
    four whole-row windows at block 0. -/
theorem blockIndex3 : ∀ t : Fin cfg3.N,
    win3_0.index t (0 : Fin 2) = t.val ∧ win3_0.index t (1 : Fin 2) = 0
    ∧ win3_1.index t (0 : Fin 1) = 0
    ∧ win3_2.index t (0 : Fin 1) = 0
    ∧ win3_3.index t (0 : Fin 1) = 0
    ∧ win3_4.index t (0 : Fin 1) = 0
    ∧ win3_5.index t (0 : Fin 2) = t.val ∧ win3_5.index t (1 : Fin 2) = 0 :=
  (by decide +kernel : ∀ t : Fin grid3.N, _)

/-- Operand 0's block at point t is rows 5000·t … of its array. -/
theorem iblk3_0_eq (c : Dev nD) (t : Fin cfg3.N) :
    iblk3 (F := Ideal) V c 0 t = Cert.Bridge.rows (e := .f32) ⟨t.val, t.isLt⟩ (V c main_v60) := by
  obtain ⟨e0, e1, -⟩ := blockIndex3 t
  funext y
  show V c main_v60 (((cfg3.win 0).blk t).view.emb y) = V c main_v60 _
  refine congrArg (V c main_v60) (funext fun a => Fin.ext ?_)
  match a with
  | ⟨0, _⟩ =>
    show win3_0.index t (0 : Fin 2) * 5000 + 1 * (y 0).val = 5000 * t.val + (y 0).val
    rw [e0]; omega
  | ⟨1, _⟩ =>
    show win3_0.index t (1 : Fin 2) * 128 + 1 * (y 1).val = (y 1).val
    rw [e1]; omega

/-- Operand 1's block is its whole row of 128 at every point. -/
theorem iblk3_1_eq (c : Dev nD) (t : Fin cfg3.N) :
    iblk3 (F := Ideal) V c 1 t = (V c main_v63 : Vec Ideal S128 .f32) := by
  obtain ⟨-, -, e0, -⟩ := blockIndex3 t
  funext y
  show V c main_v63 (((cfg3.win 1).blk t).view.emb y) = V c main_v63 y
  refine congrArg (V c main_v63) (funext fun a => Fin.ext ?_)
  match a with
  | ⟨0, _⟩ =>
    show win3_1.index t (0 : Fin 1) * 128 + 1 * (y 0).val = (y 0).val
    rw [e0]; omega

/-- Operand 2's block is its whole row of 128 at every point. -/
theorem iblk3_2_eq (c : Dev nD) (t : Fin cfg3.N) :
    iblk3 (F := Ideal) V c 2 t = (V c main_v70 : Vec Ideal S128 .f32) := by
  obtain ⟨-, -, -, e0, -⟩ := blockIndex3 t
  funext y
  show V c main_v70 (((cfg3.win 2).blk t).view.emb y) = V c main_v70 y
  refine congrArg (V c main_v70) (funext fun a => Fin.ext ?_)
  match a with
  | ⟨0, _⟩ =>
    show win3_2.index t (0 : Fin 1) * 128 + 1 * (y 0).val = (y 0).val
    rw [e0]; omega

/-- Operand 3's block is its whole row of 128 at every point. -/
theorem iblk3_3_eq (c : Dev nD) (t : Fin cfg3.N) :
    iblk3 (F := Ideal) V c 3 t = (V c main_v72 : Vec Ideal S128 .f32) := by
  obtain ⟨-, -, -, -, e0, -⟩ := blockIndex3 t
  funext y
  show V c main_v72 (((cfg3.win 3).blk t).view.emb y) = V c main_v72 y
  refine congrArg (V c main_v72) (funext fun a => Fin.ext ?_)
  match a with
  | ⟨0, _⟩ =>
    show win3_3.index t (0 : Fin 1) * 128 + 1 * (y 0).val = (y 0).val
    rw [e0]; omega

/-- Operand 4's block is its whole row of 128 at every point. -/
theorem iblk3_4_eq (c : Dev nD) (t : Fin cfg3.N) :
    iblk3 (F := Ideal) V c 4 t = (V c main_v74 : Vec Ideal S128 .f32) := by
  obtain ⟨-, -, -, -, -, e0, -⟩ := blockIndex3 t
  funext y
  show V c main_v74 (((cfg3.win 4).blk t).view.emb y) = V c main_v74 y
  refine congrArg (V c main_v74) (funext fun a => Fin.ext ?_)
  match a with
  | ⟨0, _⟩ =>
    show win3_4.index t (0 : Fin 1) * 128 + 1 * (y 0).val = (y 0).val
    rw [e0]; omega

/-- Rows 5000·t … of a 50000 × 128 array are what the result window's block at point t reads of it. -/
theorem cut_rows3 (t : Fin cfg3.N) (G : Vec Ideal ⟨2, ![50000, 128]⟩ .f32) :
    (cfg3.win 5).cut (grid3.coords t) (Cert.Bridge.rows (e := .f32) ⟨t.val, t.isLt⟩ G)
      = ((cfg3.win 5).blk t).view.read (Elt Ideal) G := by
  obtain ⟨-, -, -, -, -, -, e0, e1⟩ := blockIndex3 t
  funext j
  show Cert.Bridge.rows (e := .f32) ⟨t.val, t.isLt⟩ G ((cfg3.win 5).xinj _ j) = G (((cfg3.win 5).blk t).view.emb j)
  unfold Cert.Bridge.rows
  refine congrArg G (funext fun a => Fin.ext ?_)
  match a with
  | ⟨0, _⟩ =>
    show 5000 * t.val + (j 0).val = win3_5.index t (0 : Fin 2) * 5000 + 1 * (j 0).val
    rw [e0]; omega
  | ⟨1, _⟩ =>
    show (j 1).val = win3_5.index t (1 : Fin 2) * 128 + 1 * (j 1).val
    rw [e1]; omega

/-- What point t writes back is the normalised, clamped array of the operand arrays, read through the result
    window's block at t: the body's arithmetic on rows 5000·t … of operand 0 and the four whole rows of 128 is those
    rows of the normalisation of the whole array. -/
theorem flushed3_eq (c : Dev nD) (t : Fin cfg3.N) :
    (dat3 (F := Ideal) V c).flushed 5 t
      = ((cfg3.win 5).blk t).view.read (Elt Ideal)
          (Cert.Bridge.R.bnRelu (V c main_v60) (V c main_v63) (V c main_v70) (V c main_v72) (V c main_v74)) := by
  show (cfg3.win 5).cut (grid3.coords t) ((dat3 (F := Ideal) V c).after 5 t) = _
  rw [after3_5, out3_5_eq, iblk3_0_eq, iblk3_1_eq, iblk3_2_eq, iblk3_3_eq, iblk3_4_eq, Cert.Bridge.bn_block']
  exact cut_rows3 t _

/-- An index of the result array is in point t's block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v75).slice (win3_5.rect t)).set ↔ _
  rw [View.set_slice_whole, Rect.mem_set_unit]
  exact Iff.rfl

/-- Row r of the result array lies in the block of point r / 5000, and every point writes its block back: the ten
    blocks of 5000 rows tile the 50000 rows. -/
theorem cover3 (i : S50000x128.Idx) : ∃ t : Fin cfg3.N, (cfg3.win 5).flush t = true ∧ i ∈ ((cfg3.win 5).blk t).view.set := by
  have hN : grid3.N = 10 := N_3
  have h0 : (i 0).val < 50000 := (i 0).isLt
  have h1 : (i 1).val < 128 := (i 1).isLt
  obtain ⟨t, ht⟩ : ∃ t : Fin cfg3.N, t.val = (i 0).val / 5000 :=
    ⟨⟨(i 0).val / 5000, show (i 0).val / 5000 < grid3.N by rw [hN]; omega⟩, rfl⟩
  obtain ⟨-, -, -, -, -, -, e0, e1⟩ := blockIndex3 t
  refine ⟨t, flush3_5 t, ?_⟩
  rw [mem_blk3]
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 128 ≤ (i 1).val ∧ (i 1).val < win3_5.index t (1 : Fin 2) * 128 + 128
    rw [e1]; omega

/-- The second normalisation call's result array: every point writes back its 5000 rows of the normalised, clamped
    array, and the ten blocks tile the array, so the array ends holding that function of the five operand arrays whole. -/
theorem final3 (c : Dev nD) : (dat3 (F := Ideal) V c).arrAt 5 cfg3.N
    = Cert.Bridge.R.bnRelu (V c main_v60) (V c main_v63) (V c main_v70) (V c main_v72) (V c main_v74) := by
  exact (dat3 (F := Ideal) V c).arrAt_eq_of_cover 5
    (Cert.Bridge.R.bnRelu (V c main_v60) (V c main_v63) (V c main_v70) (V c main_v72) (V c main_v74))
    (fun t _ => flushed3_eq V c t) cover3

end Cert.KernelIdeal.Hand

end
-- ==== Proof.BridgePool.lean ====
/-
  The pooling.  The kernel adds, block of 5000 rows by block, the product of the transposed one-hot matrix of the
  graph ids (entry (i, g) is 1 where id i = g, else 0) with the weighted rows w i · h[i]; the reference adds each
  weighted row into the row its id names, dropping an id outside 0 … 511.  Both are, at (g, d), the sum over the nodes i
  with id i = g of w i · h[i, d]: 0 · x = 0 and 1 · x = x for every extended real x, and sums of extended reals may be
  regrouped, so nothing about finiteness is used.
-/
import proofs.«408064_j47811575939605_1_alg».proof.Proof.Iface
import Idealize.ShloMosaic.PureOps.Ideal.Laws
import Idealize.ShloMosaic.Lib.Pipeline.Value
import Idealize.ShloMosaic.Lib.ValueLayout

noncomputable section

namespace Cert.Bridge

open Idealize.ShloMosaic Idealize.ShloMosaic.ValueIdx

/-! ## The kernel's step at an entry -/

section Kernel
open Cert.KernelIdeal Cert.KernelIdeal.Gen

/-- A column of 5000 broadcast over n columns reads, at (i, c), the column's entry i. -/
theorem broadcastTo_col_apply {α : Type} {n : ℕ} (v : (⟨2, ![5000, 1]⟩ : Shape).Idx → α)
    (h : (⟨2, ![5000, 1]⟩ : Shape).Broadcasts ⟨2, ![5000, n]⟩) (i : Fin 5000) (c : Fin n) :
    broadcastTo ⟨2, ![5000, n]⟩ v h (ix2 i c) = v (ix2 i (0 : Fin 1)) := by
  refine broadcastTo_apply v h (ix2 i c) (ix2 i (0 : Fin 1)) fun ax => ?_
  match ax with
  | ⟨0, _⟩ =>
    show i.val = if (5000 : ℕ) = 1 then 0 else i.val
    rw [if_neg (by decide)]
  | ⟨1, _⟩ =>
    show (0 : ℕ) = if (1 : ℕ) = 1 then 0 else c.val
    rw [if_pos rfl]

/-- The bit of an equality test, widened to 32 bits and read as a signed integer, is 1 or 0. -/
theorem toInt_bit_eq (x y : BitVec 32) :
    (((IntOp.cmpi .eq x y).setWidth 32).toInt : ℝ) = if x = y then 1 else 0 := by
  by_cases h : x = y
  · subst h
    rw [if_pos rfl]
    have : IntOp.cmpi .eq x x = 1#1 := by simp [IntOp.cmpi]
    rw [this]
    norm_num
  · rw [if_neg h]
    have hb : (x == y) = false := beq_eq_false_iff_ne.mpr h
    have : IntOp.cmpi .eq x y = 0#1 := by
      show BitVec.ofBool (x == y) = 0#1
      rw [hb]; rfl
    rw [this]
    norm_num

/-- The one-hot entry (i, g): 1 where the id word of row i is the word g, else 0. -/
theorem onehot_apply (gb : IVec S5000x1 32) (i : Fin 5000) (g : Fin 512) :
    (sitofp .f32 (extui 32 (cmpi .eq (broadcastTo S5000x512 (shapeCast S5000x1 gb shapeCasts_S5000x1_S5000x1) broadcasts_S5000x1_S5000x512)
        (iota .tc S5000x512 32 [1] iota_S5000x512_d1_w32)) natLt_1_32) : FVec Ideal S5000x512 .f32) (ix2 i g)
      = if gb (ix2 i (0 : Fin 1)) = BitVec.ofNat 32 g.val then 1 else 0 := by
  rw [sitofp_apply, extui_apply]
  show (((IntOp.cmpi .eq (broadcastTo S5000x512 (shapeCast S5000x1 gb shapeCasts_S5000x1_S5000x1) broadcasts_S5000x1_S5000x512 (ix2 i g))
      (iota .tc S5000x512 32 [1] iota_S5000x512_d1_w32 (ix2 i g))).setWidth 32).toInt : ℝ) = (_ : EReal)
  rw [iota_single_apply, shapeCast_self, broadcastTo_col_apply, toInt_bit_eq]
  show ((if gb (ix2 i (0 : Fin 1)) = BitVec.ofNat 32 g.val then (1 : ℝ) else 0 : ℝ) : EReal) = _
  split_ifs <;> simp

/-- The weighted row entry (i, d): w i · h[i, d]. -/
theorem weighted_apply (hb : FVec Ideal S5000x128 .f32) (wb : FVec Ideal S5000x1 .f32) (i : Fin 5000) (d : Fin 128) :
    (mulf (broadcastTo S5000x128 (shapeCast S5000x1 wb shapeCasts_S5000x1_S5000x1) broadcasts_S5000x1_S5000x128)
      (shapeCast S5000x128 hb shapeCasts_S5000x128_S5000x128)) (ix2 i d) = wb (ix2 i (0 : Fin 1)) * hb (ix2 i d) := by
  rw [mulf_apply, shapeCast_self, shapeCast_self, broadcastTo_col_apply]

/-- The product's left operand is read at (contraction coordinate, row of the result) … -/
theorem lhs_pool_0 (j : S512x128.Idx) (q : dot_S5000x512_S5000x128_S512x128_0_0_1_1_n_n.contr.Idx) :
    (dot_S5000x512_S5000x128_S512x128_0_0_1_1_n_n.lhsIdx j q 0).val = (q ⟨0, by decide⟩).val :=
  dot_S5000x512_S5000x128_S512x128_0_0_1_1_n_n.lhsIdx_val_of_single rfl j q
theorem lhs_pool_1 (j : S512x128.Idx) (q : dot_S5000x512_S5000x128_S512x128_0_0_1_1_n_n.contr.Idx) :
    (dot_S5000x512_S5000x128_S512x128_0_0_1_1_n_n.lhsIdx j q 1).val = (j 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
/-- … and its right operand at (contraction coordinate, column of the result). -/
theorem rhs_pool_0 (j : S512x128.Idx) (q : dot_S5000x512_S5000x128_S512x128_0_0_1_1_n_n.contr.Idx) :
    (dot_S5000x512_S5000x128_S512x128_0_0_1_1_n_n.rhsIdx j q 0).val = (q ⟨0, by decide⟩).val :=
  dot_S5000x512_S5000x128_S512x128_0_0_1_1_n_n.rhsIdx_val_of_single rfl j q
theorem rhs_pool_1 (j : S512x128.Idx) (q : dot_S5000x512_S5000x128_S512x128_0_0_1_1_n_n.contr.Idx) :
    (dot_S5000x512_S5000x128_S512x128_0_0_1_1_n_n.rhsIdx j q 1).val = (j 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- The product that contracts the 5000 rows of both operands, read at (g, d): ∑ over rows i of L (i, g) · R (i, d). -/
theorem matmul_pool_apply (L : FVec Ideal S5000x512 .bf16) (R : FVec Ideal S5000x128 .bf16) (g : Fin 512) (d : Fin 128) :
    matmul dot_S5000x512_S5000x128_S512x128_0_0_1_1_n_n none L R (constant S512x128 .f32 0x00000000#32) (ix2 g d)
      = ∑ i : Fin 5000, L (ix2 i g) * R (ix2 i d) := by
  simp only [matmul]
  rw [Ideal.matmul_constant_zero_apply, ← Equiv.sum_comp (contrEquiv1 dot_S5000x512_S5000x128_S512x128_0_0_1_1_n_n 5000 rfl rfl).symm]
  refine Finset.sum_congr rfl fun k _ => ?_
  have hk := contrEquiv1_symm_val dot_S5000x512_S5000x128_S512x128_0_0_1_1_n_n 5000 rfl rfl k
  have el : dot_S5000x512_S5000x128_S512x128_0_0_1_1_n_n.lhsIdx (ix2 g d) ((contrEquiv1 dot_S5000x512_S5000x128_S512x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x512_S5000x128_S512x128_0_0_1_1_n_n.rhsIdx (ix2 g d) ((contrEquiv1 dot_S5000x512_S5000x128_S512x128_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

/-- One block's step at (g, d): the running sum plus the block's rows whose id word is g, each w i · h[i, d]. -/
theorem step_apply (hb : FVec Ideal S5000x128 .f32) (wb : FVec Ideal S5000x1 .f32) (gb : IVec S5000x1 32)
    (acc : FVec Ideal S512x128 .f32) (g : Fin 512) (d : Fin 128) :
    k4_pay2 (F := Ideal) hb wb gb acc (ix2 g d)
      = acc (ix2 g d) + ∑ i : Fin 5000, (if gb (ix2 i (0 : Fin 1)) = BitVec.ofNat 32 g.val then wb (ix2 i (0 : Fin 1)) * hb (ix2 i d) else 0) := by
  unfold k4_pay2
  simp only []
  rw [shapeCast_self, addf_apply, matmul_pool_apply]
  congr 1
  refine Finset.sum_congr rfl fun i _ => ?_
  rw [truncf_apply, truncf_apply, onehot_apply, weighted_apply]
  split_ifs
  · rw [one_mul]
  · rw [zero_mul]

end Kernel

/-! ## The reference's pooling at an entry -/

section Reference
open Cert.ReferenceIdeal Cert.ReferenceIdeal.Gen

/-- A 32-bit word read as a signed integer is g, for g below 512, exactly when it is the word g. -/
theorem toInt_eq_iff_eq_ofNat (x : BitVec 32) (g : ℕ) (hg : g < 512) : x.toInt = (g : ℤ) ↔ x = BitVec.ofNat 32 g := by
  rw [← BitVec.toNat_inj, BitVec.toNat_ofNat, BitVec.toInt_eq_toNat_cond, Nat.mod_eq_of_lt (by omega)]
  have := x.isLt
  split_ifs <;> omega

/-- The window of update (i, c) starts, on the pooled array's row axis, at the id of node i read signed … -/
theorem pool_start_0 (gid : IVec S50000x1 32) (i : Fin 50000) (c : Fin 128) :
    scatter_S512x128_S50000x1_S50000x128_1_0_0_1.start (ix2 i c) gid (0 : Fin S512x128.rank) = (gid (ix2 i (0 : Fin 1))).toInt := by
  unfold ScatterDims.start
  rw [dif_pos (show (0 : Fin S512x128.rank) ∈ scatter_S512x128_S50000x1_S50000x128_1_0_0_1.scatterDimsToOperandDims by decide)]
  refine congrArg (fun k => (gid k).toInt) (funext fun b => Fin.ext ?_)
  match b with
  | ⟨0, _⟩ => rfl
  | ⟨1, _⟩ => rfl
/-- … and at 0 on its column axis; -/
theorem pool_start_1 (gid : IVec S50000x1 32) (j : S50000x128.Idx) :
    scatter_S512x128_S50000x1_S50000x128_1_0_0_1.start j gid (1 : Fin S512x128.rank) = 0 := by
  unfold ScatterDims.start
  rw [dif_neg (show ¬(1 : Fin S512x128.rank) ∈ scatter_S512x128_S50000x1_S50000x128_1_0_0_1.scatterDimsToOperandDims by decide)]
/-- the window coordinate is 0 on the row axis and the update's column on the column axis. -/
theorem pool_window_0 (j : S50000x128.Idx) :
    scatter_S512x128_S50000x1_S50000x128_1_0_0_1.window j (0 : Fin S512x128.rank) = 0 := by
  unfold ScatterDims.window
  rw [dif_neg (show ¬(0 : Fin S512x128.rank) ∈ scatter_S512x128_S50000x1_S50000x128_1_0_0_1.sKept by decide)]
theorem pool_window_1 (i : Fin 50000) (c : Fin 128) :
    scatter_S512x128_S50000x1_S50000x128_1_0_0_1.window (ix2 i c) (1 : Fin S512x128.rank) = c.val := by
  unfold ScatterDims.window
  rw [dif_pos (show (1 : Fin S512x128.rank) ∈ scatter_S512x128_S50000x1_S50000x128_1_0_0_1.sKept by decide)]
  rfl

/-- Update (i, c) lands on entry (g, d) exactly when node i's id, read signed, is g and c = d. -/
theorem pool_lands_iff (gid : IVec S50000x1 32) (i : Fin 50000) (c : Fin 128) (g : Fin 512) (d : Fin 128) :
    scatter_S512x128_S50000x1_S50000x128_1_0_0_1.resultIdx? (ix2 i c) gid = some (ix2 g d)
      ↔ (gid (ix2 i (0 : Fin 1))).toInt = (g.val : ℤ) ∧ c = d := by
  have hg := g.isLt
  have hc := c.isLt
  unfold ScatterDims.resultIdx?
  split
  · rename_i h
    rw [Option.some.injEq]
    constructor
    · intro e
      have e0 : (scatter_S512x128_S50000x1_S50000x128_1_0_0_1.start (ix2 i c) gid (0 : Fin S512x128.rank)
          + scatter_S512x128_S50000x1_S50000x128_1_0_0_1.window (ix2 i c) (0 : Fin S512x128.rank)).toNat = g.val :=
        congrArg (fun f : S512x128.Idx => (f 0).val) e
      have e1 : (scatter_S512x128_S50000x1_S50000x128_1_0_0_1.start (ix2 i c) gid (1 : Fin S512x128.rank)
          + scatter_S512x128_S50000x1_S50000x128_1_0_0_1.window (ix2 i c) (1 : Fin S512x128.rank)).toNat = d.val :=
        congrArg (fun f : S512x128.Idx => (f 1).val) e
      have h0 := (h 0).1
      rw [pool_start_0, pool_window_0] at e0 h0
      rw [pool_start_1, pool_window_1] at e1
      exact ⟨by omega, Fin.ext (by omega)⟩
    · rintro ⟨e0, rfl⟩
      funext ax
      refine Fin.ext ?_
      match ax with
      | ⟨0, _⟩ =>
        show (scatter_S512x128_S50000x1_S50000x128_1_0_0_1.start (ix2 i c) gid (0 : Fin S512x128.rank)
          + scatter_S512x128_S50000x1_S50000x128_1_0_0_1.window (ix2 i c) (0 : Fin S512x128.rank)).toNat = g.val
        rw [pool_start_0, pool_window_0]; omega
      | ⟨1, _⟩ =>
        show (scatter_S512x128_S50000x1_S50000x128_1_0_0_1.start (ix2 i c) gid (1 : Fin S512x128.rank)
          + scatter_S512x128_S50000x1_S50000x128_1_0_0_1.window (ix2 i c) (1 : Fin S512x128.rank)).toNat = c.val
        rw [pool_start_1, pool_window_1]; omega
  · rename_i h
    refine iff_of_false (fun e => Option.some_ne_none _ e.symm) ?_
    rintro ⟨e0, rfl⟩
    refine h fun ax => ?_
    match ax with
    | ⟨0, _⟩ =>
      show 0 ≤ scatter_S512x128_S50000x1_S50000x128_1_0_0_1.start (ix2 i c) gid (0 : Fin S512x128.rank)
          + scatter_S512x128_S50000x1_S50000x128_1_0_0_1.window (ix2 i c) (0 : Fin S512x128.rank)
        ∧ scatter_S512x128_S50000x1_S50000x128_1_0_0_1.start (ix2 i c) gid (0 : Fin S512x128.rank)
          + scatter_S512x128_S50000x1_S50000x128_1_0_0_1.window (ix2 i c) (0 : Fin S512x128.rank) < (512 : ℕ)
      rw [pool_start_0, pool_window_0]; omega
    | ⟨1, _⟩ =>
      show 0 ≤ scatter_S512x128_S50000x1_S50000x128_1_0_0_1.start (ix2 i c) gid (1 : Fin S512x128.rank)
          + scatter_S512x128_S50000x1_S50000x128_1_0_0_1.window (ix2 i c) (1 : Fin S512x128.rank)
        ∧ scatter_S512x128_S50000x1_S50000x128_1_0_0_1.start (ix2 i c) gid (1 : Fin S512x128.rank)
          + scatter_S512x128_S50000x1_S50000x128_1_0_0_1.window (ix2 i c) (1 : Fin S512x128.rank) < (128 : ℕ)
      rw [pool_start_1, pool_window_1]; omega

/-- The weight column laid over 128 columns reads, at (i, d), the weight of node i. -/
theorem weightRows_apply (w : FVec Ideal S50000x1 .f32) (i : Fin 50000) (d : Fin 128) :
    broadcastInDim S50000x128 ![0, 1] bcast_S50000x1_S50000x128_0_1 w (ix2 i d) = w (ix2 i (0 : Fin 1)) := by
  refine broadcastInDim_apply _ bcast_S50000x1_S50000x128_0_1 w (ix2 i d) (ix2 i (0 : Fin 1)) fun ax => ?_
  match ax with
  | ⟨0, _⟩ =>
    show i.val = if (50000 : ℕ) = 1 then 0 else i.val
    rw [if_neg (by decide)]
  | ⟨1, _⟩ =>
    show (0 : ℕ) = if (1 : ℕ) = 1 then 0 else d.val
    rw [if_pos rfl]

/-- The pooled array's starting value is 0 at every entry. -/
theorem poolInit_apply (j : S512x128.Idx) :
    broadcastInDim S512x128 ![] bcast_S_S512x128 (constant (F := Ideal) S_ .f32 0x00000000#32) j = 0 := by
  rw [broadcastInDim_apply _ bcast_S_S512x128 (constant (F := Ideal) S_ .f32 0x00000000#32) j ix0 (fun ax => ax.elim0),
    constant_apply, Ideal.ofBits_zero_f32]

/-- The reference's pooled array at (g, d): the sum over the nodes whose id word is g of w i · h[i, d]. -/
theorem pool_apply (h : FVec Ideal S50000x128 .f32) (w : FVec Ideal S50000x1 .f32) (gid : IVec S50000x1 32)
    (g : Fin 512) (d : Fin 128) :
    R.pool h w gid (ix2 g d)
      = ∑ i : Fin 50000, (if gid (ix2 i (0 : Fin 1)) = BitVec.ofNat 32 g.val then w (ix2 i (0 : Fin 1)) * h (ix2 i d) else 0) := by
  unfold R.pool Host.scatterAdd
  rw [Ideal.hostScatterAdd_def]
  unfold Ideal.hostScatterAdd
  rw [poolInit_apply, zero_add, Finset.sum_filter, sum_idx2]
  refine Finset.sum_congr rfl fun i _ => ?_
  simp only [pool_lands_iff, toInt_eq_iff_eq_ofNat _ _ g.isLt]
  by_cases hi : gid (ix2 i (0 : Fin 1)) = BitVec.ofNat 32 g.val
  · simp only [hi, true_and, if_true]
    rw [Finset.sum_ite_eq' Finset.univ d, if_pos (Finset.mem_univ d), mulf_apply, weightRows_apply]
  · simp only [hi, false_and, if_false, Finset.sum_const_zero]

end Reference

/-! ## Block by block, then all 50000 rows -/

/-- Node r's contribution to entry (g, d): w r · h[r, d] where the id word of r is g, else 0; 0 past the last row. -/
def rowTerm (h : FVec Ideal ⟨2, ![50000, 128]⟩ .f32) (w : FVec Ideal ⟨2, ![50000, 1]⟩ .f32) (gid : IVec ⟨2, ![50000, 1]⟩ 32)
    (g : Fin 512) (d : Fin 128) (r : ℕ) : EReal :=
  if hr : r < 50000 then
    (if gid (ix2 (⟨r, hr⟩ : Fin 50000) (0 : Fin 1)) = BitVec.ofNat 32 g.val
      then w (ix2 (⟨r, hr⟩ : Fin 50000) (0 : Fin 1)) * h (ix2 (⟨r, hr⟩ : Fin 50000) d) else 0)
  else 0

/-- The rows of block t that carry the id g, summed: the terms of rows 5000·t … 5000·t + 4999. -/
theorem block_sum (h : FVec Ideal ⟨2, ![50000, 128]⟩ .f32) (w : FVec Ideal ⟨2, ![50000, 1]⟩ .f32) (gid : IVec ⟨2, ![50000, 1]⟩ 32)
    (g : Fin 512) (d : Fin 128) (t : Fin 10) :
    (∑ i : Fin 5000, (if rows (e := .i32) t gid (ix2 i (0 : Fin 1)) = BitVec.ofNat 32 g.val
        then rows (e := .f32) t w (ix2 i (0 : Fin 1)) * rows (e := .f32) t h (ix2 i d) else 0))
      = ∑ i ∈ Finset.range 5000, rowTerm h w gid g d (5000 * t.val + i) := by
  rw [← Fin.sum_univ_eq_sum_range (fun i => rowTerm h w gid g d (5000 * t.val + i)) 5000]
  refine Finset.sum_congr rfl fun i _ => ?_
  have hr : 5000 * t.val + i.val < 50000 := by have := t.isLt; have := i.isLt; omega
  unfold rowTerm
  rw [dif_pos hr]
  rfl

/-- All 50000 terms, summed over the nodes. -/
theorem sum_rowTerm (h : FVec Ideal ⟨2, ![50000, 128]⟩ .f32) (w : FVec Ideal ⟨2, ![50000, 1]⟩ .f32) (gid : IVec ⟨2, ![50000, 1]⟩ 32)
    (g : Fin 512) (d : Fin 128) :
    ∑ r ∈ Finset.range 50000, rowTerm h w gid g d r
      = ∑ i : Fin 50000, (if gid (ix2 i (0 : Fin 1)) = BitVec.ofNat 32 g.val then w (ix2 i (0 : Fin 1)) * h (ix2 i d) else 0) := by
  rw [← Fin.sum_univ_eq_sum_range (fun r => rowTerm h w gid g d r) 50000]
  refine Finset.sum_congr rfl fun i _ => ?_
  unfold rowTerm
  rw [dif_pos i.isLt]

section Kernel
open Cert.KernelIdeal Cert.KernelIdeal.Gen

/-- The running sums start at 0. -/
theorem poolZero_apply (j : S512x128.Idx) : k4_pay1 (F := Ideal) j = 0 := by
  unfold k4_pay1
  rw [shapeCast_self, broadcast_apply]
  exact Ideal.ofBits_zero_f32

/-- After the blocks 0 … n the running sum at (g, d) is the sum of the first 5000·(n + 1) rows' terms. -/
theorem poolAcc_apply (h : FVec Ideal ⟨2, ![50000, 128]⟩ .f32) (w : FVec Ideal ⟨2, ![50000, 1]⟩ .f32) (gid : IVec ⟨2, ![50000, 1]⟩ 32)
    (g : Fin 512) (d : Fin 128) : ∀ (n : ℕ) (hn : n < 10),
    K.poolAcc h w gid n hn (ix2 g d) = ∑ r ∈ Finset.range (5000 * (n + 1)), rowTerm h w gid g d r
  | 0, hn => by
    rw [K.poolAcc, step_apply, poolZero_apply, zero_add, block_sum]
    refine Finset.sum_congr rfl fun i _ => ?_
    show rowTerm h w gid g d (5000 * 0 + i) = _
    rw [Nat.mul_zero, Nat.zero_add]
  | n + 1, hn => by
    rw [K.poolAcc, step_apply, poolAcc_apply h w gid g d n (Nat.lt_of_succ_lt hn), block_sum,
      show 5000 * (n + 1 + 1) = 5000 * (n + 1) + 5000 from by ring, Finset.sum_range_add]

end Kernel

/-- After the tenth block the kernel's running sums are the reference's pooled array. -/
theorem pool_last (h : FVec Ideal ⟨2, ![50000, 128]⟩ .f32) (w : FVec Ideal ⟨2, ![50000, 1]⟩ .f32) (gid : IVec ⟨2, ![50000, 1]⟩ 32) :
    K.poolAcc h w gid 9 (by decide) = R.pool h w gid := by
  funext j
  obtain ⟨g, d, rfl⟩ : ∃ (g : Fin 512) (d : Fin 128), j = ix2 g d := ⟨j 0, j 1, eq_ix2 j⟩
  rw [poolAcc_apply, pool_apply, ← sum_rowTerm]

end Cert.Bridge

end
-- ==== Proof.ValPool.lean ====
/-
  What the pooling call leaves in its result array.  The output window is the whole 512 × 128 array and is written back
  once, after the last grid point, from a buffer that then holds the running sums over all ten blocks of rows: the
  kernel's step folded over the blocks, which is the reference's pooled array.
-/
import proofs.«408064_j47811575939605_1_alg».proof.Proof.FrameR4
import proofs.«408064_j47811575939605_1_alg».proof.Proof.BridgePool
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

-- the buffers' contents when the call is entered, at the ideal values
variable (V : (c : Dev nD) → (b : Ref sig .tc) → Buf (Elt Ideal) ((c : Thread nD τ).loc b))

/-! ## The input blocks are rows of the operand arrays -/

/-- The printed index maps over the grid: each input's block index at point t is (t, 0), the output's is (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0 :=
  (by decide +kernel : ∀ t : Fin grid4.N, _)

/-- A block of 5000 rows that reads the array at row 5000·t + (row inside the block), same column, is the array's rows of block t. -/
theorem eq_rows_of_emb {n : ℕ} {e : EltTy} (X : Vec Ideal ⟨2, ![50000, n]⟩ e) (t : Fin 10) (B : Vec Ideal ⟨2, ![5000, n]⟩ e)
    (emb : (⟨2, ![5000, n]⟩ : Shape).Idx → (⟨2, ![50000, n]⟩ : Shape).Idx) (hB : ∀ y, B y = X (emb y))
    (h0 : ∀ y, (emb y 0).val = 5000 * t.val + (y 0).val) (h1 : ∀ y, (emb y 1).val = (y 1).val) :
    B = Cert.Bridge.rows t X := by
  funext y
  rw [hB y]
  unfold Cert.Bridge.rows
  refine congrArg X (funext fun a => Fin.ext ?_)
  match a with
  | ⟨0, _⟩ => exact h0 y
  | ⟨1, _⟩ => exact h1 y

theorem iblk4_0_eq (c : Dev nD) (t : Fin cfg4.N) :
    iblk4 (F := Ideal) V c 0 t = Cert.Bridge.rows (e := .f32) ⟨t.val, t.isLt⟩ (V c main_v75) := by
  obtain ⟨e0, e1, -⟩ := idx_facts4 t
  refine eq_rows_of_emb (V c main_v75) ⟨t.val, t.isLt⟩ (iblk4 (F := Ideal) V c 0 t) ((cfg4.win 0).blk t).view.emb (fun y => rfl) (fun y => ?_) (fun y => ?_)
  · show win4_0.index t (0 : Fin 2) * 5000 + 1 * (y 0).val = 5000 * t.val + (y 0).val
    rw [e0]; omega
  · show win4_0.index t (1 : Fin 2) * 128 + 1 * (y 1).val = (y 1).val
    rw [e1]; omega

theorem iblk4_1_eq (c : Dev nD) (t : Fin cfg4.N) :
    iblk4 (F := Ideal) V c 1 t = Cert.Bridge.rows (e := .f32) ⟨t.val, t.isLt⟩ (V c main_v0) := by
  obtain ⟨-, -, e0, e1, -⟩ := idx_facts4 t
  refine eq_rows_of_emb (V c main_v0) ⟨t.val, t.isLt⟩ (iblk4 (F := Ideal) V c 1 t) ((cfg4.win 1).blk t).view.emb (fun y => rfl) (fun y => ?_) (fun y => ?_)
  · show win4_1.index t (0 : Fin 2) * 5000 + 1 * (y 0).val = 5000 * t.val + (y 0).val
    rw [e0]; omega
  · show win4_1.index t (1 : Fin 2) * 1 + 1 * (y 1).val = (y 1).val
    rw [e1]; omega

theorem iblk4_2_eq (c : Dev nD) (t : Fin cfg4.N) :
    iblk4 (F := Ideal) V c 2 t = Cert.Bridge.rows (e := .i32) ⟨t.val, t.isLt⟩ (V c main_v1) := by
  obtain ⟨-, -, -, -, e0, e1, -⟩ := idx_facts4 t
  refine eq_rows_of_emb (V c main_v1) ⟨t.val, t.isLt⟩ (iblk4 (F := Ideal) V c 2 t) ((cfg4.win 2).blk t).view.emb (fun y => rfl) (fun y => ?_) (fun y => ?_)
  · show win4_2.index t (0 : Fin 2) * 5000 + 1 * (y 0).val = 5000 * t.val + (y 0).val
    rw [e0]; omega
  · show win4_2.index t (1 : Fin 2) * 1 + 1 * (y 1).val = (y 1).val
    rw [e1]; omega

/-! ## The scratch and the output buffer after each point -/

/-- The running sums after the first block: the kernel's step on block 0 over the zero array. -/
theorem poolAcc_first (h : Vec Ideal S50000x128 .f32) (w : Vec Ideal S50000x1 .f32) (gid : Vec Ideal S50000x1 .i32) (hn : 0 < 10) :
    Cert.Bridge.K.poolAcc h w gid 0 hn
      = k4_pay2 (F := Ideal) (Cert.Bridge.rows ⟨0, hn⟩ h) (Cert.Bridge.rows ⟨0, hn⟩ w) (Cert.Bridge.rows ⟨0, hn⟩ gid) (k4_pay1 (F := Ideal)) := by
  rw [Cert.Bridge.K.poolAcc]
/-- The running sums after block n + 1: the kernel's step on that block over the sums after block n. -/
theorem poolAcc_next (h : Vec Ideal S50000x128 .f32) (w : Vec Ideal S50000x1 .f32) (gid : Vec Ideal S50000x1 .i32) (n : ℕ) (hn : n + 1 < 10) :
    Cert.Bridge.K.poolAcc h w gid (n + 1) hn
      = k4_pay2 (F := Ideal) (Cert.Bridge.rows ⟨n + 1, hn⟩ h) (Cert.Bridge.rows ⟨n + 1, hn⟩ w) (Cert.Bridge.rows ⟨n + 1, hn⟩ gid)
          (Cert.Bridge.K.poolAcc h w gid n (Nat.lt_of_succ_lt hn)) := by
  rw [Cert.Bridge.K.poolAcc]

/-- After point n the scratch holds the kernel's step folded over the blocks 0 … n. -/
theorem accAt4_snd (c : Dev nD) : ∀ (n : ℕ) (hn : n < cfg4.N),
    (accAt4 (F := Ideal) V c n hn).2 = Cert.Bridge.K.poolAcc (V c main_v75) (V c main_v0) (V c main_v1) n hn
  | 0, hn => by
    rw [accAt4]
    dsimp only
    rw [scA4_eq, iblk4_0_eq, iblk4_1_eq, iblk4_2_eq]
    exact (poolAcc_first _ _ _ hn).symm
  | n + 1, hn => by
    rw [accAt4]
    dsimp only
    rw [scB4_eq, accAt4_snd c n (Nat.lt_of_succ_lt hn), iblk4_0_eq, iblk4_1_eq, iblk4_2_eq]
    exact (poolAcc_next _ _ _ n hn).symm

/-- The output buffer holds what the scratch holds. -/
theorem accAt4_fst (c : Dev nD) (n : ℕ) (hn : n < cfg4.N) :
    (accAt4 (F := Ideal) V c n hn).1 = (accAt4 (F := Ideal) V c n hn).2 := by
  cases n with
  | zero => rw [accAt4]; dsimp only; exact outA4_eq _ _ _
  | succ n => rw [accAt4]; dsimp only; exact outB4_eq _ _ _ _

/-! ## The one write-back, and the array it fills -/

/-- What the last point writes back is the reference's pooled array, read through the window's one block. -/
theorem flushed4_eq (c : Dev nD) (t : Fin cfg4.N) (hf : (cfg4.win 3).flush t = true) :
    (dat4 (F := Ideal) V c).flushed 3 t
      = ((cfg4.win 3).blk t).view.read (Elt Ideal) (Cert.Bridge.R.pool (V c main_v75) (V c main_v0) (V c main_v1)) := by
  have hN : grid4.N = 10 := N_4
  have h9 : t = ⟨9, by decide⟩ := Fin.ext (by
    have h := (flush4_3 t).mp hf
    have hlt : t.val < 10 := hN ▸ t.isLt
    show t.val = 9
    omega)
  subst h9
  obtain ⟨-, -, -, -, -, -, e0, e1⟩ := idx_facts4 (⟨9, by decide⟩ : Fin cfg4.N)
  show (cfg4.win 3).cut (grid4.coords _) ((dat4 (F := Ideal) V c).after 3 _) = _
  rw [after4_3, accAt4_fst, accAt4_snd]
  show (cfg4.win 3).cut (grid4.coords _) (Cert.Bridge.K.poolAcc (V c main_v75) (V c main_v0) (V c main_v1) 9 (by decide)) = _
  rw [Cert.Bridge.pool_last]
  funext j
  show Cert.Bridge.R.pool (V c main_v75) (V c main_v0) (V c main_v1) ((cfg4.win 3).xinj _ j)
    = Cert.Bridge.R.pool (V c main_v75) (V c main_v0) (V c main_v1) (((cfg4.win 3).blk _).view.emb j)
  refine congrArg _ (funext fun a => Fin.ext ?_)
  match a with
  | ⟨0, _⟩ =>
    show (j 0).val = win4_3.index _ (0 : Fin 2) * 512 + 1 * (j 0).val
    rw [e0]; omega
  | ⟨1, _⟩ =>
    show (j 1).val = win4_3.index _ (1 : Fin 2) * 128 + 1 * (j 1).val
    rw [e1]; omega

/-- An index of the array is in point t's block iff each coordinate is in the block's range on its axis. -/
theorem mem_blk4 (t : Fin cfg4.N) (i : S512x128.Idx) :
    i ∈ ((cfg4.win 3).blk t).view.set ↔ ∀ a : Fin 2, win4_3.index t a * S512x128.size a ≤ (i a).val ∧ (i a).val < win4_3.index t a * S512x128.size a + S512x128.size a := by
  show i ∈ ((View.whole main_v76).slice (win4_3.rect t)).set ↔ _
  rw [View.set_slice_whole, Rect.mem_set_unit]
  exact Iff.rfl

/-- Every index of the array is in the last point's block, the one that is written back. -/
theorem cover4 (i : S512x128.Idx) : ∃ t : Fin cfg4.N, (cfg4.win 3).flush t = true ∧ i ∈ ((cfg4.win 3).blk t).view.set := by
  have hN : grid4.N = 10 := N_4
  refine ⟨⟨9, by decide⟩, (flush4_3 _).mpr rfl, ?_⟩
  obtain ⟨-, -, -, -, -, -, e0, e1⟩ := idx_facts4 (⟨9, by decide⟩ : Fin cfg4.N)
  rw [mem_blk4]
  intro a
  match a with
  | ⟨0, _⟩ =>
    show win4_3.index _ (0 : Fin 2) * 512 ≤ (i 0).val ∧ (i 0).val < win4_3.index _ (0 : Fin 2) * 512 + 512
    have h0 : (i 0).val < 512 := (i 0).isLt
    rw [e0]; omega
  | ⟨1, _⟩ =>
    show win4_3.index _ (1 : Fin 2) * 128 ≤ (i 1).val ∧ (i 1).val < win4_3.index _ (1 : Fin 2) * 128 + 128
    have h1 : (i 1).val < 128 := (i 1).isLt
    rw [e1]; omega

/-- The pooling call's result array: the pooled sums of its three operand arrays. -/
theorem final4 (c : Dev nD) : (dat4 (F := Ideal) V c).arrAt 3 cfg4.N
    = Cert.Bridge.R.pool (V c main_v75) (V c main_v0) (V c main_v1) := by
  exact (dat4 (F := Ideal) V c).arrAt_eq_of_cover 3 (Cert.Bridge.R.pool (V c main_v75) (V c main_v0) (V c main_v1))
    (fun t ht => flushed4_eq V c t ht) cover4

end Cert.KernelIdeal.Hand

end
-- ==== Proof.Layers.lean ====
/-
  One layer of the network, and the two layers in a row.  A layer takes the node rows h to
  bnRelu z (mean z) (var z) γ β with z = mlp (msg h) W₁ b₁ W₂ b₂: message pass, perceptron, the column mean and variance
  of the perceptron's output, normalisation and positive part.  The first layer reads the first slices of the stacked
  weights, the second layer the second slices and the first layer's output.
-/
import proofs.«408064_j47811575939605_1_alg».proof.Proof.Iface

noncomputable section

namespace Cert.Bridge.R

open Cert.ReferenceIdeal Cert.ReferenceIdeal.Gen Idealize.ShloMosaic Idealize.ShloMosaic.TcCoe Idealize.ShloMosaic.StableHlo

/-- One layer with the first slices of the weights: h ↦ bnRelu z (mean z) (var z) γ₀ β₀ with z = mlp (msg h) W₁₀ b₁₀ W₂₀ b₂₀. -/
def layer0 (h : FVec Ideal S50000x128 .f32) (x1 x2 : IVec S800000 32) (x3 : FVec Ideal S800000 .f32)
    (x6 : FVec Ideal S2x128x128 .f32) (x7 : FVec Ideal S2x128 .f32) (x8 : FVec Ideal S2x128x128 .f32) (x9 x10 x11 : FVec Ideal S2x128 .f32) :
    FVec Ideal S50000x128 .f32 :=
  bnRelu (mlp (msg h x1 x2 x3) (mat0 x6) (row0 x7) (mat0 x8) (row0 x9))
    (colMean (mlp (msg h x1 x2 x3) (mat0 x6) (row0 x7) (mat0 x8) (row0 x9)))
    (colVar (mlp (msg h x1 x2 x3) (mat0 x6) (row0 x7) (mat0 x8) (row0 x9)) (colMean (mlp (msg h x1 x2 x3) (mat0 x6) (row0 x7) (mat0 x8) (row0 x9))))
    (row0 x10) (row0 x11)

/-- The same with the second slices. -/
def layer1 (h : FVec Ideal S50000x128 .f32) (x1 x2 : IVec S800000 32) (x3 : FVec Ideal S800000 .f32)
    (x6 : FVec Ideal S2x128x128 .f32) (x7 : FVec Ideal S2x128 .f32) (x8 : FVec Ideal S2x128x128 .f32) (x9 x10 x11 : FVec Ideal S2x128 .f32) :
    FVec Ideal S50000x128 .f32 :=
  bnRelu (mlp (msg h x1 x2 x3) (mat1 x6) (row1 x7) (mat1 x8) (row1 x9))
    (colMean (mlp (msg h x1 x2 x3) (mat1 x6) (row1 x7) (mat1 x8) (row1 x9)))
    (colVar (mlp (msg h x1 x2 x3) (mat1 x6) (row1 x7) (mat1 x8) (row1 x9)) (colMean (mlp (msg h x1 x2 x3) (mat1 x6) (row1 x7) (mat1 x8) (row1 x9))))
    (row1 x10) (row1 x11)

/-- The node result: two layers. -/
def nodes (x0 : FVec Ideal S50000x128 .f32) (x1 x2 : IVec S800000 32) (x3 : FVec Ideal S800000 .f32)
    (x6 : FVec Ideal S2x128x128 .f32) (x7 : FVec Ideal S2x128 .f32) (x8 : FVec Ideal S2x128x128 .f32) (x9 x10 x11 : FVec Ideal S2x128 .f32) :
    FVec Ideal S50000x128 .f32 :=
  layer1 (layer0 x0 x1 x2 x3 x6 x7 x8 x9 x10 x11) x1 x2 x3 x6 x7 x8 x9 x10 x11

/-! ## Equal operands give equal results -/

theorem msg_congr {h h' : FVec Ideal S50000x128 .f32} {x1 x1' x2 x2' : IVec S800000 32} {x3 x3' : FVec Ideal S800000 .f32}
    (e0 : h = h') (e1 : x1 = x1') (e2 : x2 = x2') (e3 : x3 = x3') : msg h x1 x2 x3 = msg h' x1' x2' x3' := by
  rw [e0, e1, e2, e3]

theorem mlp_congr {p p' : FVec Ideal S50000x128 .f32} {w1 w1' w2 w2' : FVec Ideal S128x128 .f32} {b1 b1' b2 b2' : FVec Ideal S128 .f32}
    (e0 : p = p') (e1 : w1 = w1') (e2 : b1 = b1') (e3 : w2 = w2') (e4 : b2 = b2') :
    mlp p w1 b1 w2 b2 = mlp p' w1' b1' w2' b2' := by
  rw [e0, e1, e2, e3, e4]

theorem bnRelu_congr {z z' : FVec Ideal S50000x128 .f32} {mu mu' var var' g g' b b' : FVec Ideal S128 .f32}
    (e0 : z = z') (e1 : mu = mu') (e2 : var = var') (e3 : g = g') (e4 : b = b') :
    bnRelu z mu var g b = bnRelu z' mu' var' g' b' := by
  rw [e0, e1, e2, e3, e4]

theorem pool_congr {h h' : FVec Ideal S50000x128 .f32} {w w' : FVec Ideal S50000x1 .f32} {gid gid' : IVec S50000x1 32}
    (e0 : h = h') (e1 : w = w') (e2 : gid = gid') : pool h w gid = pool h' w' gid' := by
  rw [e0, e1, e2]

end Cert.Bridge.R

end
-- ==== Proof.KerVal.lean ====
/-
  What the kernel program's two result arrays hold at the end, at the ideal values.  Follow the buffers from the launch:
  the first host stretch computes the message pass on the node features and cuts out layer 0's weights; the first
  perceptron call leaves the perceptron of those; the next stretch takes its column means and variances and cuts out
  layer 0's scale and shift; the first normalisation call leaves the first layer's output; the same four steps with the
  second slices of the weights, reading the first layer's output, leave the second layer's output — the node result —;
  and the pooling call leaves its weighted sums by graph id — the pooled result.  A buffer that a step neither writes
  nor owns as a result array holds after the step what it held before it, which is how the arguments, the two pooling
  columns and each call's result reach the step that reads them.
-/
import proofs.«408064_j47811575939605_1_alg».proof.Proof.RunAll
import proofs.«408064_j47811575939605_1_alg».proof.Proof.KerStages
import proofs.«408064_j47811575939605_1_alg».proof.Proof.ValFinal
import proofs.«408064_j47811575939605_1_alg».proof.Proof.ValPool
import proofs.«408064_j47811575939605_1_alg».proof.Proof.Layers
import Idealize.ShloMosaic.Lib.Pipeline.Cells

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.Pipeline (Dat Cfg Window)

variable (m : (ℓ : Loc nD τ sig) → Buf (Elt Ideal) ℓ) (ρ : Dev nD → PrngReg)

/-! ## A buffer no step has written yet holds what it held -/

/-- Through the first host stretch. -/
theorem keep1 (c : Dev nD) (b : Ref sig .tc) (h : b ∉ hostOps0_W) :
    W1 m ρ c (Proc.devRef .tc b) = W0 m ρ c (Proc.devRef .tc b) :=
  StableHlo.after_of_writes_sub hostOps0 _ hostOps0_writes h
/-- Through the second host stretch. -/
theorem keep3 (c : Dev nD) (b : Ref sig .tc) (h : b ∉ hostOps1_W) :
    W3 m ρ c (Proc.devRef .tc b) = W2 m ρ c (Proc.devRef .tc b) :=
  StableHlo.after_of_writes_sub hostOps1 _ hostOps1_writes h
/-- Through the third host stretch. -/
theorem keep5 (c : Dev nD) (b : Ref sig .tc) (h : b ∉ hostOps2_W) :
    W5 m ρ c (Proc.devRef .tc b) = W4 m ρ c (Proc.devRef .tc b) :=
  StableHlo.after_of_writes_sub hostOps2 _ hostOps2_writes h
/-- Through the fourth host stretch. -/
theorem keep7 (c : Dev nD) (b : Ref sig .tc) (h : b ∉ hostOps3_W) :
    W7 m ρ c (Proc.devRef .tc b) = W6 m ρ c (Proc.devRef .tc b) :=
  StableHlo.after_of_writes_sub hostOps3 _ hostOps3_writes h

/-- From the launch through the first call. -/
theorem upto2 (c : Dev nD) (b : Ref sig .tc) (h1 : b ∉ hostOps0_W) (h2 : ∀ w, Pipeline.arrRef spec0 w ≠ b) :
    W2 m ρ c (Proc.devRef .tc b) = W0 m ρ c (Proc.devRef .tc b) :=
  (W2_of_ne m ρ c b h2).trans (keep1 m ρ c b h1)
/-- From the launch through the second call. -/
theorem upto4 (c : Dev nD) (b : Ref sig .tc) (h1 : b ∉ hostOps0_W) (h2 : ∀ w, Pipeline.arrRef spec0 w ≠ b)
    (h3 : b ∉ hostOps1_W) (h4 : ∀ w, Pipeline.arrRef spec1 w ≠ b) :
    W4 m ρ c (Proc.devRef .tc b) = W0 m ρ c (Proc.devRef .tc b) :=
  (W4_of_ne m ρ c b h4).trans ((keep3 m ρ c b h3).trans (upto2 m ρ c b h1 h2))
/-- From the launch through the third call. -/
theorem upto6 (c : Dev nD) (b : Ref sig .tc) (h1 : b ∉ hostOps0_W) (h2 : ∀ w, Pipeline.arrRef spec0 w ≠ b)
    (h3 : b ∉ hostOps1_W) (h4 : ∀ w, Pipeline.arrRef spec1 w ≠ b)
    (h5 : b ∉ hostOps2_W) (h6 : ∀ w, Pipeline.arrRef spec2 w ≠ b) :
    W6 m ρ c (Proc.devRef .tc b) = W0 m ρ c (Proc.devRef .tc b) :=
  (W6_of_ne m ρ c b h6).trans ((keep5 m ρ c b h5).trans (upto4 m ρ c b h1 h2 h3 h4))
/-- From the first call through the fourth. -/
theorem from1to8 (c : Dev nD) (b : Ref sig .tc) (h2 : ∀ w, Pipeline.arrRef spec0 w ≠ b)
    (h3 : b ∉ hostOps1_W) (h4 : ∀ w, Pipeline.arrRef spec1 w ≠ b)
    (h5 : b ∉ hostOps2_W) (h6 : ∀ w, Pipeline.arrRef spec2 w ≠ b)
    (h7 : b ∉ hostOps3_W) (h8 : ∀ w, Pipeline.arrRef spec3 w ≠ b) :
    W8 m ρ c (Proc.devRef .tc b) = W1 m ρ c (Proc.devRef .tc b) :=
  (W8_of_ne m ρ c b h8).trans ((keep7 m ρ c b h7).trans ((W6_of_ne m ρ c b h6).trans ((keep5 m ρ c b h5).trans
    ((W4_of_ne m ρ c b h4).trans ((keep3 m ρ c b h3).trans (W2_of_ne m ρ c b h2))))))

/-! ## The arguments where a later host stretch reads them -/
theorem W2_arg10 (c : Dev nD) : W2 m ρ c (Proc.devRef .tc main_arg10) = m ((c : Thread nD τ).loc main_arg10) :=
  upto2 m ρ c main_arg10 (by decide) (by decide)
theorem W2_arg11 (c : Dev nD) : W2 m ρ c (Proc.devRef .tc main_arg11) = m ((c : Thread nD τ).loc main_arg11) :=
  upto2 m ρ c main_arg11 (by decide) (by decide)
theorem W4_arg1 (c : Dev nD) : W4 m ρ c (Proc.devRef .tc main_arg1) = m ((c : Thread nD τ).loc main_arg1) :=
  upto4 m ρ c main_arg1 (by decide) (by decide) (by decide) (by decide)
theorem W4_arg2 (c : Dev nD) : W4 m ρ c (Proc.devRef .tc main_arg2) = m ((c : Thread nD τ).loc main_arg2) :=
  upto4 m ρ c main_arg2 (by decide) (by decide) (by decide) (by decide)
theorem W4_arg3 (c : Dev nD) : W4 m ρ c (Proc.devRef .tc main_arg3) = m ((c : Thread nD τ).loc main_arg3) :=
  upto4 m ρ c main_arg3 (by decide) (by decide) (by decide) (by decide)
theorem W4_arg6 (c : Dev nD) : W4 m ρ c (Proc.devRef .tc main_arg6) = m ((c : Thread nD τ).loc main_arg6) :=
  upto4 m ρ c main_arg6 (by decide) (by decide) (by decide) (by decide)
theorem W4_arg7 (c : Dev nD) : W4 m ρ c (Proc.devRef .tc main_arg7) = m ((c : Thread nD τ).loc main_arg7) :=
  upto4 m ρ c main_arg7 (by decide) (by decide) (by decide) (by decide)
theorem W4_arg8 (c : Dev nD) : W4 m ρ c (Proc.devRef .tc main_arg8) = m ((c : Thread nD τ).loc main_arg8) :=
  upto4 m ρ c main_arg8 (by decide) (by decide) (by decide) (by decide)
theorem W4_arg9 (c : Dev nD) : W4 m ρ c (Proc.devRef .tc main_arg9) = m ((c : Thread nD τ).loc main_arg9) :=
  upto4 m ρ c main_arg9 (by decide) (by decide) (by decide) (by decide)
theorem W6_arg10 (c : Dev nD) : W6 m ρ c (Proc.devRef .tc main_arg10) = m ((c : Thread nD τ).loc main_arg10) :=
  upto6 m ρ c main_arg10 (by decide) (by decide) (by decide) (by decide) (by decide) (by decide)
theorem W6_arg11 (c : Dev nD) : W6 m ρ c (Proc.devRef .tc main_arg11) = m ((c : Thread nD τ).loc main_arg11) :=
  upto6 m ρ c main_arg11 (by decide) (by decide) (by decide) (by decide) (by decide) (by decide)

/-! ## The first layer -/

/-- The first message pass. -/
theorem W1_v14 (c : Dev nD) : W1 m ρ c (Proc.devRef .tc main_v14) = Cert.Bridge.R.msg (m ((c : Thread nD τ).loc main_arg0)) (m ((c : Thread nD τ).loc main_arg1)) (m ((c : Thread nD τ).loc main_arg2)) (m ((c : Thread nD τ).loc main_arg3)) :=
  s0_v14 (W0 m ρ c)
theorem W1_v16 (c : Dev nD) : W1 m ρ c (Proc.devRef .tc main_v16) = Cert.Bridge.R.mat0 (m ((c : Thread nD τ).loc main_arg6)) := s0_v16 (W0 m ρ c)
theorem W1_v18 (c : Dev nD) : W1 m ρ c (Proc.devRef .tc main_v18) = Cert.Bridge.R.row0 (m ((c : Thread nD τ).loc main_arg7)) := s0_v18 (W0 m ρ c)
theorem W1_v20 (c : Dev nD) : W1 m ρ c (Proc.devRef .tc main_v20) = Cert.Bridge.R.mat0 (m ((c : Thread nD τ).loc main_arg8)) := s0_v20 (W0 m ρ c)
theorem W1_v22 (c : Dev nD) : W1 m ρ c (Proc.devRef .tc main_v22) = Cert.Bridge.R.row0 (m ((c : Thread nD τ).loc main_arg9)) := s0_v22 (W0 m ρ c)
/-- The pooling's weight column. -/
theorem W1_v0 (c : Dev nD) : W1 m ρ c (Proc.devRef .tc main_v0) = Cert.Bridge.R.colF (m ((c : Thread nD τ).loc main_arg5)) := s0_v0 (W0 m ρ c)
/-- The pooling's id column. -/
theorem W1_v1 (c : Dev nD) : W1 m ρ c (Proc.devRef .tc main_v1) = Cert.Bridge.R.colI (m ((c : Thread nD τ).loc main_arg4)) := s0_v1 (W0 m ρ c)

/-- The first perceptron call's result. -/
theorem W2_v23 (c : Dev nD) : W2 m ρ c (Proc.devRef .tc main_v23) = (Cert.Bridge.R.mlp (Cert.Bridge.R.msg (m ((c : Thread nD τ).loc main_arg0)) (m ((c : Thread nD τ).loc main_arg1)) (m ((c : Thread nD τ).loc main_arg2)) (m ((c : Thread nD τ).loc main_arg3))) (Cert.Bridge.R.mat0 (m ((c : Thread nD τ).loc main_arg6))) (Cert.Bridge.R.row0 (m ((c : Thread nD τ).loc main_arg7))) (Cert.Bridge.R.mat0 (m ((c : Thread nD τ).loc main_arg8))) (Cert.Bridge.R.row0 (m ((c : Thread nD τ).loc main_arg9)))) :=
  (W2_arr m ρ c 5).trans ((final0 (V1 m ρ) c).trans
    (Cert.Bridge.R.mlp_congr (W1_v14 m ρ c) (W1_v16 m ρ c) (W1_v18 m ρ c) (W1_v20 m ρ c) (W1_v22 m ρ c)))

theorem W3_v23 (c : Dev nD) : W3 m ρ c (Proc.devRef .tc main_v23) = (Cert.Bridge.R.mlp (Cert.Bridge.R.msg (m ((c : Thread nD τ).loc main_arg0)) (m ((c : Thread nD τ).loc main_arg1)) (m ((c : Thread nD τ).loc main_arg2)) (m ((c : Thread nD τ).loc main_arg3))) (Cert.Bridge.R.mat0 (m ((c : Thread nD τ).loc main_arg6))) (Cert.Bridge.R.row0 (m ((c : Thread nD τ).loc main_arg7))) (Cert.Bridge.R.mat0 (m ((c : Thread nD τ).loc main_arg8))) (Cert.Bridge.R.row0 (m ((c : Thread nD τ).loc main_arg9)))) :=
  (keep3 m ρ c main_v23 (by decide)).trans (W2_v23 m ρ c)
theorem W3_v26 (c : Dev nD) : W3 m ρ c (Proc.devRef .tc main_v26) = Cert.Bridge.R.colMean (Cert.Bridge.R.mlp (Cert.Bridge.R.msg (m ((c : Thread nD τ).loc main_arg0)) (m ((c : Thread nD τ).loc main_arg1)) (m ((c : Thread nD τ).loc main_arg2)) (m ((c : Thread nD τ).loc main_arg3))) (Cert.Bridge.R.mat0 (m ((c : Thread nD τ).loc main_arg6))) (Cert.Bridge.R.row0 (m ((c : Thread nD τ).loc main_arg7))) (Cert.Bridge.R.mat0 (m ((c : Thread nD τ).loc main_arg8))) (Cert.Bridge.R.row0 (m ((c : Thread nD τ).loc main_arg9)))) :=
  (s1_v26 (W2 m ρ c)).trans (congrArg Cert.Bridge.R.colMean (W2_v23 m ρ c))
theorem W3_v33 (c : Dev nD) : W3 m ρ c (Proc.devRef .tc main_v33) = Cert.Bridge.R.colVar (Cert.Bridge.R.mlp (Cert.Bridge.R.msg (m ((c : Thread nD τ).loc main_arg0)) (m ((c : Thread nD τ).loc main_arg1)) (m ((c : Thread nD τ).loc main_arg2)) (m ((c : Thread nD τ).loc main_arg3))) (Cert.Bridge.R.mat0 (m ((c : Thread nD τ).loc main_arg6))) (Cert.Bridge.R.row0 (m ((c : Thread nD τ).loc main_arg7))) (Cert.Bridge.R.mat0 (m ((c : Thread nD τ).loc main_arg8))) (Cert.Bridge.R.row0 (m ((c : Thread nD τ).loc main_arg9)))) (Cert.Bridge.R.colMean (Cert.Bridge.R.mlp (Cert.Bridge.R.msg (m ((c : Thread nD τ).loc main_arg0)) (m ((c : Thread nD τ).loc main_arg1)) (m ((c : Thread nD τ).loc main_arg2)) (m ((c : Thread nD τ).loc main_arg3))) (Cert.Bridge.R.mat0 (m ((c : Thread nD τ).loc main_arg6))) (Cert.Bridge.R.row0 (m ((c : Thread nD τ).loc main_arg7))) (Cert.Bridge.R.mat0 (m ((c : Thread nD τ).loc main_arg8))) (Cert.Bridge.R.row0 (m ((c : Thread nD τ).loc main_arg9))))) :=
  (s1_v33 (W2 m ρ c)).trans (by rw [W2_v23 m ρ c])
theorem W3_v35 (c : Dev nD) : W3 m ρ c (Proc.devRef .tc main_v35) = Cert.Bridge.R.row0 (m ((c : Thread nD τ).loc main_arg10)) :=
  (s1_v35 (W2 m ρ c)).trans (congrArg Cert.Bridge.R.row0 (W2_arg10 m ρ c))
theorem W3_v37 (c : Dev nD) : W3 m ρ c (Proc.devRef .tc main_v37) = Cert.Bridge.R.row0 (m ((c : Thread nD τ).loc main_arg11)) :=
  (s1_v37 (W2 m ρ c)).trans (congrArg Cert.Bridge.R.row0 (W2_arg11 m ρ c))

/-- The first normalisation call's result: the first layer's output. -/
theorem W4_v38 (c : Dev nD) : W4 m ρ c (Proc.devRef .tc main_v38) = (Cert.Bridge.R.layer0 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (W4_arr m ρ c 5).trans ((final1 (V3 m ρ) c).trans
    (Cert.Bridge.R.bnRelu_congr (W3_v23 m ρ c) (W3_v26 m ρ c) (W3_v33 m ρ c) (W3_v35 m ρ c) (W3_v37 m ρ c)))

/-! ## The second layer -/

/-- The second message pass, on the first layer's output. -/
theorem W5_v51 (c : Dev nD) : W5 m ρ c (Proc.devRef .tc main_v51) = Cert.Bridge.R.msg (Cert.Bridge.R.layer0 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3)) :=
  (s2_v51 (W4 m ρ c)).trans (Cert.Bridge.R.msg_congr (W4_v38 m ρ c) (W4_arg1 m ρ c) (W4_arg2 m ρ c) (W4_arg3 m ρ c))
theorem W5_v53 (c : Dev nD) : W5 m ρ c (Proc.devRef .tc main_v53) = Cert.Bridge.R.mat1 (m ((c : Thread nD τ).loc main_arg6)) :=
  (s2_v53 (W4 m ρ c)).trans (congrArg Cert.Bridge.R.mat1 (W4_arg6 m ρ c))
theorem W5_v55 (c : Dev nD) : W5 m ρ c (Proc.devRef .tc main_v55) = Cert.Bridge.R.row1 (m ((c : Thread nD τ).loc main_arg7)) :=
  (s2_v55 (W4 m ρ c)).trans (congrArg Cert.Bridge.R.row1 (W4_arg7 m ρ c))
theorem W5_v57 (c : Dev nD) : W5 m ρ c (Proc.devRef .tc main_v57) = Cert.Bridge.R.mat1 (m ((c : Thread nD τ).loc main_arg8)) :=
  (s2_v57 (W4 m ρ c)).trans (congrArg Cert.Bridge.R.mat1 (W4_arg8 m ρ c))
theorem W5_v59 (c : Dev nD) : W5 m ρ c (Proc.devRef .tc main_v59) = Cert.Bridge.R.row1 (m ((c : Thread nD τ).loc main_arg9)) :=
  (s2_v59 (W4 m ρ c)).trans (congrArg Cert.Bridge.R.row1 (W4_arg9 m ρ c))

/-- The second perceptron call's result. -/
theorem W6_v60 (c : Dev nD) : W6 m ρ c (Proc.devRef .tc main_v60) = (Cert.Bridge.R.mlp (Cert.Bridge.R.msg (Cert.Bridge.R.layer0 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3))) (Cert.Bridge.R.mat1 (m ((c : Thread nD τ).loc main_arg6))) (Cert.Bridge.R.row1 (m ((c : Thread nD τ).loc main_arg7))) (Cert.Bridge.R.mat1 (m ((c : Thread nD τ).loc main_arg8))) (Cert.Bridge.R.row1 (m ((c : Thread nD τ).loc main_arg9)))) :=
  (W6_arr m ρ c 5).trans ((final2 (V5 m ρ) c).trans
    (Cert.Bridge.R.mlp_congr (W5_v51 m ρ c) (W5_v53 m ρ c) (W5_v55 m ρ c) (W5_v57 m ρ c) (W5_v59 m ρ c)))

theorem W7_v60 (c : Dev nD) : W7 m ρ c (Proc.devRef .tc main_v60) = (Cert.Bridge.R.mlp (Cert.Bridge.R.msg (Cert.Bridge.R.layer0 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3))) (Cert.Bridge.R.mat1 (m ((c : Thread nD τ).loc main_arg6))) (Cert.Bridge.R.row1 (m ((c : Thread nD τ).loc main_arg7))) (Cert.Bridge.R.mat1 (m ((c : Thread nD τ).loc main_arg8))) (Cert.Bridge.R.row1 (m ((c : Thread nD τ).loc main_arg9)))) :=
  (keep7 m ρ c main_v60 (by decide)).trans (W6_v60 m ρ c)
theorem W7_v63 (c : Dev nD) : W7 m ρ c (Proc.devRef .tc main_v63) = Cert.Bridge.R.colMean (Cert.Bridge.R.mlp (Cert.Bridge.R.msg (Cert.Bridge.R.layer0 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3))) (Cert.Bridge.R.mat1 (m ((c : Thread nD τ).loc main_arg6))) (Cert.Bridge.R.row1 (m ((c : Thread nD τ).loc main_arg7))) (Cert.Bridge.R.mat1 (m ((c : Thread nD τ).loc main_arg8))) (Cert.Bridge.R.row1 (m ((c : Thread nD τ).loc main_arg9)))) :=
  (s3_v63 (W6 m ρ c)).trans (congrArg Cert.Bridge.R.colMean (W6_v60 m ρ c))
theorem W7_v70 (c : Dev nD) : W7 m ρ c (Proc.devRef .tc main_v70) = Cert.Bridge.R.colVar (Cert.Bridge.R.mlp (Cert.Bridge.R.msg (Cert.Bridge.R.layer0 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3))) (Cert.Bridge.R.mat1 (m ((c : Thread nD τ).loc main_arg6))) (Cert.Bridge.R.row1 (m ((c : Thread nD τ).loc main_arg7))) (Cert.Bridge.R.mat1 (m ((c : Thread nD τ).loc main_arg8))) (Cert.Bridge.R.row1 (m ((c : Thread nD τ).loc main_arg9)))) (Cert.Bridge.R.colMean (Cert.Bridge.R.mlp (Cert.Bridge.R.msg (Cert.Bridge.R.layer0 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3))) (Cert.Bridge.R.mat1 (m ((c : Thread nD τ).loc main_arg6))) (Cert.Bridge.R.row1 (m ((c : Thread nD τ).loc main_arg7))) (Cert.Bridge.R.mat1 (m ((c : Thread nD τ).loc main_arg8))) (Cert.Bridge.R.row1 (m ((c : Thread nD τ).loc main_arg9))))) :=
  (s3_v70 (W6 m ρ c)).trans (by rw [W6_v60 m ρ c])
theorem W7_v72 (c : Dev nD) : W7 m ρ c (Proc.devRef .tc main_v72) = Cert.Bridge.R.row1 (m ((c : Thread nD τ).loc main_arg10)) :=
  (s3_v72 (W6 m ρ c)).trans (congrArg Cert.Bridge.R.row1 (W6_arg10 m ρ c))
theorem W7_v74 (c : Dev nD) : W7 m ρ c (Proc.devRef .tc main_v74) = Cert.Bridge.R.row1 (m ((c : Thread nD τ).loc main_arg11)) :=
  (s3_v74 (W6 m ρ c)).trans (congrArg Cert.Bridge.R.row1 (W6_arg11 m ρ c))

/-- The second normalisation call's result: the node result. -/
theorem W8_v75 (c : Dev nD) : W8 m ρ c (Proc.devRef .tc main_v75) = (Cert.Bridge.R.nodes (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (W8_arr m ρ c 5).trans ((final3 (V7 m ρ) c).trans
    (Cert.Bridge.R.bnRelu_congr (W7_v60 m ρ c) (W7_v63 m ρ c) (W7_v70 m ρ c) (W7_v72 m ρ c) (W7_v74 m ρ c)))

/-! ## The pooling -/

theorem W8_v0 (c : Dev nD) : W8 m ρ c (Proc.devRef .tc main_v0) = Cert.Bridge.R.colF (m ((c : Thread nD τ).loc main_arg5)) :=
  (from1to8 m ρ c main_v0 (by decide) (by decide) (by decide) (by decide) (by decide) (by decide) (by decide)).trans (W1_v0 m ρ c)
theorem W8_v1 (c : Dev nD) : W8 m ρ c (Proc.devRef .tc main_v1) = Cert.Bridge.R.colI (m ((c : Thread nD τ).loc main_arg4)) :=
  (from1to8 m ρ c main_v1 (by decide) (by decide) (by decide) (by decide) (by decide) (by decide) (by decide)).trans (W1_v1 m ρ c)

/-- The pooled result at the end. -/
theorem W9_v76 (c : Dev nD) : W9 m ρ c (Proc.devRef .tc main_v76) = Cert.Bridge.R.pool (Cert.Bridge.R.nodes (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Cert.Bridge.R.colF (m ((c : Thread nD τ).loc main_arg5))) (Cert.Bridge.R.colI (m ((c : Thread nD τ).loc main_arg4))) :=
  (W9_arr m ρ c 3).trans ((final4 (V8 m ρ) c).trans
    (Cert.Bridge.R.pool_congr (W8_v75 m ρ c) (W8_v0 m ρ c) (W8_v1 m ρ c)))

/-- The node result at the end: the pooling call only reads it. -/
theorem W9_v75 (c : Dev nD) : W9 m ρ c (Proc.devRef .tc main_v75) = (Cert.Bridge.R.nodes (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (W9_arr m ρ c 0).trans (((dat4 (V8 m ρ) c).arrAt_in 0 rfl cfg4.N).trans ((A_eq4 (V8 m ρ) c 0).trans (W8_v75 m ρ c)))

/-! ## The run, with its two results named -/

/-- Every weakly fair execution of the program at the ideal values ends, nothing faulting, with the pooled result at the
    pooling of the node result, the node result at two layers of the arguments, and the arguments as launched. -/
theorem run_value : θ_run defs (onTc (τ := τ) (main (F := Ideal))) ⟨m, fun _ => 0, ρ⟩ (fun r => ∀ c : Dev nD,
      r.2.mem ((c.tc : Thread nD τ).loc main_v76) = Cert.Bridge.R.pool (Cert.Bridge.R.nodes (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Cert.Bridge.R.colF (m ((c : Thread nD τ).loc main_arg5))) (Cert.Bridge.R.colI (m ((c : Thread nD τ).loc main_arg4)))
      ∧ r.2.mem ((c.tc : Thread nD τ).loc main_v75) = (Cert.Bridge.R.nodes (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v76 (by decide))).trans (W9_v76 m ρ c),
      (h c _ (mem_uc main_v75 (by decide))).trans (W9_v75 m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c)⟩)
    (run_all m ρ)

end Cert.KernelIdeal.Hand

end
-- ==== Proof.RefStages.lean ====
/-
  The reference, stage by stage: each value the reference computes along the way is one of the named functions —
  the message pass, the perceptron, the column mean and variance, the normalisation with its positive part, and at
  the end the weighted pooling by graph id — applied to the stage before it and to the layer's slices of the weights.
  Each equation holds by unfolding the two sides to the same term of host operations.
-/
import proofs.«408064_j47811575939605_1_alg».proof.Proof.Iface
import proofs.«408064_j47811575939605_1_alg».proof.Proof.Gen.ReferenceIdeal.Read

noncomputable section

namespace Cert.Bridge.R

open Cert.ReferenceIdeal Cert.ReferenceIdeal.Gen Idealize.ShloMosaic Idealize.ShloMosaic.TcCoe Idealize.ShloMosaic.StableHlo

variable (x0 : (⟨S50000x128, .f32⟩ : BufTy).Contents (Elt Ideal)) (x1 x2 : (⟨S800000, .i32⟩ : BufTy).Contents (Elt Ideal)) (x3 : (⟨S800000, .f32⟩ : BufTy).Contents (Elt Ideal))
  (x4 : (⟨S50000, .i32⟩ : BufTy).Contents (Elt Ideal)) (x5 : (⟨S50000, .f32⟩ : BufTy).Contents (Elt Ideal))
  (x6 : (⟨S2x128x128, .f32⟩ : BufTy).Contents (Elt Ideal)) (x7 : (⟨S2x128, .f32⟩ : BufTy).Contents (Elt Ideal))
  (x8 : (⟨S2x128x128, .f32⟩ : BufTy).Contents (Elt Ideal)) (x9 x10 x11 : (⟨S2x128, .f32⟩ : BufTy).Contents (Elt Ideal))

/-! ## The first layer -/

/-- The first message pass, on the node features. -/
theorem v12_eq : Read.val_main_v12 (F := Ideal) x0 x1 x2 x3 = msg x0 x1 x2 x3 := rfl

/-- The first perceptron, with layer 0's weights and biases. -/
theorem v29_eq : Read.val_main_v29 (F := Ideal) x0 x1 x2 x3 x6 x7 x8 x9
    = mlp (msg x0 x1 x2 x3) (mat0 x6) (row0 x7) (mat0 x8) (row0 x9) := rfl

/-- The column means of the first perceptron's output. -/
theorem v32_eq : Read.val_main_v32 (F := Ideal) x0 x1 x2 x3 x6 x7 x8 x9
    = colMean (Read.val_main_v29 (F := Ideal) x0 x1 x2 x3 x6 x7 x8 x9) := rfl

/-- Its column variances about those means. -/
theorem v39_eq : Read.val_main_v39 (F := Ideal) x0 x1 x2 x3 x6 x7 x8 x9
    = colVar (Read.val_main_v29 (F := Ideal) x0 x1 x2 x3 x6 x7 x8 x9) (Read.val_main_v32 (F := Ideal) x0 x1 x2 x3 x6 x7 x8 x9) := rfl

/-- The first normalisation and positive part, with layer 0's scale and shift. -/
theorem v59_eq : Read.val_main_v59 (F := Ideal) x0 x1 x2 x3 x6 x7 x8 x9 x10 x11
    = bnRelu (Read.val_main_v29 (F := Ideal) x0 x1 x2 x3 x6 x7 x8 x9) (Read.val_main_v32 (F := Ideal) x0 x1 x2 x3 x6 x7 x8 x9)
        (Read.val_main_v39 (F := Ideal) x0 x1 x2 x3 x6 x7 x8 x9) (row0 x10) (row0 x11) := rfl

/-! ## The second layer -/

/-- The second message pass, on the first layer's output. -/
theorem v72_eq : Read.val_main_v72 (F := Ideal) x0 x1 x2 x3 x6 x7 x8 x9 x10 x11
    = msg (Read.val_main_v59 (F := Ideal) x0 x1 x2 x3 x6 x7 x8 x9 x10 x11) x1 x2 x3 := rfl

/-- The second perceptron, with layer 1's weights and biases. -/
theorem v89_eq : Read.val_main_v89 (F := Ideal) x0 x1 x2 x3 x6 x7 x8 x9 x10 x11
    = mlp (Read.val_main_v72 (F := Ideal) x0 x1 x2 x3 x6 x7 x8 x9 x10 x11) (mat1 x6) (row1 x7) (mat1 x8) (row1 x9) := rfl

/-- The column means of the second perceptron's output. -/
theorem v92_eq : Read.val_main_v92 (F := Ideal) x0 x1 x2 x3 x6 x7 x8 x9 x10 x11
    = colMean (Read.val_main_v89 (F := Ideal) x0 x1 x2 x3 x6 x7 x8 x9 x10 x11) := rfl

/-- Its column variances about those means. -/
theorem v99_eq : Read.val_main_v99 (F := Ideal) x0 x1 x2 x3 x6 x7 x8 x9 x10 x11
    = colVar (Read.val_main_v89 (F := Ideal) x0 x1 x2 x3 x6 x7 x8 x9 x10 x11) (Read.val_main_v92 (F := Ideal) x0 x1 x2 x3 x6 x7 x8 x9 x10 x11) := rfl

/-- The second normalisation and positive part, with layer 1's scale and shift. -/
theorem v119_eq : Read.val_main_v119 (F := Ideal) x0 x1 x2 x3 x6 x7 x8 x9 x10 x11
    = bnRelu (Read.val_main_v89 (F := Ideal) x0 x1 x2 x3 x6 x7 x8 x9 x10 x11) (Read.val_main_v92 (F := Ideal) x0 x1 x2 x3 x6 x7 x8 x9 x10 x11)
        (Read.val_main_v99 (F := Ideal) x0 x1 x2 x3 x6 x7 x8 x9 x10 x11) (row1 x10) (row1 x11) := rfl

/-! ## The pooling -/

/-- The result: the second layer's output, weighted node by node and summed by graph id. -/
theorem v125_eq : Read.val_main_v125 (F := Ideal) x0 x1 x2 x3 x4 x5 x6 x7 x8 x9 x10 x11
    = pool (Read.val_main_v119 (F := Ideal) x0 x1 x2 x3 x6 x7 x8 x9 x10 x11) (colF x5) (colI x4) := rfl

end Cert.Bridge.R

end
-- ==== Proof.RefNodes.lean ====
/-
  The reference, put together.  One layer is: message pass, perceptron, column mean and variance of the perceptron's
  output, normalisation and positive part.  The node result is two layers, the second reading the first layer's output
  and the second slices of the weights; the pooled result is the weighted pooling of the node result.  Stage by stage
  the reference's host operations are these functions, so its two results are these two compositions of its arguments.
-/
import proofs.«408064_j47811575939605_1_alg».proof.Proof.RefStages
import proofs.«408064_j47811575939605_1_alg».proof.Proof.Layers

noncomputable section

namespace Cert.Bridge.R

open Cert.ReferenceIdeal Cert.ReferenceIdeal.Gen Idealize.ShloMosaic Idealize.ShloMosaic.TcCoe Idealize.ShloMosaic.StableHlo

/-- The reference's node result is two layers of its arguments. -/
theorem ref_nodes (x0 : FVec Ideal S50000x128 .f32) (x1 x2 : IVec S800000 32) (x3 : FVec Ideal S800000 .f32)
    (x6 : FVec Ideal S2x128x128 .f32) (x7 : FVec Ideal S2x128 .f32) (x8 : FVec Ideal S2x128x128 .f32) (x9 x10 x11 : FVec Ideal S2x128 .f32) :
    Read.val_main_v119 (F := Ideal) x0 x1 x2 x3 x6 x7 x8 x9 x10 x11 = nodes x0 x1 x2 x3 x6 x7 x8 x9 x10 x11 := by
  rw [v119_eq, v99_eq, v92_eq, v89_eq, v72_eq, v59_eq, v39_eq, v32_eq, v29_eq]
  rfl

/-- The reference's pooled result is the pooling of that node result, weighted by the weight column, by the id column. -/
theorem ref_pooled (x0 : FVec Ideal S50000x128 .f32) (x1 x2 : IVec S800000 32) (x3 : FVec Ideal S800000 .f32)
    (x4 : IVec S50000 32) (x5 : FVec Ideal S50000 .f32)
    (x6 : FVec Ideal S2x128x128 .f32) (x7 : FVec Ideal S2x128 .f32) (x8 : FVec Ideal S2x128x128 .f32) (x9 x10 x11 : FVec Ideal S2x128 .f32) :
    Read.val_main_v125 (F := Ideal) x0 x1 x2 x3 x4 x5 x6 x7 x8 x9 x10 x11 = pool (nodes x0 x1 x2 x3 x6 x7 x8 x9 x10 x11) (colF x5) (colI x4) := by
  rw [v125_eq, ref_nodes]

end Cert.Bridge.R

end
-- ==== Proof.lean ====
/-
  The five claims.  The network is two layers — message pass, a two-matrix perceptron, normalisation over the node axis
  with the positive part — followed by a weighted pooling of the node rows by graph id; it returns the pooled array and
  the node array.  The kernel program runs the message passes and the column statistics as host operations and the
  perceptron, the normalisation and the pooling as five tiled calls over blocks of 5000 node rows; the reference runs
  everything as host operations.

  Frames: each call's body, at any grid point, loads its staged blocks, computes and stores into its output buffer (the
  pooling call also into a scratch that carries the running sums from point to point), so each call runs to its end and
  writes only its result array; the host stretches write only their own results; chained from the launch to the return
  this gives termination without a fault and the twelve argument arrays as launched, at the word values and at the
  ideal values alike.  The reference's frame is its run as a sequence of host operations.

  Values, at the ideal values: a block's perceptron is the matching rows of the whole perceptron, because a row of the
  result reads the same row of the operand only, a change of float format is the identity and a product accumulated
  into zero is the plain sum; a block's normalisation is the matching rows of the whole normalisation, entry by entry;
  and the pooling call's running sums, block after block, are the sums over all node rows of the one-hot row of the
  graph id times the weighted node row, which is the reference's scatter-add into the rows the ids name (an id outside
  0 … 511 contributes to no row on either side).  So both programs end with the same two functions of the arguments.
  The ideal pass rewrote no operation, so there is nothing to preserve.
-/
import proofs.«408064_j47811575939605_1_alg».proof.Defs
import proofs.«408064_j47811575939605_1_alg».proof.Proof.Gen.Kernel
import proofs.«408064_j47811575939605_1_alg».proof.Proof.Gen.Kernel.Skeleton
import proofs.«408064_j47811575939605_1_alg».proof.Proof.Gen.Kernel.Launch
import proofs.«408064_j47811575939605_1_alg».proof.Proof.Gen.Kernel.Regions
import proofs.«408064_j47811575939605_1_alg».proof.Proof.Gen.Kernel.Points
import proofs.«408064_j47811575939605_1_alg».proof.Proof.Gen.KernelIdeal
import proofs.«408064_j47811575939605_1_alg».proof.Proof.Gen.KernelIdeal.Skeleton
import proofs.«408064_j47811575939605_1_alg».proof.Proof.Gen.KernelIdeal.Launch
import proofs.«408064_j47811575939605_1_alg».proof.Proof.Gen.KernelIdeal.Regions
import proofs.«408064_j47811575939605_1_alg».proof.Proof.Gen.KernelIdeal.Points
import proofs.«408064_j47811575939605_1_alg».proof.Proof.Gen.ReferenceIdeal
import proofs.«408064_j47811575939605_1_alg».proof.Proof.Gen.ReferenceIdeal.Run
import proofs.«408064_j47811575939605_1_alg».proof.Proof.Gen.ReferenceIdeal.Read
import proofs.«408064_j47811575939605_1_alg».proof.Proof.Gen.Pre_finite_inputs
import proofs.«408064_j47811575939605_1_alg».proof.Proof.BitsRunAll
import proofs.«408064_j47811575939605_1_alg».proof.Proof.KerVal
import proofs.«408064_j47811575939605_1_alg».proof.Proof.RefNodes
import Idealize.ShloMosaic.Adequacy
import Idealize.ShloMosaic.Init

noncomputable section

namespace Cert.Proof

open Idealize.ShloMosaic Idealize.SL.Sem

/-- The kernel program at the word values runs to its end and leaves its arguments as launched. -/
theorem frame_kernel : Cert.frame_Kernel := fun m ρ _ => Cert.Kernel.Hand.frame m ρ

/-- The same at the ideal values. -/
theorem frame_kernelIdeal : Cert.frame_KernelIdeal := fun m ρ _ => Cert.KernelIdeal.Hand.frame m ρ

/-- The reference: its run as a sequence of host operations, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the pooled array at the pooling of the node array and the node array at two layers of the
    arguments: the kernel program by following its buffers from the launch, the reference stage by stage; the
    arguments agree, so the results do. -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [Cert.ReferenceIdeal.Read.val_main_v125_eq, Cert.Bridge.R.ref_pooled, e0, e1, e2, e3, e4, e5, e6, e7, e8, e9, e10, e11]
  · obtain ⟨e0, e1, e2, e3, e4, e5, e6, e7, e8, e9, e10, e11⟩ := hagree c
    rw [Cert.ReferenceIdeal.Read.val_main_v119_eq, Cert.Bridge.R.ref_nodes, e0, e1, e2, e3, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
